-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S1024 : Shape := ⟨1, ![1024]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_arg3 : IVec S1024 32) (main_arg4 : IVec S1024 32) (main_v10 : IVec S_ 1) (main_v15 : IVec S1024 1) (main_c_5 : IVec S_ 1) : IVec S_ 1 :=
  let main_v16 : IVec S_ 1 := (fun x v => Host.reduce IntOp.andi x v reducesTo_S1024_S_d0 h_S_) main_v15 main_c_5
  let main_v17 : IVec S_ 1 := andi main_v10 main_v16
  let main_c_6 : IVec S_ 32 := constantI S_ 32 0#32
  let main_v18 : IVec S1024 32 := broadcastInDim S1024 ![] bcast_S_S1024 main_c_6
  let main_v19 : IVec S1024 1 := cmpi .sge main_arg3 main_v18
  let main_c_7 : IVec S_ 32 := constantI S_ 32 1024#32
  let main_v20 : IVec S1024 32 := broadcastInDim S1024 ![] bcast_S_S1024 main_c_7
  let main_v21 : IVec S1024 1 := cmpi .slt main_arg3 main_v20
  let main_v22 : IVec S1024 1 := andi main_v19 main_v21
  let main_c_8 : IVec S_ 1 := constantI S_ 1 1#1
  let main_v23 : IVec S_ 1 := (fun x v => Host.reduce IntOp.andi x v reducesTo_S1024_S_d0 h_S_) main_v22 main_c_8
  let main_v24 : IVec S_ 1 := andi main_v17 main_v23
  let main_c_9 : IVec S_ 32 := constantI S_ 32 0#32
  let main_v25 : IVec S1024 32 := broadcastInDim S1024 ![] bcast_S_S1024 main_c_9
  let main_v26 : IVec S1024 1 := cmpi .sge main_arg4 main_v25
  let main_c_10 : IVec S_ 32 := constantI S_ 32 1024#32
  let main_v27 : IVec S1024 32 := broadcastInDim S1024 ![] bcast_S_S1024 main_c_10
  let main_v28 : IVec S1024 1 := cmpi .slt main_arg4 main_v27
  let main_v29 : IVec S1024 1 := andi main_v26 main_v28
  let main_c_11 : IVec S_ 1 := constantI S_ 1 1#1
  let main_v30 : IVec S_ 1 := (fun x v => Host.reduce IntOp.andi x v reducesTo_S1024_S_d0 h_S_) main_v29 main_c_11
  let main_v31 : IVec S_ 1 := andi main_v24 main_v30
  main_v31

def fn {F : FTy → Type} [FloatOps F] (main_arg0 : FVec F S131072x256 .f32) (main_arg1 : IVec S1024 32) (main_arg2 : IVec S1024 32) (main_arg3 : IVec S1024 32) (main_arg4 : IVec S1024 32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_c_0 : IVec S_ 32 := constantI S_ 32 0#32
  let main_v4 : IVec S1024 32 := broadcastInDim S1024 ![] bcast_S_S1024 main_c_0
  let main_v5 : IVec S1024 1 := cmpi .sge main_arg1 main_v4
  let main_c_1 : IVec S_ 32 := constantI S_ 32 131072#32
  let main_v6 : IVec S1024 32 := broadcastInDim S1024 ![] bcast_S_S1024 main_c_1
  let main_v7 : IVec S1024 1 := cmpi .slt main_arg1 main_v6
  let main_v8 : IVec S1024 1 := andi main_v5 main_v7
  let main_c_2 : IVec S_ 1 := constantI S_ 1 1#1
  let main_v9 : IVec S_ 1 := (fun x v => Host.reduce IntOp.andi x v reducesTo_S1024_S_d0 h_S_) main_v8 main_c_2
  let main_v10 : IVec S_ 1 := andi main_v3 main_v9
  let main_c_3 : IVec S_ 32 := constantI S_ 32 0#32
  let main_v11 : IVec S1024 32 := broadcastInDim S1024 ![] bcast_S_S1024 main_c_3
  let main_v12 : IVec S1024 1 := cmpi .sge main_arg2 main_v11
  let main_c_4 : IVec S_ 32 := constantI S_ 32 131072#32
  let main_v13 : IVec S1024 32 := broadcastInDim S1024 ![] bcast_S_S1024 main_c_4
  let main_v14 : IVec S1024 1 := cmpi .slt main_arg2 main_v13
  let main_v15 : IVec S1024 1 := andi main_v12 main_v14
  let main_c_5 : IVec S_ 1 := constantI S_ 1 1#1
  fn_part1 (F := F) main_arg3 main_arg4 main_v10 main_v15 main_c_5
-- ==== Kernel.lean ====
abbrev S131072x256 : Shape := ⟨2, ![131072, 256]⟩
abbrev S1024 : Shape := ⟨1, ![1024]⟩
abbrev S131072x2x128 : Shape := ⟨3, ![131072, 2, 128]⟩
abbrev S1024x2x128 : Shape := ⟨3, ![1024, 2, 128]⟩
abbrev S1x2x128 : Shape := ⟨3, ![1, 2, 128]⟩
abbrev S1 : Shape := ⟨1, ![1]⟩
abbrev S1024x256 : Shape := ⟨2, ![1024, 256]⟩
abbrev S1024x1024 : Shape := ⟨2, ![1024, 1024]⟩
abbrev S64x256 : Shape := ⟨2, ![64, 256]⟩
abbrev S128x256 : Shape := ⟨2, ![128, 256]⟩
abbrev S64x128 : Shape := ⟨2, ![64, 128]⟩
abbrev S64x32 : Shape := ⟨2, ![64, 32]⟩
abbrev S128x32 : Shape := ⟨2, ![128, 32]⟩
abbrev S64x1x32 : Shape := ⟨3, ![64, 1, 32]⟩
abbrev S1x128x32 : Shape := ⟨3, ![1, 128, 32]⟩
abbrev S64x128x32 : Shape := ⟨3, ![64, 128, 32]⟩

abbrev nBuf : Space → Nat
  | .hbm => 9
  | .vmem => 24
  | .smem => 4
  | _ => 0

abbrev bufTy : (tb : Table) → Fin (tcTables nBuf tb) → BufTy
  | .hbm, ⟨0, _⟩ => ⟨S131072x256, .f32⟩
  | .hbm, ⟨1, _⟩ => ⟨S131072x2x128, .f32⟩
  | .hbm, ⟨2, _⟩ => ⟨S1024x2x128, .f32⟩
  | .hbm, ⟨3, _⟩ => ⟨S1024x256, .f32⟩
  | .hbm, ⟨4, _⟩ => ⟨S1024x1024, .f32⟩
  | .hbm, ⟨5, _⟩ => ⟨S1024x2x128, .f32⟩
  | .hbm, ⟨6, _⟩ => ⟨S1024x2x128, .f32⟩
  | .hbm, ⟨7, _⟩ => ⟨S1024x256, .f32⟩
  | .hbm, ⟨8, _⟩ => ⟨S1024x1024, .f32⟩
  | .local _ .vmem, ⟨0, _⟩ => ⟨S1x2x128, .f32⟩
  | .local _ .vmem, ⟨1, _⟩ => ⟨S1x2x128, .f32⟩
  | .local _ .vmem, ⟨2, _⟩ => ⟨S1x2x128, .f32⟩
  | .local _ .vmem, ⟨3, _⟩ => ⟨S1x2x128, .f32⟩
  | .local _ .vmem, ⟨4, _⟩ => ⟨S1x2x128, .f32⟩
  | .local _ .vmem, ⟨5, _⟩ => ⟨S1x2x128, .f32⟩
  | .local _ .vmem, ⟨6, _⟩ => ⟨S64x256, .f32⟩
  | .local _ .vmem, ⟨7, _⟩ => ⟨S64x256, .f32⟩
  | .local _ .vmem, ⟨8, _⟩ => ⟨S128x256, .f32⟩
  | .local _ .vmem, ⟨9, _⟩ => ⟨S128x256, .f32⟩
  | .local _ .vmem, ⟨10, _⟩ => ⟨S64x128, .f32⟩
  | .local _ .vmem, ⟨11, _⟩ => ⟨S64x128, .f32⟩
  | .local _ .vmem, ⟨12, _⟩ => ⟨S1x2x128, .f32⟩
  | .local _ .vmem, ⟨13, _⟩ => ⟨S1x2x128, .f32⟩
  | .local _ .vmem, ⟨14, _⟩ => ⟨S1x2x128, .f32⟩
  | .local _ .vmem, ⟨15, _⟩ => ⟨S1x2x128, .f32⟩
  | .local _ .vmem, ⟨16, _⟩ => ⟨S1x2x128, .f32⟩
  | .local _ .vmem, ⟨17, _⟩ => ⟨S1x2x128, .f32⟩
  | .local _ .vmem, ⟨18, _⟩ => ⟨S64x256, .f32⟩
  | .local _ .vmem, ⟨19, _⟩ => ⟨S64x256, .f32⟩
  | .local _ .vmem, ⟨20, _⟩ => ⟨S128x256, .f32⟩
  | .local _ .vmem, ⟨21, _⟩ => ⟨S128x256, .f32⟩
  | .local _ .vmem, ⟨22, _⟩ => ⟨S64x128, .f32⟩
  | .local _ .vmem, ⟨23, _⟩ => ⟨S64x128, .f32⟩
  | .local _ .smem, ⟨0, _⟩ => ⟨S1024, .i32⟩
  | .local _ .smem, ⟨1, _⟩ => ⟨S1024, .i32⟩
  | .local _ .smem, ⟨2, _⟩ => ⟨S1024, .i32⟩
  | .local _ .smem, ⟨3, _⟩ => ⟨S1024, .i32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_arg4 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![1024], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S1024.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1024) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S1024.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S1024) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S64x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S64x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![1024], ![false]⟩

abbrev pre2 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def cc2_transform_0 (k2_off1_inb : ∀ i : grid2.Coords, ∀ a, (k2_off1 i) a + S1.size a ≤ S1024.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S1024) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_1 (k2_off1_inb : ∀ i : grid2.Coords, ∀ a, (k2_off1 i) a + S1.size a ≤ S1024.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 1 (Rect.unit (s := S1024) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x2x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x2x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![16, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S64x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S128x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S64x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  shapeCasts_S131072x256_S131072x2x128 : S131072x256.ShapeCasts S131072x2x128
  numel1_S1 : S1.numel = 1
  inb_S1x2x128_S1x2x128_0_0_0 : ∀ a, (![0, 0, 0] : Fin 3 → Nat) a + S1x2x128.size a ≤ S1x2x128.size a
  h_S1x2x128 : 0 < S1x2x128.numel
  shapeCasts_S1x2x128_S1x2x128 : S1x2x128.ShapeCasts S1x2x128
  shapeCasts_S1024x2x128_S1024x256 : S1024x2x128.ShapeCasts S1024x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S64x256_o0_0_S64x32 : S64x256.Slices ![0, 0] S64x32
  slices_S128x256_o0_0_S128x32 : S128x256.Slices ![0, 0] S128x32
  shapeCasts_S64x32_S64x1x32 : S64x32.ShapeCasts S64x1x32
  shapeCasts_S128x32_S1x128x32 : S128x32.ShapeCasts S1x128x32
  broadcasts_S64x1x32_S64x128x32 : S64x1x32.Broadcasts S64x128x32
  broadcasts_S1x128x32_S64x128x32 : S1x128x32.Broadcasts S64x128x32
  reduces_S64x128x32_S64x128 : S64x128x32.Reduces [2] S64x128
  slices_S64x256_o0_32_S64x32 : S64x256.Slices ![0, 32] S64x32
  slices_S128x256_o0_32_S128x32 : S128x256.Slices ![0, 32] S128x32
  slices_S64x256_o0_64_S64x32 : S64x256.Slices ![0, 64] S64x32
  slices_S128x256_o0_64_S128x32 : S128x256.Slices ![0, 64] S128x32
  slices_S64x256_o0_96_S64x32 : S64x256.Slices ![0, 96] S64x32
  slices_S128x256_o0_96_S128x32 : S128x256.Slices ![0, 96] S128x32
  slices_S64x256_o0_128_S64x32 : S64x256.Slices ![0, 128] S64x32
  slices_S128x256_o0_128_S128x32 : S128x256.Slices ![0, 128] S128x32
  slices_S64x256_o0_160_S64x32 : S64x256.Slices ![0, 160] S64x32
  slices_S128x256_o0_160_S128x32 : S128x256.Slices ![0, 160] S128x32
  slices_S64x256_o0_192_S64x32 : S64x256.Slices ![0, 192] S64x32
  slices_S128x256_o0_192_S128x32 : S128x256.Slices ![0, 192] S128x32
  slices_S64x256_o0_224_S64x32 : S64x256.Slices ![0, 224] S64x32
  slices_S128x256_o0_224_S128x32 : S128x256.Slices ![0, 224] S128x32
  inb_S64x128_S64x128_0_0 : ∀ a, (![0, 0] : Fin 2 → Nat) a + S64x128.size a ≤ S64x128.size a
  h_S64x128 : 0 < S64x128.numel
  shapeCasts_S1024x256_S1024x2x128 : S1024x256.ShapeCasts S1024x2x128
  hrank0 : 0 < grid0.rank
  k0_off1_inb : ∀ i : grid0.Coords, ∀ a, (k0_off1 i) a + S1.size a ≤ S1024.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x128.size a ≤ S1024x2x128.size a
  hwx0_2 : ∀ i : grid0.Coords, EltTy.bits .f32 = 32 ∨ (Rect.block (s := S1024x2x128) S1x2x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x256.size a ≤ S1024x256.size a
  hwx1_0 : ∀ i : grid1.Coords, EltTy.bits .f32 = 32 ∨ (Rect.block (s := S1024x256) S64x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S1024x256.size a
  hwx1_1 : ∀ i : grid1.Coords, EltTy.bits .f32 = 32 ∨ (Rect.block (s := S1024x256) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S1024x1024.size a
  hwx1_2 : ∀ i : grid1.Coords, EltTy.bits .f32 = 32 ∨ (Rect.block (s := S1024x1024) S64x128.size (cc1_transform_2 i) (hinb1_2 i)).WholeWords (EltTy.packing .f32)
  hrank2 : 0 < grid2.rank
  k2_off1_inb : ∀ i : grid2.Coords, ∀ a, (k2_off1 i) a + S1.size a ≤ S1024.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1 pf i = cc2_transform_0 k2_off1_inb numel1_S1 pf i'
  hstage2_1 : ∀ j, (stage2_1 j).IsWhole
  nbuf2_1 : grid2.bufCount reads2_1 false = 2
  hreads2_1 : ∀ {F : FTy → Type} [FloatOps F] (pf : pre2.Contents (Elt F)) (i i' : grid2.Coords), (∀ a, reads2_1 a = true → i a = i' a) → cc2_transform_1 k2_off1_inb numel1_S1 pf i = cc2_transform_1 k2_off1_inb numel1_S1 pf i'
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2x128.size a ≤ S1024x2x128.size a
  hwx2_2 : ∀ i : grid2.Coords, EltTy.bits .f32 = 32 ∨ (Rect.block (s := S1024x2x128) S1x2x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S64x256.size a ≤ S1024x256.size a
  hwx3_0 : ∀ i : grid3.Coords, EltTy.bits .f32 = 32 ∨ (Rect.block (s := S1024x256) S64x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S1024x256.size a
  hwx3_1 : ∀ i : grid3.Coords, EltTy.bits .f32 = 32 ∨ (Rect.block (s := S1024x256) S128x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S1024x1024.size a
  hwx3_2 : ∀ i : grid3.Coords, EltTy.bits .f32 = 32 ∨ (Rect.block (s := S1024x1024) S64x128.size (cc3_transform_2 i) (hinb3_2 i)).WholeWords (EltTy.packing .f32)

variable [Facts₀]

abbrev spec0_0 : Pipeline.WinSpec sig grid0.rank :=
  Pipeline.WinSpec.ofSpec (Memref.whole main_v0) S1x2x128.size reads0_0 false false 2 stage0_0 sem0_0 nbuf0_0 hstage0_0

abbrev spec0_1 : Pipeline.WinSpec sig grid0.rank :=
  Pipeline.WinSpec.ofSpec (Memref.whole main_v0) S1x2x128.size reads0_1 false false 2 stage0_1 sem0_1 nbuf0_1 hstage0_1

abbrev spec0_2 : Pipeline.WinSpec sig grid0.rank :=
  Pipeline.WinSpec.ofSpec (Memref.whole main_v1) S1x2x128.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x2x128.size a ≤ S131072x2x128.size a), EltTy.bits .f32 = 32 ∨ (Rect.block (s := S131072x2x128) S1x2x128.size (cc0_transform_0 k0_off1_inb numel1_S1 pf i) h).WholeWords (EltTy.packing .f32)) ∧
  (∀ i : grid0.Coords, ∃ h : (∀ a, (cc0_transform_1 k0_off1_inb numel1_S1 pf i a + 1) * S1x2x128.size a ≤ S131072x2x128.size a), EltTy.bits .f32 = 32 ∨ (Rect.block (s := S131072x2x128) S1x2x128.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | ⟨_ + 3, h⟩ => absurd h (Nat.not_lt.2 (Nat.le_add_left _ _))
abbrev win1_0 : Pipeline.Window sig grid1 :=
  Pipeline.Window.ofSpec (Memref.whole main_v2) S64x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S64x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev spec2_0 : Pipeline.WinSpec sig grid2.rank :=
  Pipeline.WinSpec.ofSpec (Memref.whole main_v4) S1x2x128.size reads2_0 false false 2 stage2_0 sem2_0 nbuf2_0 hstage2_0

abbrev spec2_1 : Pipeline.WinSpec sig grid2.rank :=
  Pipeline.WinSpec.ofSpec (Memref.whole main_v4) S1x2x128.size reads2_1 false false 2 stage2_1 sem2_1 nbuf2_1 hstage2_1

abbrev spec2_2 : Pipeline.WinSpec sig grid2.rank :=
  Pipeline.WinSpec.ofSpec (Memref.whole main_v5) S1x2x128.size reads2_2 true false 2 stage2_2 sem2_2 nbuf2_2 hstage2_2

abbrev spec2 : Fin 3 → Pipeline.WinSpec sig grid2.rank := fun | 0 => spec2_0 | 1 => spec2_1 | 2 => spec2_2 | ⟨_ + 3, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | ⟨_ + 3, h⟩ => absurd h (Nat.not_lt.2 (Nat.le_add_left _ _))
abbrev ix2 (pf : pre2.Contents (Elt F)) : (w : Fin 3) → grid2.Coords → Fin (spec2 w).shape.rank → Nat := fun | 0 => cc2_transform_0 k2_off1_inb numel1_S1 pf | 1 => cc2_transform_1 k2_off1_inb numel1_S1 pf | 2 => cc2_transform_2 | ⟨_ + 3, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 pf | 2 => hreads2_2 | ⟨_ + 3, h⟩ => absurd h (Nat.not_lt.2 (Nat.le_add_left _ _))
def ok2 (pf : pre2.Contents (Elt F)) : Prop :=
  (∀ i : grid2.Coords, ∃ h : (∀ a, (cc2_transform_0 k2_off1_inb numel1_S1 pf i a + 1) * S1x2x128.size a ≤ S1024x2x128.size a), EltTy.bits .f32 = 32 ∨ (Rect.block (s := S1024x2x128) S1x2x128.size (cc2_transform_0 k2_off1_inb numel1_S1 pf i) h).WholeWords (EltTy.packing .f32)) ∧
  (∀ i : grid2.Coords, ∃ h : (∀ a, (cc2_transform_1 k2_off1_inb numel1_S1 pf i a + 1) * S1x2x128.size a ≤ S1024x2x128.size a), EltTy.bits .f32 = 32 ∨ (Rect.block (s := S1024x2x128) S1x2x128.size (cc2_transform_1 k2_off1_inb numel1_S1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok.1 i).elim fun h _ => h a | 1 => fun i a => (hok.2 i).elim fun h _ => h a | 2 => hinb2_2 | ⟨_ + 3, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok.1 i).elim fun _ h => h | 1 => fun i => (hok.2 i).elim fun _ h => h | 2 => hwx2_2 | ⟨_ + 3, h⟩ => absurd h (Nat.not_lt.2 (Nat.le_add_left _ _))
abbrev win3_0 : Pipeline.Window sig grid3 :=
  Pipeline.Window.ofSpec (Memref.whole main_v6) S64x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S128x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S64x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where
  harr0 : ∀ w, (spec0 w).arr.IsWhole
  harr2 : ∀ w, (spec2 w).arr.IsWhole

variable [Facts]
-- ==== ReferenceIdeal.lean ====
abbrev S131072x256 : Shape := ⟨2, ![131072, 256]⟩
abbrev S1024 : Shape := ⟨1, ![1024]⟩
abbrev S_ : Shape := ⟨0, ![]⟩
abbrev S1024x1 : Shape := ⟨2, ![1024, 1]⟩
abbrev S1024x256 : Shape := ⟨2, ![1024, 256]⟩
abbrev S1024x1x256 : Shape := ⟨3, ![1024, 1, 256]⟩
abbrev S1x1024x256 : Shape := ⟨3, ![1, 1024, 256]⟩
abbrev S1024x1024x256 : Shape := ⟨3, ![1024, 1024, 256]⟩
abbrev S1024x1024 : Shape := ⟨2, ![1024, 1024]⟩

abbrev nBuf : Space → Nat
  | .hbm => 59
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S1024, .i32⟩
  | .hbm, ⟨2, _⟩ => ⟨S1024, .i32⟩
  | .hbm, ⟨3, _⟩ => ⟨S1024, .i32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1024x1, .i32⟩
  | .hbm, ⟨13, _⟩ => ⟨S1024x256, .f32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S1024, .i32⟩
  | .hbm, ⟨21, _⟩ => ⟨S1024x1, .i32⟩
  | .hbm, ⟨22, _⟩ => ⟨S1024x256, .f32⟩
  | .hbm, ⟨23, _⟩ => ⟨S1024x256, .f32⟩
  | .hbm, ⟨24, _⟩ => ⟨S1024x1x256, .f32⟩
  | .hbm, ⟨25, _⟩ => ⟨S1x1024x256, .f32⟩
  | .hbm, ⟨26, _⟩ => ⟨S1024x1024x256, .f32⟩
  | .hbm, ⟨27, _⟩ => ⟨S1024x1024x256, .f32⟩
  | .hbm, ⟨28, _⟩ => ⟨S1024x1024x256, .f32⟩
  | .hbm, ⟨29, _⟩ => ⟨S1024x1024x256, .f32⟩
  | .hbm, ⟨30, _⟩ => ⟨S_, .f32⟩
  | .hbm, ⟨31, _⟩ => ⟨S1024x1024, .f32⟩
  | .hbm, ⟨32, _⟩ => ⟨S_, .i32⟩
  | .hbm, ⟨33, _⟩ => ⟨S1024, .i32⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S1024x1, .i32⟩
  | .hbm, ⟨40, _⟩ => ⟨S1024x256, .f32⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S1024, .i32⟩
  | .hbm, ⟨48, _⟩ => ⟨S1024x1, .i32⟩
  | .hbm, ⟨49, _⟩ => ⟨S1024x256, .f32⟩
  | .hbm, ⟨50, _⟩ => ⟨S1024x256, .f32⟩
  | .hbm, ⟨51, _⟩ => ⟨S1024x1x256, .f32⟩
  | .hbm, ⟨52, _⟩ => ⟨S1x1024x256, .f32⟩
  | .hbm, ⟨53, _⟩ => ⟨S1024x1024x256, .f32⟩
  | .hbm, ⟨54, _⟩ => ⟨S1024x1024x256, .f32⟩
  | .hbm, ⟨55, _⟩ => ⟨S1024x1024x256, .f32⟩
  | .hbm, ⟨56, _⟩ => ⟨S1024x1024x256, .f32⟩
  | .hbm, ⟨57, _⟩ => ⟨S_, .f32⟩
  | .hbm, ⟨58, _⟩ => ⟨S1024x1024, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S1024x256_S1024x1x256_0_2 : S1024x256.BroadcastsInDim S1024x1x256 (![0, 2] : Fin 2 → Fin S1024x1x256.rank)
  bcast_S1024x256_S1x1024x256_1_2 : S1024x256.BroadcastsInDim S1x1024x256 (![1, 2] : Fin 2 → Fin S1x1024x256.rank)
  bcast_S1024x1x256_S1024x1024x256_0_1_2 : S1024x1x256.BroadcastsInDim S1024x1024x256 (![0, 1, 2] : Fin 3 → Fin S1024x1024x256.rank)
  bcast_S1x1024x256_S1024x1024x256_0_1_2 : S1x1024x256.BroadcastsInDim S1024x1024x256 (![0, 1, 2] : Fin 3 → Fin S1024x1024x256.rank)
  reducesTo_S1024x1024x256_S1024x1024_d2 : S1024x1024x256.ReducesTo [2] S1024x1024
  h_S_ : 0 < S_.numel
  gather_S131072x256_S1024x1_S1024x256_1_0_n_n_0_1_1256_wf : GatherDims.WF S131072x256 S1024x1 S1024x256 [1] [0] [] [0] [] 1 ![1, 256]
  gather_S1024x256_S1024x1_S1024x256_1_0_n_n_0_1_1256_wf : GatherDims.WF S1024x256 S1024x1 S1024x256 [1] [0] [] [0] [] 1 ![1, 256]

variable [Facts₀]

def gather_S131072x256_S1024x1_S1024x256_1_0_n_n_0_1_1256 : GatherDims S131072x256 S1024x1 S1024x256 where
  offsetDims := [1]
  collapsedSliceDims := [0]
  operandBatchingDims := []
  startIndicesBatchingDims := []
  startIndexMap := [0]
  indexVectorDim := 1
  sliceSizes := ![1, 256]
  wf := gather_S131072x256_S1024x1_S1024x256_1_0_n_n_0_1_1256_wf
def gather_S1024x256_S1024x1_S1024x256_1_0_n_n_0_1_1256 : GatherDims S1024x256 S1024x1 S1024x256 where
  offsetDims := [1]
  collapsedSliceDims := [0]
  operandBatchingDims := []
  startIndicesBatchingDims := []
  startIndexMap := [0]
  indexVectorDim := 1
  sliceSizes := ![1, 256]
  wf := gather_S1024x256_S1024x1_S1024x256_1_0_n_n_0_1_1256_wf

class Facts : Prop extends Facts₀ where

variable [Facts]
-- ==== Proof.K_BodyG.lean ====
/- The two gather-difference kernel bodies on whole staging blocks: each reads the whole [1,2,128]
   blocks of its two vector inputs, subtracts them, reads the output block (the value is unused) and
   stores the difference over the whole output block. Stated at any float interpretation `F`; the
   program enters only through the names of its printed functions, their skeletons and payloads. -/
import proofs.«412525_j6176162972381_4_alg».proof.Proof.Gen.Kernel.Launch
import proofs.«412525_j6176162972381_4_alg».proof.Proof.Gen.Kernel.Skeleton
import proofs.«412525_j6176162972381_4_alg».proof.Proof.Gen.Kernel.Points
import Idealize.ShloMosaic.Lib.Pipeline.FrameBody
import Idealize.ShloMosaic.Lib.Ring
import Idealize.ShloMosaic.Lib.Tactic
import Idealize.ShloMosaic.Lib.Pipeline.Value
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The bodies' one access -/

/-- The whole [1,2,128] block as a rectangle: origin (0,0,0), extents the block's own. Both loads
    and the store of either body go through it. -/
abbrev rG : Rect S1x2x128 := Rect.unit (s := S1x2x128) ![0, 0, 0] S1x2x128.size inb_S1x2x128_S1x2x128_0_0_0

/-! ## What a body leaves in the output block -/

/-- The output block after the first body, from the two input blocks `x0`, `x1`: its one store,
    of the payload (the difference of the two loaded blocks), over the whole block. -/
def outG0 (x0 x1 : Vec F S1x2x128 .f32) : Vec F S1x2x128 .f32 :=
  View.canon [⟨rG, k0_pay1 (View.ld x0 rG) (View.ld x1 rG)⟩]

/-- The same for the second body. -/
def outG2 (x0 x1 : Vec F S1x2x128 .f32) : Vec F S1x2x128 .f32 :=
  View.canon [⟨rG, k2_pay1 (View.ld x0 rG) (View.ld x1 rG)⟩]

/-- The one stored rectangle is the whole block, so every index of the block lies in it. -/
theorem coverG (p0 : Vec F S1x2x128 .f32) (y : S1x2x128.Idx) :
    ∃ pc ∈ ([⟨rG, p0⟩] : List (View.Piece (Elt F) S1x2x128 .f32)), y ∈ pc.1.set :=
  View.cover_of_tiled [⟨rG, p0⟩] S1x2x128.size (by rfl) y

/-! ## The bodies' triples -/

set_option maxHeartbeats 1000000 in
/-- The first body on whole blocks, the inputs' holding `x0`, `x1` and the output's anything, runs
    to the continuation with the inputs' as they were and the output's holding `outG0 x0 x1`: the
    printed function is its skeleton; the two loads return the blocks' reads through `rG`, the third
    load's value is dropped, and the one store writes the payload over the whole block, which is
    the canon of that one piece because the piece covers the block. The two table arguments are
    never accessed, so nothing is asked of them. -/
theorem sound_kernelG0 (c : Dev nD) (E : Set ℕ) (i : grid0.Coords) (arg1 : Memref sig .tc .smem S1024 .i32) (harg1 : arg1.IsWhole) (arg2 : Memref sig .tc .smem S1024 .i32) (harg2 : arg2.IsWhole) (arg3 : Memref sig .tc .vmem S1x2x128 .f32) (harg3 : arg3.IsWhole) (arg4 : Memref sig .tc .vmem S1x2x128 .f32) (harg4 : arg4.IsWhole) (arg5 : Memref sig .tc .vmem S1x2x128 .f32) (harg5 : arg5.IsWhole)
    (x0 x1 : Vec F S1x2x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (outG0 x0 x1)) -∗ K ⟨⟩))
      ⊢ wp frame (wpE (defs₀ (F := F)) Variants.none c none) E (cc0__gather_diff_kernel i arg1 harg1 arg2 harg2 arg3 harg3 arg4 harg4 arg5 harg5) K := by
  simp only [cc0__gather_diff_kernel_eq_skeleton]; unfold cc0__gather_diff_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverG _)

set_option maxHeartbeats 1000000 in
/-- The second body: the same text as the first, so the same run, with its own payload name. -/
theorem sound_kernelG2 (c : Dev nD) (E : Set ℕ) (i : grid2.Coords) (arg1 : Memref sig .tc .smem S1024 .i32) (harg1 : arg1.IsWhole) (arg2 : Memref sig .tc .smem S1024 .i32) (harg2 : arg2.IsWhole) (arg3 : Memref sig .tc .vmem S1x2x128 .f32) (harg3 : arg3.IsWhole) (arg4 : Memref sig .tc .vmem S1x2x128 .f32) (harg4 : arg4.IsWhole) (arg5 : Memref sig .tc .vmem S1x2x128 .f32) (harg5 : arg5.IsWhole)
    (x0 x1 : Vec F S1x2x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (outG2 x0 x1)) -∗ K ⟨⟩))
      ⊢ wp frame (wpE (defs₀ (F := F)) Variants.none c none) E (cc2__gather_diff_kernel i arg1 harg1 arg2 harg2 arg3 harg3 arg4 harg4 arg5 harg5) K := by
  simp only [cc2__gather_diff_kernel_eq_skeleton]; unfold cc2__gather_diff_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverG _)

end Cert.Kernel.Hand

end
-- ==== Proof.K_Dat0.lean ====
import proofs.«412525_j6176162972381_4_alg».proof.Proof.Gen.Kernel.Launch
import proofs.«412525_j6176162972381_4_alg».proof.Proof.Gen.Kernel.Skeleton
import proofs.«412525_j6176162972381_4_alg».proof.Proof.Gen.Kernel.Points
import proofs.«412525_j6176162972381_4_alg».proof.Proof.K_BodyG
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # Region 0: the proof data of the row-difference kernel's pipeline

The pipeline has two prefetched tables of 1024 row numbers. At point `t` window 0 stages the row the first table
names for `t`, window 1 the row the second table names, both out of ONE array of rows (each row a [2,128] block);
window 2 is row `t` of the result. After the body each input's buffer still holds its row and the output's holds the
body's value of the two rows. The tables are held whole throughout, beside the scratch-free invariant; the shared
array is held at the two halves of the full share. Everything here is stated at ANY admissible contents `a` of the
tables. -/

variable (a : (pcfg0 (F := F)).Adm)
variable (V : (c : Dev nD) → (b : Ref sig .tc) → Buf (Elt F) ((c : Thread nD τ).loc b))

/-- Window `w`'s block at point `t`, read off its array as the region finds it. -/
def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- The invariant of every point: the scoped buffers no window stages, the generator register, and the two tables
    held whole at their admitted contents. -/
abbrev ΦG0 (c : Dev nD) : sProp 𝕄 :=
  iprop(Pipeline.ΦA spec0 c ∗ Pipeline.prefHeld pre0 c (fun _ => fullShare) a.1)

/-- The proof data. -/
def dat0 (c : Dev nD) : Dat τ (Elt F) Unit ℕ (UR sig nD τ) ℕ (cfg0 a) c where
  A w := V c (Pipeline.arrRef spec0 w)
  after w t := match w with
    | ⟨0, _⟩ => iblk0 a V c 0 t
    | ⟨1, _⟩ => iblk0 a V c 1 t
    | ⟨2, _⟩ => outG0 (iblk0 a V c 0 t) (iblk0 a V c 1 t)
  Φ _ := ΦG0 a c
  q w := match w with
    | ⟨0, _⟩ => fullShare.left
    | ⟨1, _⟩ => fullShare.right
    | ⟨2, _⟩ => fullShare
  owed _ := 0

theorem A_eq0 (c : Dev nD) (w : Fin (cfg0 a).W) : (dat0 a V c).A w = V c (Pipeline.arrRef spec0 w) := by
  dsimp only [dat0]

theorem after0_0 (c : Dev nD) (t : Fin (cfg0 a).N) : (dat0 a V c).after 0 t = iblk0 a V c 0 t := by dsimp only [dat0]; rfl
theorem after0_1 (c : Dev nD) (t : Fin (cfg0 a).N) : (dat0 a V c).after 1 t = iblk0 a V c 1 t := by dsimp only [dat0]; rfl
theorem after0_2 (c : Dev nD) (t : Fin (cfg0 a).N) : (dat0 a V c).after 2 t = outG0 (iblk0 a V c 0 t) (iblk0 a V c 1 t) := by dsimp only [dat0]; rfl

/-- An input's staging buffer holds its block at every point, fetched there or not: unfetched, the block index has
    not moved (whatever the tables hold) and the body left the block in place. -/
theorem before0_0 (c : Dev nD) (t : Fin (cfg0 a).N) (d) : (dat0 a V c).before 0 t d = iblk0 a V c 0 t :=
  ((dat0 a V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin (cfg0 a).N) (d) : (dat0 a V c).before 1 t d = iblk0 a V c 1 t :=
  ((dat0 a V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The current staging memref of each window at point `t`. -/
abbrev st0_0 (t : Fin (cfg0 a).N) := ((cfg0 a).win 0).stage ((cfg0 a).slots t 0)
abbrev st0_1 (t : Fin (cfg0 a).N) := ((cfg0 a).win 1).stage ((cfg0 a).slots t 1)
abbrev st0_2 (t : Fin (cfg0 a).N) := ((cfg0 a).win 2).stage ((cfg0 a).slots t 2)

/-- The kernel body at point `t`, on what the pipeline calls it with. -/
abbrev bodyAt0 (t : Fin (cfg0 a).N) : Prog (TpuEff nD τ sig (Elt F) Λ₀ .tc) PUnit :=
  cc0__gather_diff_kernel (grid0.coords t) (Memref.whole main_arg1) (Memref.isWhole_whole _) (Memref.whole main_arg2) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))

/-- What the body is called with at point `t`, -/
def bodyPre0 (c : Dev nD) (t : Fin (cfg0 a).N) : sProp 𝕄 :=
  iprop((dat0 a V c).Φ t.castSucc ∗ (dat0 a V c).owesAt () t.castSucc
    ∗ (∃ d, owns (c : Thread nD τ) (st0_0 a t) fullShare ((dat0 a V c).before 0 t d))
    ∗ (∃ d, owns (c : Thread nD τ) (st0_1 a t) fullShare ((dat0 a V c).before 1 t d))
    ∗ (∃ d, owns (c : Thread nD τ) (st0_2 a t) fullShare ((dat0 a V c).before 2 t d)))

/-- and what it returns. -/
def bodyPost0 (c : Dev nD) (t : Fin (cfg0 a).N) : sProp 𝕄 :=
  iprop((dat0 a V c).Φ t.succ ∗ (dat0 a V c).owesAt () t.succ
    ∗ owns (c : Thread nD τ) (st0_0 a t) fullShare ((dat0 a V c).after 0 t)
    ∗ owns (c : Thread nD τ) (st0_1 a t) fullShare ((dat0 a V c).after 1 t)
    ∗ owns (c : Thread nD τ) (st0_2 a t) fullShare ((dat0 a V c).after 2 t))

/-- The body at any point: the inputs' buffers hold their rows, so the kernel's triple applies; the invariant (the
    tables among it) and what the core owes pass through unread. -/
theorem sound_body0 (c : Dev nD) (t : Fin (cfg0 a).N) :
    bodyPre0 a V c t ⊢ wp frame (wpE (defs₀ (F := F)) Variants.none c none) Set.univ (bodyAt0 a t) (fun _ => bodyPost0 a V c t) := by
  unfold bodyPre0 bodyPost0 bodyAt0
  simp only [before0_0, before0_1]
  rw [show (dat0 a V c).Φ t.succ = (dat0 a V c).Φ t.castSucc from rfl,
    show (dat0 a V c).owesAt () t.succ = (dat0 a V c).owesAt () t.castSucc from rfl,
    after0_0, after0_1, after0_2]
  iintro ⟨HΦ, Ho, ⟨%d0, H0⟩, ⟨%d1, H1⟩, ⟨%d2, H2⟩⟩
  iapply (sound_kernelG0 c Set.univ (grid0.coords t) _ _ _ _ _ _ _ _ _ _ (iblk0 a V c 0 t) (iblk0 a V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation0 (c : Dev nD) : BodyObligation (dat0 (F := F) a V c) (defs₀ (F := F)) Variants.none () Set.univ := fun t => by
  rw [bigSep_W0, bigSep_W0]
  exact sound_body0 a V c t

/-- The shares the arrays are held at. -/
theorem share0 (c : Dev nD) (w : Fin (cfg0 a).W) :
    (dat0 a V c).share w = if w = 0 then fullShare.left else if w = 1 then fullShare.right else fullShare := by
  match w with
  | ⟨0, _⟩ => rfl
  | ⟨1, _⟩ => rfl
  | ⟨2, _⟩ => rfl

end Cert.Kernel.Hand

end
-- ==== Proof.K_BodyC.lean ====
/-
  The body of the pairwise L1-distance kernel on whole staging buffers: what it reads, what the one
  store leaves in the output buffer, and the triple of the body (both launches of the kernel).
-/
import proofs.«412525_j6176162972381_4_alg».proof.Proof.Gen.Kernel.Launch
import proofs.«412525_j6176162972381_4_alg».proof.Proof.Gen.Kernel.Skeleton
import proofs.«412525_j6176162972381_4_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole [64,256] block of the first operand. -/
abbrev rA : Rect S64x256 := Rect.unit (s := S64x256) ![0, 0] S64x256.size inb_S64x256_S64x256_0_0
/-- The whole [128,256] block of the second operand. -/
abbrev rB : Rect S128x256 := Rect.unit (s := S128x256) ![0, 0] S128x256.size inb_S128x256_S128x256_0_0
/-- The whole [64,128] block of the result. -/
abbrev rO : Rect S64x128 := Rect.unit (s := S64x128) ![0, 0] S64x128.size inb_S64x128_S64x128_0_0

/-! ## What the body leaves in the output buffer -/

/-- The value the first launch's body stores, over the two blocks read: the accumulator after all
    eight 32-column chunks. `k1_pay4` is zero plus the chunks at columns 0, 32, 64, 96; `k1_pay5` and
    `k1_pay6` are the two operands' chunk at column 128; `k1_pay1` adds to the first the chunks at
    columns 128, 160, 192, 224 (each chunk: the sum over its 32 columns of |a − b|). -/
def valC1 (v0 : Vec F S64x256 .f32) (v2 : Vec F S128x256 .f32) : FVec F S64x128 .f32 :=
  k1_pay1 (k1_pay2 v0) (k1_pay3 v2) (k1_pay4 v0 v2) (k1_pay5 v0) (k1_pay6 v2)

/-- The same for the second launch. -/
def valC3 (v0 : Vec F S64x256 .f32) (v2 : Vec F S128x256 .f32) : FVec F S64x128 .f32 :=
  k3_pay1 (k3_pay2 v0) (k3_pay3 v2) (k3_pay4 v0 v2) (k3_pay5 v0) (k3_pay6 v2)

/-- The output buffer after the first launch's body, from the input blocks: its one whole store as a
    piece. -/
def outC1 (x0 : Vec F S64x256 .f32) (x1 : Vec F S128x256 .f32) : Vec F S64x128 .f32 :=
  View.canon [⟨rO, valC1 (View.ld x0 rA) (View.ld x1 rB)⟩]

/-- The output buffer after the second launch's body. -/
def outC3 (x0 : Vec F S64x256 .f32) (x1 : Vec F S128x256 .f32) : Vec F S64x128 .f32 :=
  View.canon [⟨rO, valC3 (View.ld x0 rA) (View.ld x1 rB)⟩]

/-- The one store is of the whole block, so it covers the buffer. -/
theorem coverC (p0 : Vec F S64x128 .f32) (y : S64x128.Idx) :
    ∃ pc ∈ ([⟨rO, p0⟩] : List (View.Piece (Elt F) S64x128 .f32)), y ∈ pc.1.set :=
  View.cover_of_tiled [⟨rO, p0⟩] S64x128.size (by rfl) y

/-! ## The body's triple -/

set_option maxHeartbeats 1000000 in
/-- The first launch's body on whole staging memrefs, the inputs at contents `x0`, `x1` and the output
    at anything, runs to the continuation holding the inputs as they were and the output at
    `outC1 x0 x1`: two whole loads, a dead load of the output, and one whole store of the payload. -/
theorem sound_kernelC1 (c : Dev nD) (E : Set ℕ) (i : grid1.Coords) (arg2 : Memref sig .tc .vmem S64x256 .f32) (harg2 : arg2.IsWhole) (arg3 : Memref sig .tc .vmem S128x256 .f32) (harg3 : arg3.IsWhole) (arg4 : Memref sig .tc .vmem S64x128 .f32) (harg4 : arg4.IsWhole)
    (x0 : Vec F S64x256 .f32) (x1 : Vec F S128x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outC1 x0 x1)) -∗ K ⟨⟩))
      ⊢ wp frame (wpE (defs₀ (F := F)) Variants.none c none) E (cc1__cdist_kernel i arg2 harg2 arg3 harg3 arg4 harg4) K := by
  simp only [cc1__cdist_kernel_eq_skeleton, k1_part1_eq_skeleton]; unfold cc1__cdist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverC _)

set_option maxHeartbeats 1000000 in
/-- The second launch's body: the same text, so the same triple, with `outC3`. -/
theorem sound_kernelC3 (c : Dev nD) (E : Set ℕ) (i : grid3.Coords) (arg2 : Memref sig .tc .vmem S64x256 .f32) (harg2 : arg2.IsWhole) (arg3 : Memref sig .tc .vmem S128x256 .f32) (harg3 : arg3.IsWhole) (arg4 : Memref sig .tc .vmem S64x128 .f32) (harg4 : arg4.IsWhole)
    (x0 : Vec F S64x256 .f32) (x1 : Vec F S128x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outC3 x0 x1)) -∗ K ⟨⟩))
      ⊢ wp frame (wpE (defs₀ (F := F)) Variants.none c none) E (cc3__cdist_kernel i arg2 harg2 arg3 harg3 arg4 harg4) K := by
  simp only [cc3__cdist_kernel_eq_skeleton, k3_part1_eq_skeleton]; unfold cc3__cdist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverC _)

end Cert.Kernel.Hand

end
-- ==== Proof.K_Dat1.lean ====
import proofs.«412525_j6176162972381_4_alg».proof.Proof.Gen.Kernel.Launch
import proofs.«412525_j6176162972381_4_alg».proof.Proof.Gen.Kernel.Skeleton
import proofs.«412525_j6176162972381_4_alg».proof.Proof.Gen.Kernel.Points
import proofs.«412525_j6176162972381_4_alg».proof.Proof.K_BodyC
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # Region 1: the proof data of the L1-distance kernel's pipeline

The pipeline's two input windows read ONE array (rows of a table of 1024 rows of 256 numbers): window 0 its block of
64 rows, window 1 its block of 128 rows; window 2 is the [64,128] block of the matrix of distances. After the body
each input's buffer still holds its block and the output's holds the body's value of the two blocks. The shared
array is held at the two halves of the full share. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: the arrays as the region finds them; after the body each input's buffer at its block, the output's
    at the body's value of the two blocks; the invariant the scratch-free one; nothing owed; the shared input array
    at the left and the right half of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outC1 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outC1 (iblk1 V c 0 t) (iblk1 V c 1 t) := by dsimp only [dat1]

/-- An input's staging buffer holds its block at every point, fetched there or not: unfetched, the block index has
    not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the kernel's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernelC1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation1 (c : Dev nD) : BodyObligation (dat1 (F := F) V c) (defs₀ (F := F)) Variants.none () Set.univ := fun t => by
  rw [bigSep_W1, bigSep_W1]
  exact sound_body1 V c t

/-- The shares the arrays are held at. -/
theorem share1 (c : Dev nD) (w : Fin cfg1.W) :
    (dat1 V c).share w = if w = 0 then fullShare.left else if w = 1 then fullShare.right else fullShare := by
  match w with
  | ⟨0, _⟩ => rfl
  | ⟨1, _⟩ => rfl
  | ⟨2, _⟩ => rfl

end Cert.Kernel.Hand

end
-- ==== Proof.K_Dat2.lean ====
import proofs.«412525_j6176162972381_4_alg».proof.Proof.Gen.Kernel.Launch
import proofs.«412525_j6176162972381_4_alg».proof.Proof.Gen.Kernel.Skeleton
import proofs.«412525_j6176162972381_4_alg».proof.Proof.Gen.Kernel.Points
import proofs.«412525_j6176162972381_4_alg».proof.Proof.K_BodyG
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # Region 2: the proof data of the row-difference kernel's pipeline

The pipeline has two prefetched tables of 1024 row numbers. At point `t` window 0 stages the row the first table
names for `t`, window 1 the row the second table names, both out of ONE array of rows (each row a [2,128] block);
window 2 is row `t` of the result. After the body each input's buffer still holds its row and the output's holds the
body's value of the two rows. The tables are held whole throughout, beside the scratch-free invariant; the shared
array is held at the two halves of the full share. Everything here is stated at ANY admissible contents `a` of the
tables. -/

variable (a : (pcfg2 (F := F)).Adm)
variable (V : (c : Dev nD) → (b : Ref sig .tc) → Buf (Elt F) ((c : Thread nD τ).loc b))

/-- Window `w`'s block at point `t`, read off its array as the region finds it. -/
def iblk2 (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (V c (Pipeline.arrRef spec2 w))

/-- The invariant of every point: the scoped buffers no window stages, the generator register, and the two tables
    held whole at their admitted contents. -/
abbrev ΦG2 (c : Dev nD) : sProp 𝕄 :=
  iprop(Pipeline.ΦA spec2 c ∗ Pipeline.prefHeld pre2 c (fun _ => fullShare) a.1)

/-- The proof data. -/
def dat2 (c : Dev nD) : Dat τ (Elt F) Unit ℕ (UR sig nD τ) ℕ (cfg2 a) c where
  A w := V c (Pipeline.arrRef spec2 w)
  after w t := match w with
    | ⟨0, _⟩ => iblk2 a V c 0 t
    | ⟨1, _⟩ => iblk2 a V c 1 t
    | ⟨2, _⟩ => outG2 (iblk2 a V c 0 t) (iblk2 a V c 1 t)
  Φ _ := ΦG2 a c
  q w := match w with
    | ⟨0, _⟩ => fullShare.left
    | ⟨1, _⟩ => fullShare.right
    | ⟨2, _⟩ => fullShare
  owed _ := 0

theorem A_eq2 (c : Dev nD) (w : Fin (cfg2 a).W) : (dat2 a V c).A w = V c (Pipeline.arrRef spec2 w) := by
  dsimp only [dat2]

theorem after2_0 (c : Dev nD) (t : Fin (cfg2 a).N) : (dat2 a V c).after 0 t = iblk2 a V c 0 t := by dsimp only [dat2]; rfl
theorem after2_1 (c : Dev nD) (t : Fin (cfg2 a).N) : (dat2 a V c).after 1 t = iblk2 a V c 1 t := by dsimp only [dat2]; rfl
theorem after2_2 (c : Dev nD) (t : Fin (cfg2 a).N) : (dat2 a V c).after 2 t = outG2 (iblk2 a V c 0 t) (iblk2 a V c 1 t) := by dsimp only [dat2]; rfl

/-- An input's staging buffer holds its block at every point, fetched there or not: unfetched, the block index has
    not moved (whatever the tables hold) and the body left the block in place. -/
theorem before2_0 (c : Dev nD) (t : Fin (cfg2 a).N) (d) : (dat2 a V c).before 0 t d = iblk2 a V c 0 t :=
  ((dat2 a V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin (cfg2 a).N) (d) : (dat2 a V c).before 1 t d = iblk2 a V c 1 t :=
  ((dat2 a V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- The current staging memref of each window at point `t`. -/
abbrev st2_0 (t : Fin (cfg2 a).N) := ((cfg2 a).win 0).stage ((cfg2 a).slots t 0)
abbrev st2_1 (t : Fin (cfg2 a).N) := ((cfg2 a).win 1).stage ((cfg2 a).slots t 1)
abbrev st2_2 (t : Fin (cfg2 a).N) := ((cfg2 a).win 2).stage ((cfg2 a).slots t 2)

/-- The kernel body at point `t`, on what the pipeline calls it with. -/
abbrev bodyAt2 (t : Fin (cfg2 a).N) : Prog (TpuEff nD τ sig (Elt F) Λ₀ .tc) PUnit :=
  cc2__gather_diff_kernel (grid2.coords t) (Memref.whole main_arg3) (Memref.isWhole_whole _) (Memref.whole main_arg4) (Memref.isWhole_whole _)
    (spec2_0.stage ((cfg2 a).slots t 0)) (hstage2_0 (((cfg2 a).slots t 0).cast nbuf2_0))
    (spec2_1.stage ((cfg2 a).slots t 1)) (hstage2_1 (((cfg2 a).slots t 1).cast nbuf2_1))
    (spec2_2.stage ((cfg2 a).slots t 2)) (hstage2_2 (((cfg2 a).slots t 2).cast nbuf2_2))

/-- What the body is called with at point `t`, -/
def bodyPre2 (c : Dev nD) (t : Fin (cfg2 a).N) : sProp 𝕄 :=
  iprop((dat2 a V c).Φ t.castSucc ∗ (dat2 a V c).owesAt () t.castSucc
    ∗ (∃ d, owns (c : Thread nD τ) (st2_0 a t) fullShare ((dat2 a V c).before 0 t d))
    ∗ (∃ d, owns (c : Thread nD τ) (st2_1 a t) fullShare ((dat2 a V c).before 1 t d))
    ∗ (∃ d, owns (c : Thread nD τ) (st2_2 a t) fullShare ((dat2 a V c).before 2 t d)))

/-- and what it returns. -/
def bodyPost2 (c : Dev nD) (t : Fin (cfg2 a).N) : sProp 𝕄 :=
  iprop((dat2 a V c).Φ t.succ ∗ (dat2 a V c).owesAt () t.succ
    ∗ owns (c : Thread nD τ) (st2_0 a t) fullShare ((dat2 a V c).after 0 t)
    ∗ owns (c : Thread nD τ) (st2_1 a t) fullShare ((dat2 a V c).after 1 t)
    ∗ owns (c : Thread nD τ) (st2_2 a t) fullShare ((dat2 a V c).after 2 t))

/-- The body at any point: the inputs' buffers hold their rows, so the kernel's triple applies; the invariant (the
    tables among it) and what the core owes pass through unread. -/
theorem sound_body2 (c : Dev nD) (t : Fin (cfg2 a).N) :
    bodyPre2 a V c t ⊢ wp frame (wpE (defs₀ (F := F)) Variants.none c none) Set.univ (bodyAt2 a t) (fun _ => bodyPost2 a V c t) := by
  unfold bodyPre2 bodyPost2 bodyAt2
  simp only [before2_0, before2_1]
  rw [show (dat2 a V c).Φ t.succ = (dat2 a V c).Φ t.castSucc from rfl,
    show (dat2 a V c).owesAt () t.succ = (dat2 a V c).owesAt () t.castSucc from rfl,
    after2_0, after2_1, after2_2]
  iintro ⟨HΦ, Ho, ⟨%d0, H0⟩, ⟨%d1, H1⟩, ⟨%d2, H2⟩⟩
  iapply (sound_kernelG2 c Set.univ (grid2.coords t) _ _ _ _ _ _ _ _ _ _ (iblk2 a V c 0 t) (iblk2 a V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation2 (c : Dev nD) : BodyObligation (dat2 (F := F) a V c) (defs₀ (F := F)) Variants.none () Set.univ := fun t => by
  rw [bigSep_W2, bigSep_W2]
  exact sound_body2 a V c t

/-- The shares the arrays are held at. -/
theorem share2 (c : Dev nD) (w : Fin (cfg2 a).W) :
    (dat2 a V c).share w = if w = 0 then fullShare.left else if w = 1 then fullShare.right else fullShare := by
  match w with
  | ⟨0, _⟩ => rfl
  | ⟨1, _⟩ => rfl
  | ⟨2, _⟩ => rfl

end Cert.Kernel.Hand

end
-- ==== Proof.K_Dat3.lean ====
import proofs.«412525_j6176162972381_4_alg».proof.Proof.Gen.Kernel.Launch
import proofs.«412525_j6176162972381_4_alg».proof.Proof.Gen.Kernel.Skeleton
import proofs.«412525_j6176162972381_4_alg».proof.Proof.Gen.Kernel.Points
import proofs.«412525_j6176162972381_4_alg».proof.Proof.K_BodyC
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # Region 3: the proof data of the L1-distance kernel's pipeline

The pipeline's two input windows read ONE array (rows of a table of 1024 rows of 256 numbers): window 0 its block of
64 rows, window 1 its block of 128 rows; window 2 is the [64,128] block of the matrix of distances. After the body
each input's buffer still holds its block and the output's holds the body's value of the two blocks. The shared
array is held at the two halves of the full share. -/

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The proof data: the arrays as the region finds them; after the body each input's buffer at its block, the output's
    at the body's value of the two blocks; the invariant the scratch-free one; nothing owed; the shared input array
    at the left and the right half of the full share. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => outC3 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = outC3 (iblk3 V c 0 t) (iblk3 V c 1 t) := by dsimp only [dat3]

/-- An input's staging buffer holds its block at every point, fetched there or not: unfetched, the block index has
    not moved and the body left the block in place. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the kernel's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernelC3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation3 (c : Dev nD) : BodyObligation (dat3 (F := F) V c) (defs₀ (F := F)) Variants.none () Set.univ := fun t => by
  rw [bigSep_W3, bigSep_W3]
  exact sound_body3 V c t

/-- The shares the arrays are held at. -/
theorem share3 (c : Dev nD) (w : Fin cfg3.W) :
    (dat3 V c).share w = if w = 0 then fullShare.left else if w = 1 then fullShare.right else fullShare := by
  match w with
  | ⟨0, _⟩ => rfl
  | ⟨1, _⟩ => rfl
  | ⟨2, _⟩ => rfl

end Cert.Kernel.Hand

end
-- ==== Proof.LibRegion.lean ====
import Idealize.ShloMosaic.Lib.Pipeline.FrameBody
import Idealize.ShloMosaic.Lib.Pipeline.Regions
import Idealize.ShloMosaic.Lib.Pipeline.RegionsLoop
import Idealize.ShloMosaic.Lib.Tactic

/-!
# A kernel region over the thread state "every unscoped buffer at a valuation", for windows that may share an array

`regionSegHeld` builds the segment record of a kernel region whose thread state before and after is every unscoped
buffer of the core held whole at a valuation, beside the generator register and the core owing nothing. The
buffers behind the windows' arrays are cut out of the unscoped buffers as a set (so two windows on one array cut
out one buffer), and how that set of whole buffers is dealt among the windows is a hypothesis (`hsplit` / `hjoin`).

`arrays_eq_arrBufs_shared` discharges that hypothesis where exactly two input windows read one array, one at the
left half of the full share and one at the right half; `arrays_eq_arrBufs_distinct` where all arrays are distinct.
-/

noncomputable section

namespace Cert.LibRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg Window BodyObligationLoose WinFacts WinFacts₀ arrRef arrBufs unscopedRest pin)

variable {nD : Nat} {τ : Topo} {sig : RefSig} {Val : EltTy → Type}
variable {U : Type} [URA U]

local notation "𝕄" => MT nD τ sig Unit Val ℕ U ℕ

/-- What rides beside the buffers through every segment: the core's generator register at some state and the core
    owing nothing, at some recorded set. -/
abbrev R (c : Dev nD) : sProp 𝕄 :=
  iprop((∃ r, prngReg c r) ∗ ∃ W, owes (c : Thread nD τ) (0 : CellTallies nD τ sig Unit) W)

/-! ## Dealing the buffers behind the arrays among the windows -/

section Share

variable {Λ₀ : Idealize.SL.Sem.Labels} (cfg : Cfg sig Λ₀) (c : Dev nD) (dat : Dat τ Val Unit ℕ U ℕ cfg c)

/-- The buffer behind window `w`'s array, whole at share `q`, at the contents the valuation `V` names for it. -/
abbrev winBuf (V : (b : Ref sig .tc) → Buf Val ((c.tc : Thread nD τ).loc b)) (w : Fin cfg.W) (q : PosShare TreeShare) : sProp 𝕄 :=
  ((c.tc : Thread nD τ).loc (arrRef cfg.spec w)) ↦{q} V (arrRef cfg.spec w)

/-- The pipeline's arrays, each a whole buffer, at contents read off `V`: each window's buffer at the window's share. -/
theorem arrays_eq_winBufs (harr : ∀ w, (cfg.spec w).arr.IsWhole) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F = bigSep Finset.univ fun w => (winBuf cfg c V w (dat.share w) : sProp 𝕄) := by
  unfold Dat.arrays
  exact bigSep_congr fun w _ => by rw [(harr w).set_eq_univ, hF]

/-- All arrays distinct whole buffers, every window at the full share: the pipeline's arrays at contents read off a
    valuation `V` are the buffers behind them whole at `V`. -/
theorem arrays_eq_arrBufs_distinct (hinj : Function.Injective (arrRef cfg.spec)) (harr : ∀ w, (cfg.spec w).arr.IsWhole)
    (hshare : ∀ w, dat.share w = fullShare) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F = (arrBufs cfg.spec c V : sProp 𝕄) := by
  classical
  rw [arrays_eq_winBufs cfg c dat harr V F hF]
  unfold arrBufs
  rw [show Finset.univ.image (arrRef cfg.spec) = Finset.univ.map ⟨arrRef cfg.spec, hinj⟩ from
    (Finset.map_eq_image ⟨arrRef cfg.spec, hinj⟩ Finset.univ).symm, bigSep_map]
  exact bigSep_congr fun w _ => by rw [hshare]; rfl

/-- Two windows `w₀ ≠ w₁` read ONE array, `w₀` at the left half of the full share and `w₁` at the right half; the
    arrays are otherwise distinct (distinct off `w₁`) and every other window holds its array at the full share; every
    array is a whole buffer. Then the pipeline's arrays at contents read off a valuation `V` are the DISTINCT buffers
    behind them whole at `V`: the shared buffer's full share is the two halves (the share law of the points-to). -/
theorem arrays_eq_arrBufs_shared (w₀ w₁ : Fin cfg.W) (hne : w₀ ≠ w₁) (h01 : arrRef cfg.spec w₀ = arrRef cfg.spec w₁)
    (hinj : ∀ w w', w ≠ w₁ → w' ≠ w₁ → arrRef cfg.spec w = arrRef cfg.spec w' → w = w')
    (harr : ∀ w, (cfg.spec w).arr.IsWhole)
    (hshare : ∀ w, dat.share w = if w = w₀ then fullShare.left else if w = w₁ then fullShare.right else fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F = (arrBufs cfg.spec c V : sProp 𝕄) := by
  classical
  have hw₀ : w₀ ∈ (Finset.univ : Finset (Fin cfg.W)).erase w₁ := Finset.mem_erase.mpr ⟨hne, Finset.mem_univ _⟩
  -- the distinct buffers are those of the windows other than w₁, on which the arrays are distinct
  have himg : Finset.univ.image (arrRef cfg.spec) = (Finset.univ.erase w₁).image (arrRef cfg.spec) := by
    ext b
    simp only [Finset.mem_image, Finset.mem_univ, true_and, Finset.mem_erase, and_true]
    constructor
    · rintro ⟨w, rfl⟩
      by_cases hw : w = w₁
      · exact ⟨w₀, hne, by rw [hw, h01]⟩
      · exact ⟨w, hw, rfl⟩
    · rintro ⟨w, _, rfl⟩; exact ⟨w, rfl⟩
  have hbufs : (arrBufs cfg.spec c V : sProp 𝕄) = bigSep (Finset.univ.erase w₁) fun w => (winBuf cfg c V w fullShare : sProp 𝕄) := by
    unfold arrBufs bigSep
    rw [himg]
    exact Finset.fold_image fun x hx y hy h => hinj x y (Finset.ne_of_mem_erase hx) (Finset.ne_of_mem_erase hy) h
  -- window w₀'s buffer out of them, its full share the two halves
  have h2 : bigSep (Finset.univ.erase w₁) (fun w => (winBuf cfg c V w fullShare : sProp 𝕄))
      = iprop(winBuf cfg c V w₀ fullShare ∗ bigSep ((Finset.univ.erase w₁).erase w₀) fun w => (winBuf cfg c V w fullShare : sProp 𝕄)) :=
    bigSep_erase hw₀
  have h3 : (winBuf cfg c V w₀ fullShare : sProp 𝕄) = iprop(winBuf cfg c V w₀ fullShare.left ∗ winBuf cfg c V w₀ fullShare.right) := by
    have hs : (winBuf cfg c V w₀ fullShare : sProp 𝕄) ⊣⊢ iprop(winBuf cfg c V w₀ fullShare.left ∗ winBuf cfg c V w₀ fullShare.right) :=
      pointsTo_share (PosShare.mem_left_op_right fullShare)
    exact BI.equiv_iff.mp ⟨hs.1, hs.2⟩
  -- the windows' arrays: w₁'s at the right half, w₀'s at the left half, the others' whole
  have e1 : dat.share w₁ = fullShare.right := by rw [hshare, if_neg (Ne.symm hne), if_pos rfl]
  have e0 : dat.share w₀ = fullShare.left := by rw [hshare, if_pos rfl]
  have h1 : bigSep Finset.univ (fun w => (winBuf cfg c V w (dat.share w) : sProp 𝕄))
      = iprop(winBuf cfg c V w₁ fullShare.right ∗ winBuf cfg c V w₀ fullShare.left
          ∗ bigSep ((Finset.univ.erase w₁).erase w₀) fun w => (winBuf cfg c V w fullShare : sProp 𝕄)) := by
    rw [bigSep_erase (Finset.mem_univ w₁), bigSep_erase hw₀, e1, e0]
    congr 2
    exact bigSep_congr fun w hw => by
      rw [hshare, if_neg (Finset.ne_of_mem_erase hw), if_neg (Finset.ne_of_mem_erase (Finset.mem_of_mem_erase hw))]
  -- w₁'s buffer is w₀'s
  have h4 : (winBuf cfg c V w₁ fullShare.right : sProp 𝕄) = winBuf cfg c V w₀ fullShare.right := by
    unfold winBuf; rw [h01]
  rw [arrays_eq_winBufs cfg c dat harr V F hF, hbufs, h1, h2, h3, h4]
  refine BI.equiv_iff.mp ⟨?_, ?_⟩
  · show (_ : sProp 𝕄) ⊢ _
    iintro ⟨Hr, Hl, Hs⟩
    isplitl [Hl Hr]
    · isplitl [Hl] <;> iassumption
    iexact Hs
  · show (_ : sProp 𝕄) ⊢ _
    iintro ⟨⟨Hl, Hr⟩, Hs⟩
    isplitl [Hr]; · iexact Hr
    isplitl [Hl] <;> iassumption

/-- ENTRY, shared array: the distinct buffers behind the arrays, whole at `V`, deal the pipeline its arrays at the
    contents read off `V` (`arrays_eq_arrBufs_shared`, right to left). -/
theorem arrBufs_split_shared (w₀ w₁ : Fin cfg.W) (hne : w₀ ≠ w₁) (h01 : arrRef cfg.spec w₀ = arrRef cfg.spec w₁)
    (hinj : ∀ w w', w ≠ w₁ → w' ≠ w₁ → arrRef cfg.spec w = arrRef cfg.spec w' → w = w')
    (harr : ∀ w, (cfg.spec w).arr.IsWhole)
    (hshare : ∀ w, dat.share w = if w = w₀ then fullShare.left else if w = w₁ then fullShare.right else fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (arrBufs cfg.spec c V : sProp 𝕄) ⊢ dat.arrays F :=
  Entails.of_eq (arrays_eq_arrBufs_shared cfg c dat w₀ w₁ hne h01 hinj harr hshare V F hF).symm

/-- EXIT, shared array: the pipeline's arrays at contents read off `V` are collected into the distinct buffers behind
    them, whole at `V` (`arrays_eq_arrBufs_shared`, left to right). -/
theorem arrBufs_join_shared (w₀ w₁ : Fin cfg.W) (hne : w₀ ≠ w₁) (h01 : arrRef cfg.spec w₀ = arrRef cfg.spec w₁)
    (hinj : ∀ w w', w ≠ w₁ → w' ≠ w₁ → arrRef cfg.spec w = arrRef cfg.spec w' → w = w')
    (harr : ∀ w, (cfg.spec w).arr.IsWhole)
    (hshare : ∀ w, dat.share w = if w = w₀ then fullShare.left else if w = w₁ then fullShare.right else fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F ⊢ (arrBufs cfg.spec c V : sProp 𝕄) :=
  Entails.of_eq (arrays_eq_arrBufs_shared cfg c dat w₀ w₁ hne h01 hinj harr hshare V F hF)

/-- ENTRY, distinct arrays (`arrays_eq_arrBufs_distinct`, right to left). -/
theorem arrBufs_split_distinct (hinj : Function.Injective (arrRef cfg.spec)) (harr : ∀ w, (cfg.spec w).arr.IsWhole)
    (hshare : ∀ w, dat.share w = fullShare) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (arrBufs cfg.spec c V : sProp 𝕄) ⊢ dat.arrays F :=
  Entails.of_eq (arrays_eq_arrBufs_distinct cfg c dat hinj harr hshare V F hF).symm

/-- EXIT, distinct arrays (`arrays_eq_arrBufs_distinct`, left to right). -/
theorem arrBufs_join_distinct (hinj : Function.Injective (arrRef cfg.spec)) (harr : ∀ w, (cfg.spec w).arr.IsWhole)
    (hshare : ∀ w, dat.share w = fullShare) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F ⊢ (arrBufs cfg.spec c V : sProp 𝕄) :=
  Entails.of_eq (arrays_eq_arrBufs_distinct cfg c dat hinj harr hshare V F hF)

end Share

/-! ## The region's segment record -/

section Region

variable {Λ₀ : Idealize.SL.Sem.Labels} {P : Type} [Fintype P]
variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

/-- A kernel region entered from every unscoped buffer held whole at `Vin c` (beside `R c`) and left at `Vout c`:
    no prefetched table, no semaphore of the kernel's own, nothing owed. The body's invariant at the first point is
    made of the generator register and the scoped buffers that are no staging buffer (`hin`), and gives them back at
    the last point (`hout`). The buffers behind the arrays are dealt to the windows by `hsplit` at entry and
    collected by `hjoin` at exit; off those buffers the valuation is unchanged (`hrest`). -/
def regionSegHeld (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hin : ∀ c, (iprop((∃ r, prngReg c r) ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) :
    Pipeline.RegionSeg pcs a pdats () defs₀ 𝒱₀ L lv p where
  win := win
  block_pos := block_pos
  stage_whole := stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := unscopedRest (Ix := Unit) (Name := ℕ) (U := U) (Lvl := ℕ) (pin pcs a p).spec c (fun b => Vin c b)
  hentry c := by
    -- the unscoped buffers at `Vin c` are the buffers behind the arrays and the rest; the former are dealt to the windows
    rw [Pipeline.ownSems0_none]
    have hub : (StableHlo.held (c : Thread nD τ) (Pipeline.ucRefs τ sig) (Vin c) : sProp 𝕄)
        = iprop(arrBufs (pin pcs a p).spec c (fun b => Vin c b) ∗ unscopedRest (pin pcs a p).spec c (fun b => Vin c b)) := by
      rw [← Pipeline.unscopedBufs_held, Pipeline.unscopedBufs_split₀ (pin pcs a) p win.arr_unscoped c]
    rw [hub]
    have hs := hsplit c
    iintro ⟨⟨⟨Hab, Hrest⟩, Hp, HO⟩, -, -⟩
    ihave Ha := hs $$ Hab
    imodintro
    isplitl [Ha]; · iexact Ha
    isplitr
    · -- no table is prefetched: nothing to hold
      unfold Pipeline.prefHeld
      rw [show (Finset.univ : Finset (Fin (pcs p).pre.K)) = ∅ from
        Finset.univ_eq_empty_iff.mpr ⟨fun k => by have := k.isLt; omega⟩, BI.bigSep_empty]
      iempintro
    isplitl [HO]
    · -- nothing owed; any recorded set lies within the first point's bound
      unfold Pipeline.Dat.owesAt Pipeline.owesWithin
      icases HO with ⟨%W, HO⟩; iexists W; isplitr
      · ipureintro; exact fun x _ => Or.inl (by rw [hrec c]; trivial)
      rw [howed c 0]; iexact HO
    isplitl [Hp]; · iexact Hp
    iexact Hrest
  hin c := by
    have h := hin c
    iintro ⟨Hp, -, Hr⟩
    iapply h
    isplitl [Hp] <;> iassumption
  hout c := by
    rw [Pipeline.ownSems0_none]
    refine (hout c).trans ?_
    iintro ⟨Hp, Hr⟩
    isplitl [Hp]; · iexact Hp
    isplitr; · iempintro
    iexact Hr
  hexit c := by
    -- the unscoped buffers at `Vout c` are the buffers behind the arrays at `Vout c` and the rest, unchanged since entry
    have hub : (StableHlo.held (c : Thread nD τ) (Pipeline.ucRefs τ sig) (Vout c) : sProp 𝕄)
        = iprop(arrBufs (pin pcs a p).spec c (fun b => Vout c b) ∗ unscopedRest (pin pcs a p).spec c (fun b => Vin c b)) := by
      rw [← Pipeline.unscopedBufs_held, Pipeline.unscopedBufs_split₀ (pin pcs a) p win.arr_unscoped c]
      congr 1
      unfold Pipeline.unscopedRest
      exact bigSep_congr fun b hb => by beta_reduce; rw [hrest c b (Finset.mem_sdiff.mp hb).2]
    rw [hub]
    have hj := hjoin c
    iintro ⟨Ha, HO, HY, Hrest⟩
    ihave Hab := hj $$ Ha
    imodintro
    isplitl [Hab Hrest]
    · isplitl [Hab] <;> iassumption
    isplitl [HY]; · iexact HY
    unfold Pipeline.Dat.owesAt Pipeline.owesWithin
    icases HO with ⟨%W, -, HO⟩; iexists W
    rw [howed c (Fin.last _)]; iexact HO

/-- The thread state `regionSegHeld` is entered from. -/
theorem regionSegHeld_pre (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hin : ∀ c, (iprop((∃ r, prngReg c r) ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeld pcs a pdats defs₀ 𝒱₀ L lv p win block_pos stage_whole hpre hbody hin hout howed hrec Vin Vout hsplit hjoin hrest).pre c
      = iprop(StableHlo.held (c : Thread nD τ) (Pipeline.ucRefs τ sig) (Vin c) ∗ R c) := rfl

/-- The thread state `regionSegHeld` leaves. -/
theorem regionSegHeld_post (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hin : ∀ c, (iprop((∃ r, prngReg c r) ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeld pcs a pdats defs₀ 𝒱₀ L lv p win block_pos stage_whole hpre hbody hin hout howed hrec Vin Vout hsplit hjoin hrest).post c
      = iprop(StableHlo.held (c : Thread nD τ) (Pipeline.ucRefs τ sig) (Vout c) ∗ R c) := rfl

/-- The class invariant (the scoped buffers that are no staging buffer, the generator register) is made of the
    generator register and those scoped buffers. -/
theorem ΦA_of (p : P) (c : Dev nD) :
    (iprop((∃ r, prngReg c r) ∗ Pipeline.scopedRest (pin pcs a p).spec c) : sProp 𝕄) ⊢ Pipeline.ΦA (pin pcs a p).spec c := by
  unfold Pipeline.ΦA
  iintro ⟨Hp, Hr⟩
  isplitl [Hr] <;> iassumption

/-- The class invariant gives back the generator register and the scoped buffers that are no staging buffer. -/
theorem of_ΦA (p : P) (c : Dev nD) :
    (Pipeline.ΦA (pin pcs a p).spec c : sProp 𝕄) ⊢ iprop((∃ r, prngReg c r) ∗ Pipeline.scopedRest (pin pcs a p).spec c) := by
  unfold Pipeline.ΦA
  iintro ⟨Hr, Hp⟩
  isplitl [Hp] <;> iassumption

/-- `regionSegHeld` for a body whose invariant at the first and at the last point IS the class invariant. -/
def regionSegHeldA (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hΦ0 : ∀ c, (pdats p c).Φ 0 = Pipeline.ΦA (pin pcs a p).spec c)
    (hΦN : ∀ c, (pdats p c).Φ (Fin.last (pin pcs a p).N) = Pipeline.ΦA (pin pcs a p).spec c)
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) :
    Pipeline.RegionSeg pcs a pdats () defs₀ 𝒱₀ L lv p :=
  regionSegHeld pcs a pdats defs₀ 𝒱₀ L lv p win block_pos stage_whole hpre hbody
    (fun c => by rw [hΦ0 c]; exact ΦA_of pcs a p c) (fun c => by rw [hΦN c]; exact of_ΦA pcs a p c)
    howed hrec Vin Vout hsplit hjoin hrest

/-- The thread state `regionSegHeldA` is entered from. -/
theorem regionSegHeldA_pre (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hΦ0 : ∀ c, (pdats p c).Φ 0 = Pipeline.ΦA (pin pcs a p).spec c)
    (hΦN : ∀ c, (pdats p c).Φ (Fin.last (pin pcs a p).N) = Pipeline.ΦA (pin pcs a p).spec c)
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeldA pcs a pdats defs₀ 𝒱₀ L lv p win block_pos stage_whole hpre hbody hΦ0 hΦN howed hrec Vin Vout hsplit hjoin hrest).pre c
      = iprop(StableHlo.held (c : Thread nD τ) (Pipeline.ucRefs τ sig) (Vin c) ∗ R c) := rfl

/-- The thread state `regionSegHeldA` leaves. -/
theorem regionSegHeldA_post (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hΦ0 : ∀ c, (pdats p c).Φ 0 = Pipeline.ΦA (pin pcs a p).spec c)
    (hΦN : ∀ c, (pdats p c).Φ (Fin.last (pin pcs a p).N) = Pipeline.ΦA (pin pcs a p).spec c)
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeldA pcs a pdats defs₀ 𝒱₀ L lv p win block_pos stage_whole hpre hbody hΦ0 hΦN howed hrec Vin Vout hsplit hjoin hrest).post c
      = iprop(StableHlo.held (c : Thread nD τ) (Pipeline.ucRefs τ sig) (Vout c) ∗ R c) := rfl

end Region

end Cert.LibRegion

end
-- ==== Proof.LibRegionP.lean ====
import Idealize.ShloMosaic.Lib.Pipeline.FrameBody
import Idealize.ShloMosaic.Lib.Pipeline.Regions
import Idealize.ShloMosaic.Lib.Pipeline.RegionsLoop
import Idealize.ShloMosaic.Lib.Tactic

/-!
# A kernel region with prefetched tables, over the thread state "every unscoped buffer at a valuation"

`regionSegHeldP` builds the segment record of a kernel region whose thread state before and after is every unscoped
buffer of the core held whole at a valuation, beside the generator register and the core owing nothing, for a kernel
that reads prefetched tables. The tables are unscoped buffers, distinct from one another and from every window's array;
at entry the valuation names the admitted contents for them. The unscoped buffers are the distinct buffers behind the
windows' arrays, the tables, and the rest. The first are dealt to the windows (`hsplit` / `hjoin`), the tables are
handed whole to the pipeline, carried by the body's invariant from the first point to the last and put back, and the
rest bypasses the region. Off the arrays' buffers the valuation is unchanged, so the tables hold the same contents
after the region as before it.
-/

noncomputable section

namespace Cert.LibRegionP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg Window BodyObligationLoose WinFacts WinFacts₀ arrRef arrBufs unscopedRest unscopedRestP prefHeld pin)

variable {nD : Nat} {τ : Topo} {sig : RefSig} {Val : EltTy → Type}
variable {U : Type} [URA U]

local notation "𝕄" => MT nD τ sig Unit Val ℕ U ℕ

/-- What rides beside the buffers through every segment: the core's generator register at some state and the core
    owing nothing, at some recorded set. -/
abbrev R (c : Dev nD) : sProp 𝕄 :=
  iprop((∃ r, prngReg c r) ∗ ∃ W, owes (c : Thread nD τ) (0 : CellTallies nD τ sig Unit) W)

section Region

variable {Λ₀ : Idealize.SL.Sem.Labels} {P : Type} [Fintype P]
variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

/-- The unscoped buffers of a core held whole at a valuation `V` are the distinct buffers behind the windows' arrays
    at `V`, the prefetched tables at the contents `V` names for them, and the remaining unscoped buffers at `V`. -/
theorem held_split (p : P) (win : WinFacts₀ (pcs p).spec) (hp : Pipeline.PreFacts (pcs p).spec (pcs p).pre)
    (c : Dev nD) (V : Valuation τ sig Val) :
    (StableHlo.held (c : Thread nD τ) (Pipeline.ucRefs τ sig) V : sProp 𝕄)
      = iprop(arrBufs (pin pcs a p).spec c (fun b => V b)
          ∗ prefHeld (pcs p).pre c (fun _ => fullShare) (fun k => (fun b : Ref sig .tc => V b) ((pcs p).pre.ref k))
          ∗ unscopedRestP (pcs p).pre (pin pcs a p).spec c (fun b => V b)) := by
  rw [← Pipeline.unscopedBufs_held, Pipeline.unscopedBufs_split₀ (pin pcs a) p win.arr_unscoped c,
    Pipeline.unscopedRest_split (win := (pin pcs a p).spec) hp c]

/-- A kernel region with prefetched tables, entered from every unscoped buffer held whole at `Vin c` (beside `R c`)
    and left at `Vout c`: no semaphore of the kernel's own, nothing owed. The tables' buffers hold the admitted
    contents at entry (`htbl`). The body's invariant at the first point is made of the generator register, the tables
    held whole at the admitted contents and the scoped buffers that are no staging buffer (`hin`), and gives them back
    at the last point (`hout`). The buffers behind the arrays are dealt to the windows by `hsplit` at entry and
    collected by `hjoin` at exit; off those buffers the valuation is unchanged (`hrest`), the tables included. -/
def regionSegHeldP (p : P) (win : WinFacts₀ (pcs p).spec)
    (hp : Pipeline.PreFacts (pcs p).spec (pcs p).pre)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hbody : ∀ c, BodyObligationLoose (pdats p c) defs₀ 𝒱₀ () Set.univ)
    (hin : ∀ c, (iprop((∃ r, prngReg c r) ∗ Pipeline.prefHeld (pcs p).pre c (fun _ => fullShare) (a p).1 ∗ Pipeline.scopedRest (pin pcs a p).spec c) : sProp 𝕄) ⊢ (pdats p c).Φ 0)
    (hout : ∀ c, (pdats p c).Φ (Fin.last (pin pcs a p).N) ⊢ (iprop(((∃ r, prngReg c r) ∗ Pipeline.prefHeld (pcs p).pre c (fun _ => fullShare) (a p).1) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (htbl : ∀ c k, (fun b : Ref sig .tc => Vin c b) ((pcs p).pre.ref k) = (a p).1 k)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) :
    Pipeline.RegionSeg pcs a pdats () defs₀ 𝒱₀ L lv p where
  win := win
  block_pos := block_pos
  stage_whole := stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop((∃ r, prngReg c r) ∗ prefHeld (Ix := Unit) (Name := ℕ) (U := U) (Lvl := ℕ) (pcs p).pre c (fun _ => fullShare) (a p).1)
  Z c := unscopedRestP (Ix := Unit) (Name := ℕ) (U := U) (Lvl := ℕ) (pcs p).pre (pin pcs a p).spec c (fun b => Vin c b)
  hentry c := by
    -- the unscoped buffers at `Vin c` are the arrays' buffers, the tables at the admitted contents, and the rest
    rw [Pipeline.ownSems0_none, held_split pcs a p win hp c (Vin c),
      show (fun k => (fun b : Ref sig .tc => Vin c b) ((pcs p).pre.ref k)) = (a p).1 from funext fun k => htbl c k]
    have hs := hsplit c
    iintro ⟨⟨⟨Hab, Ht, Hrest⟩, Hp, HO⟩, -, -⟩
    ihave Ha := hs $$ Hab
    imodintro
    isplitl [Ha]; · iexact Ha
    isplitl [Ht]; · iexact Ht
    isplitl [HO]
    · -- nothing owed; any recorded set lies within the first point's bound
      unfold Pipeline.Dat.owesAt Pipeline.owesWithin
      icases HO with ⟨%W, HO⟩; iexists W; isplitr
      · ipureintro; exact fun x _ => Or.inl (by rw [hrec c]; trivial)
      rw [howed c 0]; iexact HO
    isplitl [Hp]; · iexact Hp
    iexact Hrest
  hin c := hin c
  hout c := by
    rw [Pipeline.ownSems0_none]
    refine (hout c).trans ?_
    iintro ⟨HY, Hr⟩
    isplitl [HY]; · iexact HY
    isplitr; · iempintro
    iexact Hr
  hexit c := by
    -- off the arrays' buffers `Vout c` is `Vin c`: the tables still hold the admitted contents, the rest is unchanged
    have htab : (fun k => (fun b : Ref sig .tc => Vout c b) ((pcs p).pre.ref k)) = (a p).1 := funext fun k => by
      have hk : (pcs p).pre.ref k ∉ Finset.univ.image (arrRef (pin pcs a p).spec) := fun h => by
        obtain ⟨w, -, hw⟩ := Finset.mem_image.mp h
        exact hp.disj k w hw.symm
      beta_reduce
      rw [hrest c _ hk]
      exact htbl c k
    have hZ : (unscopedRestP (pcs p).pre (pin pcs a p).spec c (fun b => Vout c b) : sProp 𝕄)
        = unscopedRestP (pcs p).pre (pin pcs a p).spec c (fun b => Vin c b) := by
      unfold Pipeline.unscopedRestP
      exact bigSep_congr fun b hb => by
        beta_reduce; rw [hrest c b (Finset.mem_sdiff.mp (Finset.mem_sdiff.mp hb).1).2]
    rw [held_split pcs a p win hp c (Vout c), htab, hZ]
    have hj := hjoin c
    iintro ⟨Ha, HO, ⟨Hp, Ht⟩, Hrest⟩
    ihave Hab := hj $$ Ha
    imodintro
    isplitl [Hab Ht Hrest]
    · isplitl [Hab]; · iexact Hab
      isplitl [Ht] <;> iassumption
    isplitl [Hp]; · iexact Hp
    unfold Pipeline.Dat.owesAt Pipeline.owesWithin
    icases HO with ⟨%W, -, HO⟩; iexists W
    rw [howed c (Fin.last _)]; iexact HO

/-- The thread state `regionSegHeldP` is entered from. -/
theorem regionSegHeldP_pre (p : P) (win : WinFacts₀ (pcs p).spec)
    (hp : Pipeline.PreFacts (pcs p).spec (pcs p).pre)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hbody : ∀ c, BodyObligationLoose (pdats p c) defs₀ 𝒱₀ () Set.univ)
    (hin : ∀ c, (iprop((∃ r, prngReg c r) ∗ Pipeline.prefHeld (pcs p).pre c (fun _ => fullShare) (a p).1 ∗ Pipeline.scopedRest (pin pcs a p).spec c) : sProp 𝕄) ⊢ (pdats p c).Φ 0)
    (hout : ∀ c, (pdats p c).Φ (Fin.last (pin pcs a p).N) ⊢ (iprop(((∃ r, prngReg c r) ∗ Pipeline.prefHeld (pcs p).pre c (fun _ => fullShare) (a p).1) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (htbl : ∀ c k, (fun b : Ref sig .tc => Vin c b) ((pcs p).pre.ref k) = (a p).1 k)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeldP pcs a pdats defs₀ 𝒱₀ L lv p win hp block_pos stage_whole hbody hin hout howed hrec Vin Vout htbl hsplit hjoin hrest).pre c
      = iprop(StableHlo.held (c : Thread nD τ) (Pipeline.ucRefs τ sig) (Vin c) ∗ R c) := rfl

/-- The thread state `regionSegHeldP` leaves. -/
theorem regionSegHeldP_post (p : P) (win : WinFacts₀ (pcs p).spec)
    (hp : Pipeline.PreFacts (pcs p).spec (pcs p).pre)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hbody : ∀ c, BodyObligationLoose (pdats p c) defs₀ 𝒱₀ () Set.univ)
    (hin : ∀ c, (iprop((∃ r, prngReg c r) ∗ Pipeline.prefHeld (pcs p).pre c (fun _ => fullShare) (a p).1 ∗ Pipeline.scopedRest (pin pcs a p).spec c) : sProp 𝕄) ⊢ (pdats p c).Φ 0)
    (hout : ∀ c, (pdats p c).Φ (Fin.last (pin pcs a p).N) ⊢ (iprop(((∃ r, prngReg c r) ∗ Pipeline.prefHeld (pcs p).pre c (fun _ => fullShare) (a p).1) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (htbl : ∀ c k, (fun b : Ref sig .tc => Vin c b) ((pcs p).pre.ref k) = (a p).1 k)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeldP pcs a pdats defs₀ 𝒱₀ L lv p win hp block_pos stage_whole hbody hin hout howed hrec Vin Vout htbl hsplit hjoin hrest).post c
      = iprop(StableHlo.held (c : Thread nD τ) (Pipeline.ucRefs τ sig) (Vout c) ∗ R c) := rfl

/-- The class invariant beside the tables held whole is made of the generator register, the tables and the scoped
    buffers that are no staging buffer. -/
theorem ΦAP_of (p : P) (c : Dev nD) :
    (iprop((∃ r, prngReg c r) ∗ prefHeld (pcs p).pre c (fun _ => fullShare) (a p).1 ∗ Pipeline.scopedRest (pin pcs a p).spec c) : sProp 𝕄)
      ⊢ iprop(Pipeline.ΦA (pin pcs a p).spec c ∗ prefHeld (pcs p).pre c (fun _ => fullShare) (a p).1) := by
  unfold Pipeline.ΦA
  iintro ⟨Hp, Ht, Hr⟩
  isplitl [Hp Hr]
  · isplitl [Hr] <;> iassumption
  iexact Ht

/-- The class invariant beside the tables held whole gives back the generator register with the tables, and the scoped
    buffers that are no staging buffer. -/
theorem of_ΦAP (p : P) (c : Dev nD) :
    (iprop(Pipeline.ΦA (pin pcs a p).spec c ∗ prefHeld (pcs p).pre c (fun _ => fullShare) (a p).1) : sProp 𝕄)
      ⊢ iprop(((∃ r, prngReg c r) ∗ prefHeld (pcs p).pre c (fun _ => fullShare) (a p).1) ∗ Pipeline.scopedRest (pin pcs a p).spec c) := by
  unfold Pipeline.ΦA
  iintro ⟨⟨Hr, Hp⟩, Ht⟩
  isplitl [Hp Ht]
  · isplitl [Hp] <;> iassumption
  iexact Hr

/-- `regionSegHeldP` for a body whose invariant at the first and at the last point IS the class invariant beside the
    tables held whole at the admitted contents. -/
def regionSegHeldPA (p : P) (win : WinFacts₀ (pcs p).spec)
    (hp : Pipeline.PreFacts (pcs p).spec (pcs p).pre)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hbody : ∀ c, BodyObligationLoose (pdats p c) defs₀ 𝒱₀ () Set.univ)
    (hΦ0 : ∀ c, (pdats p c).Φ 0 = iprop(Pipeline.ΦA (pin pcs a p).spec c ∗ Pipeline.prefHeld (pcs p).pre c (fun _ => fullShare) (a p).1))
    (hΦN : ∀ c, (pdats p c).Φ (Fin.last (pin pcs a p).N) = iprop(Pipeline.ΦA (pin pcs a p).spec c ∗ Pipeline.prefHeld (pcs p).pre c (fun _ => fullShare) (a p).1))
    (howed : ∀ c t, (pdats p c).owed t = 0)
    (hrec : ∀ c, (pdats p c).recorded 0 = Set.univ)
    (Vin Vout : Dev nD → Valuation τ sig Val)
    (htbl : ∀ c k, (fun b : Ref sig .tc => Vin c b) ((pcs p).pre.ref k) = (a p).1 k)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) :
    Pipeline.RegionSeg pcs a pdats () defs₀ 𝒱₀ L lv p :=
  regionSegHeldP pcs a pdats defs₀ 𝒱₀ L lv p win hp block_pos stage_whole hbody
    (fun c => by rw [hΦ0 c]; exact ΦAP_of pcs a p c) (fun c => by rw [hΦN c]; exact of_ΦAP pcs a p c)
    howed hrec Vin Vout htbl hsplit hjoin hrest

/-- The thread state `regionSegHeldPA` is entered from. -/
theorem regionSegHeldPA_pre (p : P) (win : WinFacts₀ (pcs p).spec)
    (hp : Pipeline.PreFacts (pcs p).spec (pcs p).pre)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hbody : ∀ c, BodyObligationLoose (pdats p c) defs₀ 𝒱₀ () Set.univ)
    (hΦ0 : ∀ c, (pdats p c).Φ 0 = iprop(Pipeline.ΦA (pin pcs a p).spec c ∗ Pipeline.prefHeld (pcs p).pre c (fun _ => fullShare) (a p).1))
    (hΦN : ∀ c, (pdats p c).Φ (Fin.last (pin pcs a p).N) = iprop(Pipeline.ΦA (pin pcs a p).spec c ∗ Pipeline.prefHeld (pcs p).pre c (fun _ => fullShare) (a p).1))
    (howed : ∀ c t, (pdats p c).owed t = 0)
    (hrec : ∀ c, (pdats p c).recorded 0 = Set.univ)
    (Vin Vout : Dev nD → Valuation τ sig Val)
    (htbl : ∀ c k, (fun b : Ref sig .tc => Vin c b) ((pcs p).pre.ref k) = (a p).1 k)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeldPA pcs a pdats defs₀ 𝒱₀ L lv p win hp block_pos stage_whole hbody hΦ0 hΦN howed hrec Vin Vout htbl hsplit hjoin hrest).pre c
      = iprop(StableHlo.held (c : Thread nD τ) (Pipeline.ucRefs τ sig) (Vin c) ∗ R c) := rfl

/-- The thread state `regionSegHeldPA` leaves. -/
theorem regionSegHeldPA_post (p : P) (win : WinFacts₀ (pcs p).spec)
    (hp : Pipeline.PreFacts (pcs p).spec (pcs p).pre)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hbody : ∀ c, BodyObligationLoose (pdats p c) defs₀ 𝒱₀ () Set.univ)
    (hΦ0 : ∀ c, (pdats p c).Φ 0 = iprop(Pipeline.ΦA (pin pcs a p).spec c ∗ Pipeline.prefHeld (pcs p).pre c (fun _ => fullShare) (a p).1))
    (hΦN : ∀ c, (pdats p c).Φ (Fin.last (pin pcs a p).N) = iprop(Pipeline.ΦA (pin pcs a p).spec c ∗ Pipeline.prefHeld (pcs p).pre c (fun _ => fullShare) (a p).1))
    (howed : ∀ c t, (pdats p c).owed t = 0)
    (hrec : ∀ c, (pdats p c).recorded 0 = Set.univ)
    (Vin Vout : Dev nD → Valuation τ sig Val)
    (htbl : ∀ c k, (fun b : Ref sig .tc => Vin c b) ((pcs p).pre.ref k) = (a p).1 k)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeldPA pcs a pdats defs₀ 𝒱₀ L lv p win hp block_pos stage_whole hbody hΦ0 hΦN howed hrec Vin Vout htbl hsplit hjoin hrest).post c
      = iprop(StableHlo.held (c : Thread nD τ) (Pipeline.ucRefs τ sig) (Vout c) ∗ R c) := rfl

end Region

end Cert.LibRegionP

end
-- ==== Proof.K_Regions.lean ====
import proofs.«412525_j6176162972381_4_alg».proof.Proof.K_Dat0
import proofs.«412525_j6176162972381_4_alg».proof.Proof.K_Dat1
import proofs.«412525_j6176162972381_4_alg».proof.Proof.K_Dat2
import proofs.«412525_j6176162972381_4_alg».proof.Proof.K_Dat3
import proofs.«412525_j6176162972381_4_alg».proof.Proof.Gen.Kernel.Regions
import proofs.«412525_j6176162972381_4_alg».proof.Proof.LibRegion
import proofs.«412525_j6176162972381_4_alg».proof.Proof.LibRegionP

/-!
# The four kernel regions as segments of the program

Between two items of the program each core holds every unscoped buffer whole at a valuation. The valuations are
named here from the launch memory on: a host stretch applies its operations; a region overwrites its result buffer
with what its pipeline's write-backs leave (the proof data's final array). Each region's record is entered from
the valuation before it and left at the one after it. The row-difference regions also carry their two tables, which
must hold the admitted contents when the region is entered (`ha0`, `ha2`).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf arrRef RegionSeg)

variable {F : FTy → Type} [FloatOps F]

local notation "𝕄" => MT nD τ sig Unit (Elt F) ℕ (UR sig nD τ) ℕ

variable (m : (ℓ : Loc nD τ sig) → Buf (Elt F) ℓ) (a : (p : Fin 4) → (pcfgs (F := F) p).Adm)

/-- A valuation read at the TensorCore's references. -/
abbrev rd (W : Dev nD → Valuation τ sig (Elt F)) : (c : Dev nD) → (b : Ref sig .tc) → Buf (Elt F) ((c : Thread nD τ).loc b) :=
  fun c b => W c b

/-- The admitted contents of the first and of the second row-difference region's tables. -/
abbrev a0 : (pcfg0 (F := F)).Adm := a 0
abbrev a2 : (pcfg2 (F := F)).Adm := a 2

/-! ## Closed facts about the windows and the buffers, decided once -/

theorem ne01 : (0 : Fin 3) ≠ 1 := by decide
theorem inj0 : ∀ w w' : Fin 3, w ≠ 1 → w' ≠ 1 → arrRef spec0 w = arrRef spec0 w' → w = w' := by decide
theorem inj1 : ∀ w w' : Fin 3, w ≠ 1 → w' ≠ 1 → arrRef spec1 w = arrRef spec1 w' → w = w' := by decide
theorem inj2 : ∀ w w' : Fin 3, w ≠ 1 → w' ≠ 1 → arrRef spec2 w = arrRef spec2 w' → w = w' := by decide
theorem inj3 : ∀ w w' : Fin 3, w ≠ 1 → w' ≠ 1 → arrRef spec3 w = arrRef spec3 w' → w = w' := by decide
theorem v0_ne_v1 : (main_v0 : Ref sig .tc) ≠ main_v1 := by decide
theorem v2_ne_v3 : (main_v2 : Ref sig .tc) ≠ main_v3 := by decide
theorem v4_ne_v5 : (main_v4 : Ref sig .tc) ≠ main_v5 := by decide
theorem v6_ne_v7 : (main_v6 : Ref sig .tc) ≠ main_v7 := by decide

/-! ## The valuations between the items -/

/-- Before region 0: the launch memory after the first host stretch. -/
abbrev W1 : Dev nD → Valuation τ sig (Elt F) := fun c => V1 m c
/-- What region 0 leaves in its result buffer. -/
def o1 (c : Dev nD) : Buf (Elt F) ((c : Thread nD τ).loc main_v1) := (dat0 (a0 a) (rd (W1 m)) c).arrAt 2 (cfg0 (a0 a)).N
abbrev W2 : Dev nD → Valuation τ sig (Elt F) := fun c => Function.update (W1 m c) main_v1 (o1 m a c)
abbrev W3 : Dev nD → Valuation τ sig (Elt F) := fun c => StableHlo.after hostOps1 (W2 m a c)
/-- What region 1 leaves in its result buffer. -/
def o3 (c : Dev nD) : Buf (Elt F) ((c : Thread nD τ).loc main_v3) := (dat1 (rd (W3 m a)) c).arrAt 2 cfg1.N
abbrev W4 : Dev nD → Valuation τ sig (Elt F) := fun c => Function.update (W3 m a c) main_v3 (o3 m a c)
abbrev W5 : Dev nD → Valuation τ sig (Elt F) := fun c => StableHlo.after hostOps2 (W4 m a c)
/-- What region 2 leaves in its result buffer. -/
def o5 (c : Dev nD) : Buf (Elt F) ((c : Thread nD τ).loc main_v5) := (dat2 (a2 a) (rd (W5 m a)) c).arrAt 2 (cfg2 (a2 a)).N
abbrev W6 : Dev nD → Valuation τ sig (Elt F) := fun c => Function.update (W5 m a c) main_v5 (o5 m a c)
abbrev W7 : Dev nD → Valuation τ sig (Elt F) := fun c => StableHlo.after hostOps3 (W6 m a c)
/-- What region 3 leaves in its result buffer. -/
def o7 (c : Dev nD) : Buf (Elt F) ((c : Thread nD τ).loc main_v7) := (dat3 (rd (W7 m a)) c).arrAt 2 cfg3.N
abbrev W8 : Dev nD → Valuation τ sig (Elt F) := fun c => Function.update (W7 m a c) main_v7 (o7 m a c)

/-- What the regions leave, as the family the program's conditional frame is stated over. -/
def outs : Outs (F := F) := fun _ r c =>
  if h1 : r = main_v1 then h1 ▸ o1 m a c
  else if h3 : r = main_v3 then h3 ▸ o3 m a c
  else if h5 : r = main_v5 then h5 ▸ o5 m a c
  else if h7 : r = main_v7 then h7 ▸ o7 m a c
  else m ((c : Thread nD τ).loc r)

theorem outs_v1 (J : ℕ) (c : Dev nD) : outs m a J main_v1 c = o1 m a c := by unfold outs; rw [dif_pos rfl]
theorem outs_v3 (J : ℕ) (c : Dev nD) : outs m a J main_v3 c = o3 m a c := by
  unfold outs; rw [dif_neg (by decide), dif_pos rfl]
theorem outs_v5 (J : ℕ) (c : Dev nD) : outs m a J main_v5 c = o5 m a c := by
  unfold outs; rw [dif_neg (by decide), dif_neg (by decide), dif_pos rfl]
theorem outs_v7 (J : ℕ) (c : Dev nD) : outs m a J main_v7 c = o7 m a c := by
  unfold outs; rw [dif_neg (by decide), dif_neg (by decide), dif_neg (by decide), dif_pos rfl]

/-- The conditional frame's valuations at this family are the ones named above. -/
theorem V2_eq (c : Dev nD) : V2 m (outs m a) c = W2 m a c := by
  show Function.update (V1 m c) main_v1 (outs m a 2 main_v1 c) = Function.update (V1 m c) main_v1 (o1 m a c)
  rw [outs_v1]
theorem V3_eq (c : Dev nD) : V3 m (outs m a) c = W3 m a c := by
  show StableHlo.after hostOps1 (V2 m (outs m a) c) = StableHlo.after hostOps1 (W2 m a c)
  rw [V2_eq]
theorem V4_eq (c : Dev nD) : V4 m (outs m a) c = W4 m a c := by
  show Function.update (V3 m (outs m a) c) main_v3 (outs m a 4 main_v3 c) = Function.update (W3 m a c) main_v3 (o3 m a c)
  rw [outs_v3, V3_eq]
theorem V5_eq (c : Dev nD) : V5 m (outs m a) c = W5 m a c := by
  show StableHlo.after hostOps2 (V4 m (outs m a) c) = StableHlo.after hostOps2 (W4 m a c)
  rw [V4_eq]
theorem V6_eq (c : Dev nD) : V6 m (outs m a) c = W6 m a c := by
  show Function.update (V5 m (outs m a) c) main_v5 (outs m a 6 main_v5 c) = Function.update (W5 m a c) main_v5 (o5 m a c)
  rw [outs_v5, V5_eq]
theorem V7_eq (c : Dev nD) : V7 m (outs m a) c = W7 m a c := by
  show StableHlo.after hostOps3 (V6 m (outs m a) c) = StableHlo.after hostOps3 (W6 m a c)
  rw [V6_eq]
theorem V8_eq (c : Dev nD) : V8 m (outs m a) c = W8 m a c := by
  show Function.update (V7 m (outs m a) c) main_v7 (outs m a 8 main_v7 c) = Function.update (W7 m a c) main_v7 (o7 m a c)
  rw [outs_v7, V7_eq]

/-! ## The proof data family -/

/-- Every pipeline's proof data, each at its region's entry valuation: a literal match on the pipeline. -/
def pdats : (p : Fin 4) → (c : Dev nD) → Dat τ (Elt F) Unit ℕ (UR sig nD τ) ℕ (Pipeline.pin (pcfgs (F := F)) a p) c
  | ⟨0, _⟩ => fun c => dat0 (a0 a) (rd (W1 m)) c
  | ⟨1, _⟩ => fun c => dat1 (rd (W3 m a)) c
  | ⟨2, _⟩ => fun c => dat2 (a2 a) (rd (W5 m a)) c
  | ⟨3, _⟩ => fun c => dat3 (rd (W7 m a)) c

/-- No core owes another anything: no level is assigned. -/
abbrev L : GSem nD τ sig → Finset Unit := fun _ => ∅
abbrev lv : GSem nD τ sig → Unit → ℕ := fun _ _ => 0

/-! ## What each region's arrays hold when it is left -/

theorem hF0 (c : Dev nD) (w : Fin (cfg0 (a0 a)).W) :
    (dat0 (a0 a) (rd (W1 m)) c).arrAt w (cfg0 (a0 a)).N = W2 m a c (arrRef spec0 w) := by
  match w with
  | ⟨0, _⟩ => exact ((dat0 (a0 a) (rd (W1 m)) c).arrAt_in 0 rfl _).trans ((A_eq0 (a0 a) (rd (W1 m)) c 0).trans
      (Function.update_of_ne (StableHlo.devRef_ne_of_ne v0_ne_v1) _ _).symm)
  | ⟨1, _⟩ => exact ((dat0 (a0 a) (rd (W1 m)) c).arrAt_in 1 rfl _).trans ((A_eq0 (a0 a) (rd (W1 m)) c 1).trans
      (Function.update_of_ne (StableHlo.devRef_ne_of_ne v0_ne_v1) _ _).symm)
  | ⟨2, _⟩ => exact (show o1 m a c = Function.update (W1 m c) (Proc.devRef .tc main_v1) (o1 m a c) (Proc.devRef .tc main_v1) from
      (Function.update_self (Proc.devRef .tc main_v1 : DevRef τ sig) (o1 m a c) (W1 m c)).symm)
theorem hF1 (c : Dev nD) (w : Fin cfg1.W) :
    (dat1 (rd (W3 m a)) c).arrAt w cfg1.N = W4 m a c (arrRef spec1 w) := by
  match w with
  | ⟨0, _⟩ => exact ((dat1 (rd (W3 m a)) c).arrAt_in 0 rfl _).trans ((A_eq1 (rd (W3 m a)) c 0).trans
      (Function.update_of_ne (StableHlo.devRef_ne_of_ne v2_ne_v3) _ _).symm)
  | ⟨1, _⟩ => exact ((dat1 (rd (W3 m a)) c).arrAt_in 1 rfl _).trans ((A_eq1 (rd (W3 m a)) c 1).trans
      (Function.update_of_ne (StableHlo.devRef_ne_of_ne v2_ne_v3) _ _).symm)
  | ⟨2, _⟩ => exact (show o3 m a c = Function.update (W3 m a c) (Proc.devRef .tc main_v3) (o3 m a c) (Proc.devRef .tc main_v3) from
      (Function.update_self (Proc.devRef .tc main_v3 : DevRef τ sig) (o3 m a c) (W3 m a c)).symm)
theorem hF2 (c : Dev nD) (w : Fin (cfg2 (a2 a)).W) :
    (dat2 (a2 a) (rd (W5 m a)) c).arrAt w (cfg2 (a2 a)).N = W6 m a c (arrRef spec2 w) := by
  match w with
  | ⟨0, _⟩ => exact ((dat2 (a2 a) (rd (W5 m a)) c).arrAt_in 0 rfl _).trans ((A_eq2 (a2 a) (rd (W5 m a)) c 0).trans
      (Function.update_of_ne (StableHlo.devRef_ne_of_ne v4_ne_v5) _ _).symm)
  | ⟨1, _⟩ => exact ((dat2 (a2 a) (rd (W5 m a)) c).arrAt_in 1 rfl _).trans ((A_eq2 (a2 a) (rd (W5 m a)) c 1).trans
      (Function.update_of_ne (StableHlo.devRef_ne_of_ne v4_ne_v5) _ _).symm)
  | ⟨2, _⟩ => exact (show o5 m a c = Function.update (W5 m a c) (Proc.devRef .tc main_v5) (o5 m a c) (Proc.devRef .tc main_v5) from
      (Function.update_self (Proc.devRef .tc main_v5 : DevRef τ sig) (o5 m a c) (W5 m a c)).symm)
theorem hF3 (c : Dev nD) (w : Fin cfg3.W) :
    (dat3 (rd (W7 m a)) c).arrAt w cfg3.N = W8 m a c (arrRef spec3 w) := by
  match w with
  | ⟨0, _⟩ => exact ((dat3 (rd (W7 m a)) c).arrAt_in 0 rfl _).trans ((A_eq3 (rd (W7 m a)) c 0).trans
      (Function.update_of_ne (StableHlo.devRef_ne_of_ne v6_ne_v7) _ _).symm)
  | ⟨1, _⟩ => exact ((dat3 (rd (W7 m a)) c).arrAt_in 1 rfl _).trans ((A_eq3 (rd (W7 m a)) c 1).trans
      (Function.update_of_ne (StableHlo.devRef_ne_of_ne v6_ne_v7) _ _).symm)
  | ⟨2, _⟩ => exact (show o7 m a c = Function.update (W7 m a c) (Proc.devRef .tc main_v7) (o7 m a c) (Proc.devRef .tc main_v7) from
      (Function.update_self (Proc.devRef .tc main_v7 : DevRef τ sig) (o7 m a c) (W7 m a c)).symm)

/-- A buffer that is no array of the region is left as it was found. -/
theorem hrest0 (c : Dev nD) (b : Ref sig .tc) (hb : b ∉ Finset.univ.image (arrRef spec0)) : W2 m a c b = W1 m c b :=
  Function.update_of_ne (StableHlo.devRef_ne_of_ne fun e => hb (Finset.mem_image.mpr ⟨2, Finset.mem_univ _, e.symm⟩)) _ _
theorem hrest1 (c : Dev nD) (b : Ref sig .tc) (hb : b ∉ Finset.univ.image (arrRef spec1)) : W4 m a c b = W3 m a c b :=
  Function.update_of_ne (StableHlo.devRef_ne_of_ne fun e => hb (Finset.mem_image.mpr ⟨2, Finset.mem_univ _, e.symm⟩)) _ _
theorem hrest2 (c : Dev nD) (b : Ref sig .tc) (hb : b ∉ Finset.univ.image (arrRef spec2)) : W6 m a c b = W5 m a c b :=
  Function.update_of_ne (StableHlo.devRef_ne_of_ne fun e => hb (Finset.mem_image.mpr ⟨2, Finset.mem_univ _, e.symm⟩)) _ _
theorem hrest3 (c : Dev nD) (b : Ref sig .tc) (hb : b ∉ Finset.univ.image (arrRef spec3)) : W8 m a c b = W7 m a c b :=
  Function.update_of_ne (StableHlo.devRef_ne_of_ne fun e => hb (Finset.mem_image.mpr ⟨2, Finset.mem_univ _, e.symm⟩)) _ _

/-! ## The regions' records -/

variable (ha0 : ∀ (c : Dev nD) (k : Fin (pcfgs (F := F) 0).pre.K), (fun b : Ref sig .tc => W1 m c b) ((pcfgs (F := F) 0).pre.ref k) = (a 0).1 k)
variable (ha2 : ∀ (c : Dev nD) (k : Fin (pcfgs (F := F) 2).pre.K), (fun b : Ref sig .tc => W5 m a c b) ((pcfgs (F := F) 2).pre.ref k) = (a 2).1 k)

set_option backward.isDefEq.respectTransparency.types false in
/-- Region 0 (rows of the input table gathered and subtracted), entered at `W1` and left at `W2`. -/
def reg0 : RegionSeg (pcfgs (F := F)) a (pdats m a) () defs₀ Variants.none L lv 0 :=
  Cert.LibRegionP.regionSegHeldPA (pcfgs (F := F)) a (pdats m a) defs₀ Variants.none L lv 0 winFacts₀0 preFacts0 block_pos0 stage_whole0
    (fun c => (body_obligation0 (a0 a) (rd (W1 m)) c).loose) (fun _ => rfl) (fun _ => rfl) (fun _ _ => rfl) (fun _ => rfl)
    (W1 m) (W2 m a) ha0
    (fun c => Cert.LibRegion.arrBufs_split_shared (cfg0 (a0 a)) c (dat0 (a0 a) (rd (W1 m)) c) (0 : Fin 3) (1 : Fin 3) ne01 rfl inj0 arr_whole0
      (share0 (a0 a) (rd (W1 m)) c) (fun b => W1 m c b) _ (fun w => A_eq0 (a0 a) (rd (W1 m)) c w))
    (fun c => Cert.LibRegion.arrBufs_join_shared (cfg0 (a0 a)) c (dat0 (a0 a) (rd (W1 m)) c) (0 : Fin 3) (1 : Fin 3) ne01 rfl inj0 arr_whole0
      (share0 (a0 a) (rd (W1 m)) c) (fun b => W2 m a c b) _ (hF0 m a c))
    (fun c b hb => hrest0 m a c b hb)

set_option backward.isDefEq.respectTransparency.types false in
/-- Region 1 (the L1 distances of the first table of differences), entered at `W3` and left at `W4`. -/
def reg1 : RegionSeg (pcfgs (F := F)) a (pdats m a) () defs₀ Variants.none L lv 1 :=
  Cert.LibRegion.regionSegHeldA (pcfgs (F := F)) a (pdats m a) defs₀ Variants.none L lv 1 winFacts₀1 block_pos1 stage_whole1 rfl
    (fun c => (body_obligation1 (rd (W3 m a)) c).loose) (fun _ => rfl) (fun _ => rfl) (fun _ _ => rfl) (fun _ => rfl)
    (W3 m a) (W4 m a)
    (fun c => Cert.LibRegion.arrBufs_split_shared cfg1 c (dat1 (rd (W3 m a)) c) (0 : Fin 3) (1 : Fin 3) ne01 rfl inj1 arr_whole1
      (share1 (rd (W3 m a)) c) (fun b => W3 m a c b) _ (fun w => A_eq1 (rd (W3 m a)) c w))
    (fun c => Cert.LibRegion.arrBufs_join_shared cfg1 c (dat1 (rd (W3 m a)) c) (0 : Fin 3) (1 : Fin 3) ne01 rfl inj1 arr_whole1
      (share1 (rd (W3 m a)) c) (fun b => W4 m a c b) _ (hF1 m a c))
    (fun c b hb => hrest1 m a c b hb)

set_option backward.isDefEq.respectTransparency.types false in
/-- Region 2 (rows of the first table of differences gathered and subtracted), entered at `W5` and left at `W6`. -/
def reg2 : RegionSeg (pcfgs (F := F)) a (pdats m a) () defs₀ Variants.none L lv 2 :=
  Cert.LibRegionP.regionSegHeldPA (pcfgs (F := F)) a (pdats m a) defs₀ Variants.none L lv 2 winFacts₀2 preFacts2 block_pos2 stage_whole2
    (fun c => (body_obligation2 (a2 a) (rd (W5 m a)) c).loose) (fun _ => rfl) (fun _ => rfl) (fun _ _ => rfl) (fun _ => rfl)
    (W5 m a) (W6 m a) ha2
    (fun c => Cert.LibRegion.arrBufs_split_shared (cfg2 (a2 a)) c (dat2 (a2 a) (rd (W5 m a)) c) (0 : Fin 3) (1 : Fin 3) ne01 rfl inj2 arr_whole2
      (share2 (a2 a) (rd (W5 m a)) c) (fun b => W5 m a c b) _ (fun w => A_eq2 (a2 a) (rd (W5 m a)) c w))
    (fun c => Cert.LibRegion.arrBufs_join_shared (cfg2 (a2 a)) c (dat2 (a2 a) (rd (W5 m a)) c) (0 : Fin 3) (1 : Fin 3) ne01 rfl inj2 arr_whole2
      (share2 (a2 a) (rd (W5 m a)) c) (fun b => W6 m a c b) _ (hF2 m a c))
    (fun c b hb => hrest2 m a c b hb)

set_option backward.isDefEq.respectTransparency.types false in
/-- Region 3 (the L1 distances of the second table of differences), entered at `W7` and left at `W8`. -/
def reg3 : RegionSeg (pcfgs (F := F)) a (pdats m a) () defs₀ Variants.none L lv 3 :=
  Cert.LibRegion.regionSegHeldA (pcfgs (F := F)) a (pdats m a) defs₀ Variants.none L lv 3 winFacts₀3 block_pos3 stage_whole3 rfl
    (fun c => (body_obligation3 (rd (W7 m a)) c).loose) (fun _ => rfl) (fun _ => rfl) (fun _ _ => rfl) (fun _ => rfl)
    (W7 m a) (W8 m a)
    (fun c => Cert.LibRegion.arrBufs_split_shared cfg3 c (dat3 (rd (W7 m a)) c) (0 : Fin 3) (1 : Fin 3) ne01 rfl inj3 arr_whole3
      (share3 (rd (W7 m a)) c) (fun b => W7 m a c b) _ (fun w => A_eq3 (rd (W7 m a)) c w))
    (fun c => Cert.LibRegion.arrBufs_join_shared cfg3 c (dat3 (rd (W7 m a)) c) (0 : Fin 3) (1 : Fin 3) ne01 rfl inj3 arr_whole3
      (share3 (rd (W7 m a)) c) (fun b => W8 m a c b) _ (hF3 m a c))
    (fun c b hb => hrest3 m a c b hb)

end Cert.Kernel.Hand

end
-- ==== Proof.K_Frame.lean ====
import proofs.«412525_j6176162972381_4_alg».proof.Proof.K_Regions
import proofs.«412525_j6176162972381_4_alg».proof.Proof.K_Launch

/-!
# The program's run from the launch memory

The two row-difference regions read their row numbers from tables that are arguments of the program, so the tables'
contents are the launch memory's; given that those contents pass the regions' side condition (every named row is a
row of the gathered table), the program runs to the end, leaves every argument as launched, and leaves in its two
result buffers what the last and the second region's pipelines wrote back.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf arrRef RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two tables of region 0 and of region 2 as the launch memory holds them (the mesh has one core). -/
abbrev tbl0 : pre0.Contents (Elt F) := fun k => m (((0 : Dev nD) : Thread nD τ).loc (pre0.ref k))
abbrev tbl2 : pre2.Contents (Elt F) := fun k => m (((0 : Dev nD) : Thread nD τ).loc (pre2.ref k))

variable (hok0 : ok0 (F := F) (tbl0 m)) (hok2 : ok2 (F := F) (tbl2 m))

/-- The admitted contents of every pipeline's tables: the launch memory's for the two row-difference regions, none
    for the two distance regions. -/
def adm : (p : Fin 4) → (pcfgs (F := F) p).Adm
  | ⟨0, _⟩ => ⟨tbl0 m, hok0⟩
  | ⟨1, _⟩ => cfg1.toPCfg_adm
  | ⟨2, _⟩ => ⟨tbl2 m, hok2⟩
  | ⟨3, _⟩ => cfg3.toPCfg_adm

/-- When region 0 is entered its tables hold the admitted contents: the first host stretch writes neither. -/
theorem ha0 (c : Dev nD) (k : Fin (pcfgs (F := F) 0).pre.K) :
    (fun b : Ref sig .tc => W1 m c b) ((pcfgs (F := F) 0).pre.ref k) = (adm m hok0 hok2 0).1 k := by
  obtain rfl : c = 0 := Subsingleton.elim _ _
  match k with
  | ⟨0, _⟩ => exact (V1_of m 0 main_arg1 (by decide)).trans rfl
  | ⟨1, _⟩ => exact (V1_of m 0 main_arg2 (by decide)).trans rfl

/-- When region 2 is entered its tables hold the admitted contents: no item before it writes either. -/
theorem ha2 (c : Dev nD) (k : Fin (pcfgs (F := F) 2).pre.K) :
    (fun b : Ref sig .tc => W5 m (adm m hok0 hok2) c b) ((pcfgs (F := F) 2).pre.ref k) = (adm m hok0 hok2 2).1 k := by
  obtain rfl : c = 0 := Subsingleton.elim _ _
  have e := V5_eq m (adm m hok0 hok2) 0
  match k with
  | ⟨0, _⟩ =>
    exact (congrFun e.symm _).trans <| (V5_of m (outs m (adm m hok0 hok2)) 0 main_arg3 (by decide)).trans <| (V4_of m _ 0 main_arg3 (by decide)).trans <|
      (V3_of m _ 0 main_arg3 (by decide)).trans <| (V2_of m _ 0 main_arg3 (by decide)).trans <| (V1_of m 0 main_arg3 (by decide)).trans rfl
  | ⟨1, _⟩ =>
    exact (congrFun e.symm _).trans <| (V5_of m (outs m (adm m hok0 hok2)) 0 main_arg4 (by decide)).trans <| (V4_of m _ 0 main_arg4 (by decide)).trans <|
      (V3_of m _ 0 main_arg4 (by decide)).trans <| (V2_of m _ 0 main_arg4 (by decide)).trans <| (V1_of m 0 main_arg4 (by decide)).trans rfl

/-- The last valuation at the two result buffers: what regions 3 and 1 wrote back. -/
theorem V8_v7 (a : (p : Fin 4) → (pcfgs (F := F) p).Adm) (c : Dev nD) : V8 m (outs m a) c main_v7 = o7 m a c := by
  rw [V8_eq]
  exact Function.update_self (Proc.devRef .tc main_v7 : DevRef τ sig) (o7 m a c) (W7 m a c)
theorem V8_v3 (a : (p : Fin 4) → (pcfgs (F := F) p).Adm) (c : Dev nD) : V8 m (outs m a) c main_v3 = o3 m a c :=
  (V8_of m (outs m a) c main_v3 (by decide)).trans <| (V7_of m _ c main_v3 (by decide)).trans <| (V6_of m _ c main_v3 (by decide)).trans <|
    (V5_of m _ c main_v3 (by decide)).trans <| by
      rw [V4_eq]
      exact Function.update_self (Proc.devRef .tc main_v3 : DevRef τ sig) (o3 m a c) (W3 m a c)

set_option backward.isDefEq.respectTransparency.types false in
/-- THE RUN: every weakly fair execution terminates, every argument ends as launched, and the two result buffers end
    at what the regions wrote back. -/
theorem run_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v7) = o7 m (adm m hok0 hok2) c
      ∧ r.2.mem ((c.tc : Thread nD τ).loc main_v3) = o3 m (adm m hok0 hok2) c) := by
  refine (θ_run defs _ _).mono (fun r h c => ⟨(h c).1, (h c).2.1, (h c).2.2.1, (h c).2.2.2.1, (h c).2.2.2.2.1,
      (h c).2.2.2.2.2.1.trans (V8_v7 m _ c), (h c).2.2.2.2.2.2.trans (V8_v3 m _ c)⟩)
    (run_cond m (Ix := Unit) (U := UR sig nD τ) (Lvl := ℕ) emb₁ () Variants.none L lv (fun _ _ => rfl) ρ (outs m (adm m hok0 hok2)) (adm m hok0 hok2)
      (pdats m (adm m hok0 hok2)) (O₀ := 0) (G := fun _ => iprop(emp))
      (u₀ := initOf (Pipeline.cells (Pipeline.pin (pcfgs (F := F)) (adm m hok0 hok2)) (cellOf_inj (adm m hok0 hok2)))
        (Pipeline.launchToks (Pipeline.pin (pcfgs (F := F)) (adm m hok0 hok2)) (cellOf_inj (adm m hok0 hok2))))
      (hu₀ := ?hu)
      (E := fun _ c => Cert.LibRegion.R c) (hE0 := ?hE0) (hE4 := fun c => by iintro ⟨-, H⟩; iexact H)
      (R0 := reg0 m (adm m hok0 hok2) (ha0 m hok0 hok2)) (hpre0 := fun c => .rfl) (hpost0 := fun c => by rw [V2_eq]; exact .rfl)
      (R1 := reg1 m (adm m hok0 hok2)) (hpre1 := fun c => by rw [V3_eq]; exact .rfl) (hpost1 := fun c => by rw [V4_eq]; exact .rfl)
      (R2 := reg2 m (adm m hok0 hok2) (ha2 m hok0 hok2)) (hpre2 := fun c => by rw [V5_eq]; exact .rfl) (hpost2 := fun c => by rw [V6_eq]; exact .rfl)
      (R3 := reg3 m (adm m hok0 hok2)) (hpre3 := fun c => by rw [V7_eq]; exact .rfl) (hpost3 := fun c => by rw [V8_eq]; exact .rfl))
  case hu =>
    iintro Hu; imodintro
    isplitl [Hu]
    · iapply (show (ownU (initOf (Pipeline.cells (Pipeline.pin (pcfgs (F := F)) (adm m hok0 hok2)) (cellOf_inj (adm m hok0 hok2)))
            (Pipeline.launchToks (Pipeline.pin (pcfgs (F := F)) (adm m hok0 hok2)) (cellOf_inj (adm m hok0 hok2)))) : sProp 𝕄)
          ⊢ BI.own (emb₁ (initOf (Pipeline.cells (Pipeline.pin (pcfgs (F := F)) (adm m hok0 hok2)) (cellOf_inj (adm m hok0 hok2)))
            (Pipeline.launchToks (Pipeline.pin (pcfgs (F := F)) (adm m hok0 hok2)) (cellOf_inj (adm m hok0 hok2))))) from .rfl)
      iexact Hu
    iapply (show (BI.emp : sProp 𝕄) ⊢ bigSep Finset.univ (fun _ : Dev nD => (BI.emp : sProp 𝕄)) from by rw [BI.bigSep_emp_const])
    iempintro
  case hE0 =>
    refine Pipeline.initEach L lv fun c => ?_
    iintro ⟨⟨-, HO, -, Hp, -⟩, -⟩
    imodintro
    isplitl [Hp]
    · iexists _; iexact Hp
    iexists ∅; iexact HO

include hok0 hok2 in
/-- THE FRAME: every weakly fair execution terminates and every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1, (h c).2.1, (h c).2.2.1, (h c).2.2.2.1, (h c).2.2.2.2.1⟩) (run_main m ρ hok0 hok2)

end Cert.Kernel.Hand

end
-- ==== Proof.K_PreDecode.lean ====
/-
  Two decodings, at every float instance.

  PART 1 (Cert.PreDecode). The precondition is the conjunction of five all-reductions; it being 1 says that each
  reduction is 1, hence that every element of each reduced mask is 1. For an index table the mask at r is
  (0 ≤ w signed) and (w < N signed) of the word w = table[r]; a 32-bit word in [0, N) signed, N below 2^31, has
  unsigned value below N.

  PART 2 (Cert.Kernel.Hand). A word read at the unit rectangle [i] of a rank-1 table is the table's entry at i;
  so each gather window's block index at grid point i is (table[i]).toNat, and a block index below the number of
  blocks puts the [1,2,128] block inside its array. An f32 transfer is word-exact because f32 is 32 bits wide.
-/
import proofs.«412525_j6176162972381_4_alg».proof.Proof.Gen.Kernel.Launch
import Idealize.ShloMosaic.Lib.ReduceAll
import Idealize.ShloMosaic.Lib.StableHlo.Predicate
import Idealize.ShloMosaic.Lib.ValueIdx

noncomputable section

namespace Cert.Kernel.Hand

open Idealize.ShloMosaic Idealize.ShloMosaic.ValueIdx Idealize.SL.Sem
open Cert.Kernel Cert.Kernel.Facts₀

variable {F : FTy → Type} [FloatOps F] [Facts₀]

/-- A number below 1024, as a 32-bit word cast to an index, has that number as its value. -/
theorem coord_toNat (n : Nat) (hn : n < 1024) : (Scalar.indexCast (BitVec.ofNat 32 n)).toNat = n := by
  show (BitVec.ofNat 32 n).toNat = n
  rw [BitVec.toNat_ofNat]
  omega

/-- The unit rectangle at offset v of a [1024] table places its one index at v. -/
theorem unit_emb (v : Nat) (r : Fin 1024) (hv : v = r.val) (inb : ∀ a, (![v] : Fin 1 → Nat) a + S1.size a ≤ S1024.size a)
    (h1 : 0 < (Rect.unit (s := S1024) ![v] S1.size inb).shape.numel) :
    (Rect.unit (s := S1024) ![v] S1.size inb).emb (Shape.Idx.first h1) = ix1 r := by
  funext a
  match a with
  | ⟨0, _⟩ =>
    apply Fin.ext
    show v + 1 * 0 = r.val
    omega

/-- The word each gather window's index map reads at grid point i is the table's entry at i (first gather). -/
theorem tbl0_word (pf : pre0.Contents (Elt F)) (i : grid0.Coords) :
    pf.at 0 (Rect.unit (s := S1024) ![(Scalar.indexCast (BitVec.ofNat 32 (i 0).val)).toNat] S1.size (k0_off1_inb i)) numel1_S1
        = (pf 0 : S1024.Idx → BitVec 32) (ix1 (i 0))
    ∧ pf.at 1 (Rect.unit (s := S1024) ![(Scalar.indexCast (BitVec.ofNat 32 (i 0).val)).toNat] S1.size (k0_off1_inb i)) numel1_S1
        = (pf 1 : S1024.Idx → BitVec 32) (ix1 (i 0)) := by
  constructor
  · show (pf 0 : S1024.Idx → BitVec 32) _ = _
    exact congrArg _ (unit_emb _ (i 0) (coord_toNat _ (i 0).isLt) _ _)
  · show (pf 1 : S1024.Idx → BitVec 32) _ = _
    exact congrArg _ (unit_emb _ (i 0) (coord_toNat _ (i 0).isLt) _ _)

/-- The same for the second gather. -/
theorem tbl2_word (pf : pre2.Contents (Elt F)) (i : grid2.Coords) :
    pf.at 0 (Rect.unit (s := S1024) ![(Scalar.indexCast (BitVec.ofNat 32 (i 0).val)).toNat] S1.size (k2_off1_inb i)) numel1_S1
        = (pf 0 : S1024.Idx → BitVec 32) (ix1 (i 0))
    ∧ pf.at 1 (Rect.unit (s := S1024) ![(Scalar.indexCast (BitVec.ofNat 32 (i 0).val)).toNat] S1.size (k2_off1_inb i)) numel1_S1
        = (pf 1 : S1024.Idx → BitVec 32) (ix1 (i 0)) := by
  constructor
  · show (pf 0 : S1024.Idx → BitVec 32) _ = _
    exact congrArg _ (unit_emb _ (i 0) (coord_toNat _ (i 0).isLt) _ _)
  · show (pf 1 : S1024.Idx → BitVec 32) _ = _
    exact congrArg _ (unit_emb _ (i 0) (coord_toNat _ (i 0).isLt) _ _)

/-- The block index of each gather window at grid point i: (table[i], 0, 0) (first gather). -/
theorem win0_index (pf : pre0.Contents (Elt F)) (i : grid0.Coords) :
    cc0_transform_0 k0_off1_inb numel1_S1 pf i = ![((pf 0 : S1024.Idx → BitVec 32) (ix1 (i 0))).toNat, 0, 0]
    ∧ cc0_transform_1 k0_off1_inb numel1_S1 pf i = ![((pf 1 : S1024.Idx → BitVec 32) (ix1 (i 0))).toNat, 0, 0] := by
  constructor
  · unfold cc0_transform_0
    dsimp only
    rw [(tbl0_word pf i).1]
    rfl
  · unfold cc0_transform_1
    dsimp only
    rw [(tbl0_word pf i).2]
    rfl

/-- The same for the second gather. -/
theorem win2_index (pf : pre2.Contents (Elt F)) (i : grid2.Coords) :
    cc2_transform_0 k2_off1_inb numel1_S1 pf i = ![((pf 0 : S1024.Idx → BitVec 32) (ix1 (i 0))).toNat, 0, 0]
    ∧ cc2_transform_1 k2_off1_inb numel1_S1 pf i = ![((pf 1 : S1024.Idx → BitVec 32) (ix1 (i 0))).toNat, 0, 0] := by
  constructor
  · unfold cc2_transform_0
    dsimp only
    rw [(tbl2_word pf i).1]
    rfl
  · unfold cc2_transform_1
    dsimp only
    rw [(tbl2_word pf i).2]
    rfl

/-- Block (n, 0, 0) of [1,2,128] blocks lies inside an [N,2,128] array when n < N. -/
theorem blk_inb (n N : Nat) (hn : n < N) :
    ∀ a, ((![n, 0, 0] : Fin 3 → Nat) a + 1) * S1x2x128.size a ≤ (⟨3, ![N, 2, 128]⟩ : Shape).size a := by
  intro a
  fin_cases a <;> simp <;> omega

/-- Tables with entries below 131072 satisfy the first gather's side condition. -/
theorem ok0_of (pf : pre0.Contents (Elt F))
    (h1 : ∀ r : Fin 1024, ((pf 0 : S1024.Idx → BitVec 32) (ix1 r)).toNat < 131072)
    (h2 : ∀ r : Fin 1024, ((pf 1 : S1024.Idx → BitVec 32) (ix1 r)).toNat < 131072) : ok0 pf := by
  unfold ok0
  refine ⟨fun i => ⟨?_, Or.inl rfl⟩, fun i => ⟨?_, Or.inl rfl⟩⟩
  · rw [(win0_index pf i).1]; exact blk_inb _ _ (h1 (i 0))
  · rw [(win0_index pf i).2]; exact blk_inb _ _ (h2 (i 0))

/-- Tables with entries below 1024 satisfy the second gather's side condition. -/
theorem ok2_of (pf : pre2.Contents (Elt F))
    (h3 : ∀ r : Fin 1024, ((pf 0 : S1024.Idx → BitVec 32) (ix1 r)).toNat < 1024)
    (h4 : ∀ r : Fin 1024, ((pf 1 : S1024.Idx → BitVec 32) (ix1 r)).toNat < 1024) : ok2 pf := by
  unfold ok2
  refine ⟨fun i => ⟨?_, Or.inl rfl⟩, fun i => ⟨?_, Or.inl rfl⟩⟩
  · rw [(win2_index pf i).1]; exact blk_inb _ _ (h3 (i 0))
  · rw [(win2_index pf i).2]; exact blk_inb _ _ (h4 (i 0))

end Cert.Kernel.Hand

end
-- ==== Proof.KI_BodyG.lean ====
/- The two gather-difference kernel bodies on whole staging blocks: each reads the whole [1,2,128]
   blocks of its two vector inputs, subtracts them, reads the output block (the value is unused) and
   stores the difference over the whole output block. Stated at any float interpretation `F`; the
   program enters only through the names of its printed functions, their skeletons and payloads. -/
import proofs.«412525_j6176162972381_4_alg».proof.Proof.Gen.KernelIdeal.Launch
import proofs.«412525_j6176162972381_4_alg».proof.Proof.Gen.KernelIdeal.Skeleton
import proofs.«412525_j6176162972381_4_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The bodies' one access -/

/-- The whole [1,2,128] block as a rectangle: origin (0,0,0), extents the block's own. Both loads
    and the store of either body go through it. -/
abbrev rG : Rect S1x2x128 := Rect.unit (s := S1x2x128) ![0, 0, 0] S1x2x128.size inb_S1x2x128_S1x2x128_0_0_0

/-! ## What a body leaves in the output block -/

/-- The output block after the first body, from the two input blocks `x0`, `x1`: its one store,
    of the payload (the difference of the two loaded blocks), over the whole block. -/
def outG0 (x0 x1 : Vec F S1x2x128 .f32) : Vec F S1x2x128 .f32 :=
  View.canon [⟨rG, k0_pay1 (View.ld x0 rG) (View.ld x1 rG)⟩]

/-- The same for the second body. -/
def outG2 (x0 x1 : Vec F S1x2x128 .f32) : Vec F S1x2x128 .f32 :=
  View.canon [⟨rG, k2_pay1 (View.ld x0 rG) (View.ld x1 rG)⟩]

/-- The one stored rectangle is the whole block, so every index of the block lies in it. -/
theorem coverG (p0 : Vec F S1x2x128 .f32) (y : S1x2x128.Idx) :
    ∃ pc ∈ ([⟨rG, p0⟩] : List (View.Piece (Elt F) S1x2x128 .f32)), y ∈ pc.1.set :=
  View.cover_of_tiled [⟨rG, p0⟩] S1x2x128.size (by rfl) y

/-! ## The bodies' triples -/

set_option maxHeartbeats 1000000 in
/-- The first body on whole blocks, the inputs' holding `x0`, `x1` and the output's anything, runs
    to the continuation with the inputs' as they were and the output's holding `outG0 x0 x1`: the
    printed function is its skeleton; the two loads return the blocks' reads through `rG`, the third
    load's value is dropped, and the one store writes the payload over the whole block, which is
    the canon of that one piece because the piece covers the block. The two table arguments are
    never accessed, so nothing is asked of them. -/
theorem sound_kernelG0 (c : Dev nD) (E : Set ℕ) (i : grid0.Coords) (arg1 : Memref sig .tc .smem S1024 .i32) (harg1 : arg1.IsWhole) (arg2 : Memref sig .tc .smem S1024 .i32) (harg2 : arg2.IsWhole) (arg3 : Memref sig .tc .vmem S1x2x128 .f32) (harg3 : arg3.IsWhole) (arg4 : Memref sig .tc .vmem S1x2x128 .f32) (harg4 : arg4.IsWhole) (arg5 : Memref sig .tc .vmem S1x2x128 .f32) (harg5 : arg5.IsWhole)
    (x0 x1 : Vec F S1x2x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (outG0 x0 x1)) -∗ K ⟨⟩))
      ⊢ wp frame (wpE (defs₀ (F := F)) Variants.none c none) E (cc0__gather_diff_kernel i arg1 harg1 arg2 harg2 arg3 harg3 arg4 harg4 arg5 harg5) K := by
  simp only [cc0__gather_diff_kernel_eq_skeleton]; unfold cc0__gather_diff_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverG _)

set_option maxHeartbeats 1000000 in
/-- The second body: the same text as the first, so the same run, with its own payload name. -/
theorem sound_kernelG2 (c : Dev nD) (E : Set ℕ) (i : grid2.Coords) (arg1 : Memref sig .tc .smem S1024 .i32) (harg1 : arg1.IsWhole) (arg2 : Memref sig .tc .smem S1024 .i32) (harg2 : arg2.IsWhole) (arg3 : Memref sig .tc .vmem S1x2x128 .f32) (harg3 : arg3.IsWhole) (arg4 : Memref sig .tc .vmem S1x2x128 .f32) (harg4 : arg4.IsWhole) (arg5 : Memref sig .tc .vmem S1x2x128 .f32) (harg5 : arg5.IsWhole)
    (x0 x1 : Vec F S1x2x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (outG2 x0 x1)) -∗ K ⟨⟩))
      ⊢ wp frame (wpE (defs₀ (F := F)) Variants.none c none) E (cc2__gather_diff_kernel i arg1 harg1 arg2 harg2 arg3 harg3 arg4 harg4 arg5 harg5) K := by
  simp only [cc2__gather_diff_kernel_eq_skeleton]; unfold cc2__gather_diff_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverG _)

end Cert.KernelIdeal.Hand

/-! ## The output blocks over the reals -/

namespace Cert.KernelIdeal.Hand

open Idealize.ShloMosaic
open Cert.KernelIdeal.Gen

/-- The rectangle's origin is all zeros. -/
theorem zerosG : (![0, 0, 0] : Fin 3 → Nat) = fun _ => 0 := funext fun a => by fin_cases a <;> rfl

/-- Over the reals the first body leaves, at every index, the difference of the two input blocks
    there: the one whole-block store leaves its payload, a whole-block load reads the block, a
    shape cast to the same shape is the identity, and the subtraction is pointwise. -/
theorem outG0_apply (x0 x1 : Vec Ideal S1x2x128 .f32) (y : S1x2x128.Idx) : outG0 x0 x1 y = x0 y - x1 y := by
  unfold outG0
  rw [View.canon_unit_zero (S := S1x2x128) zerosG inb_S1x2x128_S1x2x128_0_0_0,
    View.ld_unit_zero (S := S1x2x128) zerosG inb_S1x2x128_S1x2x128_0_0_0,
    View.ld_unit_zero (S := S1x2x128) zerosG inb_S1x2x128_S1x2x128_0_0_0]
  unfold k0_pay1
  rw [shapeCast_self, shapeCast_self, ValueIdx.subf_apply]

/-- The same for the second body. -/
theorem outG2_apply (x0 x1 : Vec Ideal S1x2x128 .f32) (y : S1x2x128.Idx) : outG2 x0 x1 y = x0 y - x1 y := by
  unfold outG2
  rw [View.canon_unit_zero (S := S1x2x128) zerosG inb_S1x2x128_S1x2x128_0_0_0,
    View.ld_unit_zero (S := S1x2x128) zerosG inb_S1x2x128_S1x2x128_0_0_0,
    View.ld_unit_zero (S := S1x2x128) zerosG inb_S1x2x128_S1x2x128_0_0_0]
  unfold k2_pay1
  rw [shapeCast_self, shapeCast_self, ValueIdx.subf_apply]

end Cert.KernelIdeal.Hand

end
-- ==== Proof.KI_Dat0.lean ====
import proofs.«412525_j6176162972381_4_alg».proof.Proof.Gen.KernelIdeal.Launch
import proofs.«412525_j6176162972381_4_alg».proof.Proof.Gen.KernelIdeal.Skeleton
import proofs.«412525_j6176162972381_4_alg».proof.Proof.Gen.KernelIdeal.Points
import proofs.«412525_j6176162972381_4_alg».proof.Proof.KI_BodyG
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # Region 0: the proof data of the row-difference kernel's pipeline

The pipeline has two prefetched tables of 1024 row numbers. At point `t` window 0 stages the row the first table
names for `t`, window 1 the row the second table names, both out of ONE array of rows (each row a [2,128] block);
window 2 is row `t` of the result. After the body each input's buffer still holds its row and the output's holds the
body's value of the two rows. The tables are held whole throughout, beside the scratch-free invariant; the shared
array is held at the two halves of the full share. Everything here is stated at ANY admissible contents `a` of the
tables. -/

variable (a : (pcfg0 (F := F)).Adm)
variable (V : (c : Dev nD) → (b : Ref sig .tc) → Buf (Elt F) ((c : Thread nD τ).loc b))

/-- Window `w`'s block at point `t`, read off its array as the region finds it. -/
def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- The invariant of every point: the scoped buffers no window stages, the generator register, and the two tables
    held whole at their admitted contents. -/
abbrev ΦG0 (c : Dev nD) : sProp 𝕄 :=
  iprop(Pipeline.ΦA spec0 c ∗ Pipeline.prefHeld pre0 c (fun _ => fullShare) a.1)

/-- The proof data. -/
def dat0 (c : Dev nD) : Dat τ (Elt F) Unit ℕ (UR sig nD τ) ℕ (cfg0 a) c where
  A w := V c (Pipeline.arrRef spec0 w)
  after w t := match w with
    | ⟨0, _⟩ => iblk0 a V c 0 t
    | ⟨1, _⟩ => iblk0 a V c 1 t
    | ⟨2, _⟩ => outG0 (iblk0 a V c 0 t) (iblk0 a V c 1 t)
  Φ _ := ΦG0 a c
  q w := match w with
    | ⟨0, _⟩ => fullShare.left
    | ⟨1, _⟩ => fullShare.right
    | ⟨2, _⟩ => fullShare
  owed _ := 0

theorem A_eq0 (c : Dev nD) (w : Fin (cfg0 a).W) : (dat0 a V c).A w = V c (Pipeline.arrRef spec0 w) := by
  dsimp only [dat0]

theorem after0_0 (c : Dev nD) (t : Fin (cfg0 a).N) : (dat0 a V c).after 0 t = iblk0 a V c 0 t := by dsimp only [dat0]; rfl
theorem after0_1 (c : Dev nD) (t : Fin (cfg0 a).N) : (dat0 a V c).after 1 t = iblk0 a V c 1 t := by dsimp only [dat0]; rfl
theorem after0_2 (c : Dev nD) (t : Fin (cfg0 a).N) : (dat0 a V c).after 2 t = outG0 (iblk0 a V c 0 t) (iblk0 a V c 1 t) := by dsimp only [dat0]; rfl

/-- An input's staging buffer holds its block at every point, fetched there or not: unfetched, the block index has
    not moved (whatever the tables hold) and the body left the block in place. -/
theorem before0_0 (c : Dev nD) (t : Fin (cfg0 a).N) (d) : (dat0 a V c).before 0 t d = iblk0 a V c 0 t :=
  ((dat0 a V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin (cfg0 a).N) (d) : (dat0 a V c).before 1 t d = iblk0 a V c 1 t :=
  ((dat0 a V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The current staging memref of each window at point `t`. -/
abbrev st0_0 (t : Fin (cfg0 a).N) := ((cfg0 a).win 0).stage ((cfg0 a).slots t 0)
abbrev st0_1 (t : Fin (cfg0 a).N) := ((cfg0 a).win 1).stage ((cfg0 a).slots t 1)
abbrev st0_2 (t : Fin (cfg0 a).N) := ((cfg0 a).win 2).stage ((cfg0 a).slots t 2)

/-- The kernel body at point `t`, on what the pipeline calls it with. -/
abbrev bodyAt0 (t : Fin (cfg0 a).N) : Prog (TpuEff nD τ sig (Elt F) Λ₀ .tc) PUnit :=
  cc0__gather_diff_kernel (grid0.coords t) (Memref.whole main_arg1) (Memref.isWhole_whole _) (Memref.whole main_arg2) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))

/-- What the body is called with at point `t`, -/
def bodyPre0 (c : Dev nD) (t : Fin (cfg0 a).N) : sProp 𝕄 :=
  iprop((dat0 a V c).Φ t.castSucc ∗ (dat0 a V c).owesAt () t.castSucc
    ∗ (∃ d, owns (c : Thread nD τ) (st0_0 a t) fullShare ((dat0 a V c).before 0 t d))
    ∗ (∃ d, owns (c : Thread nD τ) (st0_1 a t) fullShare ((dat0 a V c).before 1 t d))
    ∗ (∃ d, owns (c : Thread nD τ) (st0_2 a t) fullShare ((dat0 a V c).before 2 t d)))

/-- and what it returns. -/
def bodyPost0 (c : Dev nD) (t : Fin (cfg0 a).N) : sProp 𝕄 :=
  iprop((dat0 a V c).Φ t.succ ∗ (dat0 a V c).owesAt () t.succ
    ∗ owns (c : Thread nD τ) (st0_0 a t) fullShare ((dat0 a V c).after 0 t)
    ∗ owns (c : Thread nD τ) (st0_1 a t) fullShare ((dat0 a V c).after 1 t)
    ∗ owns (c : Thread nD τ) (st0_2 a t) fullShare ((dat0 a V c).after 2 t))

/-- The body at any point: the inputs' buffers hold their rows, so the kernel's triple applies; the invariant (the
    tables among it) and what the core owes pass through unread. -/
theorem sound_body0 (c : Dev nD) (t : Fin (cfg0 a).N) :
    bodyPre0 a V c t ⊢ wp frame (wpE (defs₀ (F := F)) Variants.none c none) Set.univ (bodyAt0 a t) (fun _ => bodyPost0 a V c t) := by
  unfold bodyPre0 bodyPost0 bodyAt0
  simp only [before0_0, before0_1]
  rw [show (dat0 a V c).Φ t.succ = (dat0 a V c).Φ t.castSucc from rfl,
    show (dat0 a V c).owesAt () t.succ = (dat0 a V c).owesAt () t.castSucc from rfl,
    after0_0, after0_1, after0_2]
  iintro ⟨HΦ, Ho, ⟨%d0, H0⟩, ⟨%d1, H1⟩, ⟨%d2, H2⟩⟩
  iapply (sound_kernelG0 c Set.univ (grid0.coords t) _ _ _ _ _ _ _ _ _ _ (iblk0 a V c 0 t) (iblk0 a V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation0 (c : Dev nD) : BodyObligation (dat0 (F := F) a V c) (defs₀ (F := F)) Variants.none () Set.univ := fun t => by
  rw [bigSep_W0, bigSep_W0]
  exact sound_body0 a V c t

/-- The shares the arrays are held at. -/
theorem share0 (c : Dev nD) (w : Fin (cfg0 a).W) :
    (dat0 a V c).share w = if w = 0 then fullShare.left else if w = 1 then fullShare.right else fullShare := by
  match w with
  | ⟨0, _⟩ => rfl
  | ⟨1, _⟩ => rfl
  | ⟨2, _⟩ => rfl

end Cert.KernelIdeal.Hand

end
-- ==== Proof.KI_BodyC.lean ====
/-
  The body of the pairwise L1-distance kernel on whole staging buffers: what it reads, what the one
  store leaves in the output buffer, and the triple of the body (both launches of the kernel).
-/
import proofs.«412525_j6176162972381_4_alg».proof.Proof.Gen.KernelIdeal.Launch
import proofs.«412525_j6176162972381_4_alg».proof.Proof.Gen.KernelIdeal.Skeleton
import proofs.«412525_j6176162972381_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole [64,256] block of the first operand. -/
abbrev rA : Rect S64x256 := Rect.unit (s := S64x256) ![0, 0] S64x256.size inb_S64x256_S64x256_0_0
/-- The whole [128,256] block of the second operand. -/
abbrev rB : Rect S128x256 := Rect.unit (s := S128x256) ![0, 0] S128x256.size inb_S128x256_S128x256_0_0
/-- The whole [64,128] block of the result. -/
abbrev rO : Rect S64x128 := Rect.unit (s := S64x128) ![0, 0] S64x128.size inb_S64x128_S64x128_0_0

/-! ## What the body leaves in the output buffer -/

/-- The value the first launch's body stores, over the two blocks read: the accumulator after all
    eight 32-column chunks. `k1_pay4` is zero plus the chunks at columns 0, 32, 64, 96; `k1_pay5` and
    `k1_pay6` are the two operands' chunk at column 128; `k1_pay1` adds to the first the chunks at
    columns 128, 160, 192, 224 (each chunk: the sum over its 32 columns of |a − b|). -/
def valC1 (v0 : Vec F S64x256 .f32) (v2 : Vec F S128x256 .f32) : FVec F S64x128 .f32 :=
  k1_pay1 (k1_pay2 v0) (k1_pay3 v2) (k1_pay4 v0 v2) (k1_pay5 v0) (k1_pay6 v2)

/-- The same for the second launch. -/
def valC3 (v0 : Vec F S64x256 .f32) (v2 : Vec F S128x256 .f32) : FVec F S64x128 .f32 :=
  k3_pay1 (k3_pay2 v0) (k3_pay3 v2) (k3_pay4 v0 v2) (k3_pay5 v0) (k3_pay6 v2)

/-- The output buffer after the first launch's body, from the input blocks: its one whole store as a
    piece. -/
def outC1 (x0 : Vec F S64x256 .f32) (x1 : Vec F S128x256 .f32) : Vec F S64x128 .f32 :=
  View.canon [⟨rO, valC1 (View.ld x0 rA) (View.ld x1 rB)⟩]

/-- The output buffer after the second launch's body. -/
def outC3 (x0 : Vec F S64x256 .f32) (x1 : Vec F S128x256 .f32) : Vec F S64x128 .f32 :=
  View.canon [⟨rO, valC3 (View.ld x0 rA) (View.ld x1 rB)⟩]

/-- The one store is of the whole block, so it covers the buffer. -/
theorem coverC (p0 : Vec F S64x128 .f32) (y : S64x128.Idx) :
    ∃ pc ∈ ([⟨rO, p0⟩] : List (View.Piece (Elt F) S64x128 .f32)), y ∈ pc.1.set :=
  View.cover_of_tiled [⟨rO, p0⟩] S64x128.size (by rfl) y

/-! ## The body's triple -/

set_option maxHeartbeats 1000000 in
/-- The first launch's body on whole staging memrefs, the inputs at contents `x0`, `x1` and the output
    at anything, runs to the continuation holding the inputs as they were and the output at
    `outC1 x0 x1`: two whole loads, a dead load of the output, and one whole store of the payload. -/
theorem sound_kernelC1 (c : Dev nD) (E : Set ℕ) (i : grid1.Coords) (arg2 : Memref sig .tc .vmem S64x256 .f32) (harg2 : arg2.IsWhole) (arg3 : Memref sig .tc .vmem S128x256 .f32) (harg3 : arg3.IsWhole) (arg4 : Memref sig .tc .vmem S64x128 .f32) (harg4 : arg4.IsWhole)
    (x0 : Vec F S64x256 .f32) (x1 : Vec F S128x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outC1 x0 x1)) -∗ K ⟨⟩))
      ⊢ wp frame (wpE (defs₀ (F := F)) Variants.none c none) E (cc1__cdist_kernel i arg2 harg2 arg3 harg3 arg4 harg4) K := by
  simp only [cc1__cdist_kernel_eq_skeleton, k1_part1_eq_skeleton]; unfold cc1__cdist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverC _)

set_option maxHeartbeats 1000000 in
/-- The second launch's body: the same text, so the same triple, with `outC3`. -/
theorem sound_kernelC3 (c : Dev nD) (E : Set ℕ) (i : grid3.Coords) (arg2 : Memref sig .tc .vmem S64x256 .f32) (harg2 : arg2.IsWhole) (arg3 : Memref sig .tc .vmem S128x256 .f32) (harg3 : arg3.IsWhole) (arg4 : Memref sig .tc .vmem S64x128 .f32) (harg4 : arg4.IsWhole)
    (x0 : Vec F S64x256 .f32) (x1 : Vec F S128x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outC3 x0 x1)) -∗ K ⟨⟩))
      ⊢ wp frame (wpE (defs₀ (F := F)) Variants.none c none) E (cc3__cdist_kernel i arg2 harg2 arg3 harg3 arg4 harg4) K := by
  simp only [cc3__cdist_kernel_eq_skeleton, k3_part1_eq_skeleton]; unfold cc3__cdist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverC _)

end Cert.KernelIdeal.Hand

end
-- ==== Proof.KI_Dat1.lean ====
import proofs.«412525_j6176162972381_4_alg».proof.Proof.Gen.KernelIdeal.Launch
import proofs.«412525_j6176162972381_4_alg».proof.Proof.Gen.KernelIdeal.Skeleton
import proofs.«412525_j6176162972381_4_alg».proof.Proof.Gen.KernelIdeal.Points
import proofs.«412525_j6176162972381_4_alg».proof.Proof.KI_BodyC
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # Region 1: the proof data of the L1-distance kernel's pipeline

The pipeline's two input windows read ONE array (rows of a table of 1024 rows of 256 numbers): window 0 its block of
64 rows, window 1 its block of 128 rows; window 2 is the [64,128] block of the matrix of distances. After the body
each input's buffer still holds its block and the output's holds the body's value of the two blocks. The shared
array is held at the two halves of the full share. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: the arrays as the region finds them; after the body each input's buffer at its block, the output's
    at the body's value of the two blocks; the invariant the scratch-free one; nothing owed; the shared input array
    at the left and the right half of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outC1 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outC1 (iblk1 V c 0 t) (iblk1 V c 1 t) := by dsimp only [dat1]

/-- An input's staging buffer holds its block at every point, fetched there or not: unfetched, the block index has
    not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the kernel's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernelC1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation1 (c : Dev nD) : BodyObligation (dat1 (F := F) V c) (defs₀ (F := F)) Variants.none () Set.univ := fun t => by
  rw [bigSep_W1, bigSep_W1]
  exact sound_body1 V c t

/-- The shares the arrays are held at. -/
theorem share1 (c : Dev nD) (w : Fin cfg1.W) :
    (dat1 V c).share w = if w = 0 then fullShare.left else if w = 1 then fullShare.right else fullShare := by
  match w with
  | ⟨0, _⟩ => rfl
  | ⟨1, _⟩ => rfl
  | ⟨2, _⟩ => rfl

end Cert.KernelIdeal.Hand

end
-- ==== Proof.KI_Dat2.lean ====
import proofs.«412525_j6176162972381_4_alg».proof.Proof.Gen.KernelIdeal.Launch
import proofs.«412525_j6176162972381_4_alg».proof.Proof.Gen.KernelIdeal.Skeleton
import proofs.«412525_j6176162972381_4_alg».proof.Proof.Gen.KernelIdeal.Points
import proofs.«412525_j6176162972381_4_alg».proof.Proof.KI_BodyG
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # Region 2: the proof data of the row-difference kernel's pipeline

The pipeline has two prefetched tables of 1024 row numbers. At point `t` window 0 stages the row the first table
names for `t`, window 1 the row the second table names, both out of ONE array of rows (each row a [2,128] block);
window 2 is row `t` of the result. After the body each input's buffer still holds its row and the output's holds the
body's value of the two rows. The tables are held whole throughout, beside the scratch-free invariant; the shared
array is held at the two halves of the full share. Everything here is stated at ANY admissible contents `a` of the
tables. -/

variable (a : (pcfg2 (F := F)).Adm)
variable (V : (c : Dev nD) → (b : Ref sig .tc) → Buf (Elt F) ((c : Thread nD τ).loc b))

/-- Window `w`'s block at point `t`, read off its array as the region finds it. -/
def iblk2 (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (V c (Pipeline.arrRef spec2 w))

/-- The invariant of every point: the scoped buffers no window stages, the generator register, and the two tables
    held whole at their admitted contents. -/
abbrev ΦG2 (c : Dev nD) : sProp 𝕄 :=
  iprop(Pipeline.ΦA spec2 c ∗ Pipeline.prefHeld pre2 c (fun _ => fullShare) a.1)

/-- The proof data. -/
def dat2 (c : Dev nD) : Dat τ (Elt F) Unit ℕ (UR sig nD τ) ℕ (cfg2 a) c where
  A w := V c (Pipeline.arrRef spec2 w)
  after w t := match w with
    | ⟨0, _⟩ => iblk2 a V c 0 t
    | ⟨1, _⟩ => iblk2 a V c 1 t
    | ⟨2, _⟩ => outG2 (iblk2 a V c 0 t) (iblk2 a V c 1 t)
  Φ _ := ΦG2 a c
  q w := match w with
    | ⟨0, _⟩ => fullShare.left
    | ⟨1, _⟩ => fullShare.right
    | ⟨2, _⟩ => fullShare
  owed _ := 0

theorem A_eq2 (c : Dev nD) (w : Fin (cfg2 a).W) : (dat2 a V c).A w = V c (Pipeline.arrRef spec2 w) := by
  dsimp only [dat2]

theorem after2_0 (c : Dev nD) (t : Fin (cfg2 a).N) : (dat2 a V c).after 0 t = iblk2 a V c 0 t := by dsimp only [dat2]; rfl
theorem after2_1 (c : Dev nD) (t : Fin (cfg2 a).N) : (dat2 a V c).after 1 t = iblk2 a V c 1 t := by dsimp only [dat2]; rfl
theorem after2_2 (c : Dev nD) (t : Fin (cfg2 a).N) : (dat2 a V c).after 2 t = outG2 (iblk2 a V c 0 t) (iblk2 a V c 1 t) := by dsimp only [dat2]; rfl

/-- An input's staging buffer holds its block at every point, fetched there or not: unfetched, the block index has
    not moved (whatever the tables hold) and the body left the block in place. -/
theorem before2_0 (c : Dev nD) (t : Fin (cfg2 a).N) (d) : (dat2 a V c).before 0 t d = iblk2 a V c 0 t :=
  ((dat2 a V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin (cfg2 a).N) (d) : (dat2 a V c).before 1 t d = iblk2 a V c 1 t :=
  ((dat2 a V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- The current staging memref of each window at point `t`. -/
abbrev st2_0 (t : Fin (cfg2 a).N) := ((cfg2 a).win 0).stage ((cfg2 a).slots t 0)
abbrev st2_1 (t : Fin (cfg2 a).N) := ((cfg2 a).win 1).stage ((cfg2 a).slots t 1)
abbrev st2_2 (t : Fin (cfg2 a).N) := ((cfg2 a).win 2).stage ((cfg2 a).slots t 2)

/-- The kernel body at point `t`, on what the pipeline calls it with. -/
abbrev bodyAt2 (t : Fin (cfg2 a).N) : Prog (TpuEff nD τ sig (Elt F) Λ₀ .tc) PUnit :=
  cc2__gather_diff_kernel (grid2.coords t) (Memref.whole main_arg3) (Memref.isWhole_whole _) (Memref.whole main_arg4) (Memref.isWhole_whole _)
    (spec2_0.stage ((cfg2 a).slots t 0)) (hstage2_0 (((cfg2 a).slots t 0).cast nbuf2_0))
    (spec2_1.stage ((cfg2 a).slots t 1)) (hstage2_1 (((cfg2 a).slots t 1).cast nbuf2_1))
    (spec2_2.stage ((cfg2 a).slots t 2)) (hstage2_2 (((cfg2 a).slots t 2).cast nbuf2_2))

/-- What the body is called with at point `t`, -/
def bodyPre2 (c : Dev nD) (t : Fin (cfg2 a).N) : sProp 𝕄 :=
  iprop((dat2 a V c).Φ t.castSucc ∗ (dat2 a V c).owesAt () t.castSucc
    ∗ (∃ d, owns (c : Thread nD τ) (st2_0 a t) fullShare ((dat2 a V c).before 0 t d))
    ∗ (∃ d, owns (c : Thread nD τ) (st2_1 a t) fullShare ((dat2 a V c).before 1 t d))
    ∗ (∃ d, owns (c : Thread nD τ) (st2_2 a t) fullShare ((dat2 a V c).before 2 t d)))

/-- and what it returns. -/
def bodyPost2 (c : Dev nD) (t : Fin (cfg2 a).N) : sProp 𝕄 :=
  iprop((dat2 a V c).Φ t.succ ∗ (dat2 a V c).owesAt () t.succ
    ∗ owns (c : Thread nD τ) (st2_0 a t) fullShare ((dat2 a V c).after 0 t)
    ∗ owns (c : Thread nD τ) (st2_1 a t) fullShare ((dat2 a V c).after 1 t)
    ∗ owns (c : Thread nD τ) (st2_2 a t) fullShare ((dat2 a V c).after 2 t))

/-- The body at any point: the inputs' buffers hold their rows, so the kernel's triple applies; the invariant (the
    tables among it) and what the core owes pass through unread. -/
theorem sound_body2 (c : Dev nD) (t : Fin (cfg2 a).N) :
    bodyPre2 a V c t ⊢ wp frame (wpE (defs₀ (F := F)) Variants.none c none) Set.univ (bodyAt2 a t) (fun _ => bodyPost2 a V c t) := by
  unfold bodyPre2 bodyPost2 bodyAt2
  simp only [before2_0, before2_1]
  rw [show (dat2 a V c).Φ t.succ = (dat2 a V c).Φ t.castSucc from rfl,
    show (dat2 a V c).owesAt () t.succ = (dat2 a V c).owesAt () t.castSucc from rfl,
    after2_0, after2_1, after2_2]
  iintro ⟨HΦ, Ho, ⟨%d0, H0⟩, ⟨%d1, H1⟩, ⟨%d2, H2⟩⟩
  iapply (sound_kernelG2 c Set.univ (grid2.coords t) _ _ _ _ _ _ _ _ _ _ (iblk2 a V c 0 t) (iblk2 a V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation2 (c : Dev nD) : BodyObligation (dat2 (F := F) a V c) (defs₀ (F := F)) Variants.none () Set.univ := fun t => by
  rw [bigSep_W2, bigSep_W2]
  exact sound_body2 a V c t

/-- The shares the arrays are held at. -/
theorem share2 (c : Dev nD) (w : Fin (cfg2 a).W) :
    (dat2 a V c).share w = if w = 0 then fullShare.left else if w = 1 then fullShare.right else fullShare := by
  match w with
  | ⟨0, _⟩ => rfl
  | ⟨1, _⟩ => rfl
  | ⟨2, _⟩ => rfl

end Cert.KernelIdeal.Hand

end
-- ==== Proof.KI_Dat3.lean ====
import proofs.«412525_j6176162972381_4_alg».proof.Proof.Gen.KernelIdeal.Launch
import proofs.«412525_j6176162972381_4_alg».proof.Proof.Gen.KernelIdeal.Skeleton
import proofs.«412525_j6176162972381_4_alg».proof.Proof.Gen.KernelIdeal.Points
import proofs.«412525_j6176162972381_4_alg».proof.Proof.KI_BodyC
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # Region 3: the proof data of the L1-distance kernel's pipeline

The pipeline's two input windows read ONE array (rows of a table of 1024 rows of 256 numbers): window 0 its block of
64 rows, window 1 its block of 128 rows; window 2 is the [64,128] block of the matrix of distances. After the body
each input's buffer still holds its block and the output's holds the body's value of the two blocks. The shared
array is held at the two halves of the full share. -/

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The proof data: the arrays as the region finds them; after the body each input's buffer at its block, the output's
    at the body's value of the two blocks; the invariant the scratch-free one; nothing owed; the shared input array
    at the left and the right half of the full share. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => outC3 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = outC3 (iblk3 V c 0 t) (iblk3 V c 1 t) := by dsimp only [dat3]

/-- An input's staging buffer holds its block at every point, fetched there or not: unfetched, the block index has
    not moved and the body left the block in place. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the kernel's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernelC3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation3 (c : Dev nD) : BodyObligation (dat3 (F := F) V c) (defs₀ (F := F)) Variants.none () Set.univ := fun t => by
  rw [bigSep_W3, bigSep_W3]
  exact sound_body3 V c t

/-- The shares the arrays are held at. -/
theorem share3 (c : Dev nD) (w : Fin cfg3.W) :
    (dat3 V c).share w = if w = 0 then fullShare.left else if w = 1 then fullShare.right else fullShare := by
  match w with
  | ⟨0, _⟩ => rfl
  | ⟨1, _⟩ => rfl
  | ⟨2, _⟩ => rfl

end Cert.KernelIdeal.Hand

end
-- ==== Proof.KI_Regions.lean ====
import proofs.«412525_j6176162972381_4_alg».proof.Proof.KI_Dat0
import proofs.«412525_j6176162972381_4_alg».proof.Proof.KI_Dat1
import proofs.«412525_j6176162972381_4_alg».proof.Proof.KI_Dat2
import proofs.«412525_j6176162972381_4_alg».proof.Proof.KI_Dat3
import proofs.«412525_j6176162972381_4_alg».proof.Proof.Gen.KernelIdeal.Regions
import proofs.«412525_j6176162972381_4_alg».proof.Proof.LibRegion
import proofs.«412525_j6176162972381_4_alg».proof.Proof.LibRegionP

/-!
# The four kernel regions as segments of the program

Between two items of the program each core holds every unscoped buffer whole at a valuation. The valuations are
named here from the launch memory on: a host stretch applies its operations; a region overwrites its result buffer
with what its pipeline's write-backs leave (the proof data's final array). Each region's record is entered from
the valuation before it and left at the one after it. The row-difference regions also carry their two tables, which
must hold the admitted contents when the region is entered (`ha0`, `ha2`).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf arrRef RegionSeg)

variable {F : FTy → Type} [FloatOps F]

local notation "𝕄" => MT nD τ sig Unit (Elt F) ℕ (UR sig nD τ) ℕ

variable (m : (ℓ : Loc nD τ sig) → Buf (Elt F) ℓ) (a : (p : Fin 4) → (pcfgs (F := F) p).Adm)

/-- A valuation read at the TensorCore's references. -/
abbrev rd (W : Dev nD → Valuation τ sig (Elt F)) : (c : Dev nD) → (b : Ref sig .tc) → Buf (Elt F) ((c : Thread nD τ).loc b) :=
  fun c b => W c b

/-- The admitted contents of the first and of the second row-difference region's tables. -/
abbrev a0 : (pcfg0 (F := F)).Adm := a 0
abbrev a2 : (pcfg2 (F := F)).Adm := a 2

/-! ## Closed facts about the windows and the buffers, decided once -/

theorem ne01 : (0 : Fin 3) ≠ 1 := by decide
theorem inj0 : ∀ w w' : Fin 3, w ≠ 1 → w' ≠ 1 → arrRef spec0 w = arrRef spec0 w' → w = w' := by decide
theorem inj1 : ∀ w w' : Fin 3, w ≠ 1 → w' ≠ 1 → arrRef spec1 w = arrRef spec1 w' → w = w' := by decide
theorem inj2 : ∀ w w' : Fin 3, w ≠ 1 → w' ≠ 1 → arrRef spec2 w = arrRef spec2 w' → w = w' := by decide
theorem inj3 : ∀ w w' : Fin 3, w ≠ 1 → w' ≠ 1 → arrRef spec3 w = arrRef spec3 w' → w = w' := by decide
theorem v0_ne_v1 : (main_v0 : Ref sig .tc) ≠ main_v1 := by decide
theorem v2_ne_v3 : (main_v2 : Ref sig .tc) ≠ main_v3 := by decide
theorem v4_ne_v5 : (main_v4 : Ref sig .tc) ≠ main_v5 := by decide
theorem v6_ne_v7 : (main_v6 : Ref sig .tc) ≠ main_v7 := by decide

/-! ## The valuations between the items -/

/-- Before region 0: the launch memory after the first host stretch. -/
abbrev W1 : Dev nD → Valuation τ sig (Elt F) := fun c => V1 m c
/-- What region 0 leaves in its result buffer. -/
def o1 (c : Dev nD) : Buf (Elt F) ((c : Thread nD τ).loc main_v1) := (dat0 (a0 a) (rd (W1 m)) c).arrAt 2 (cfg0 (a0 a)).N
abbrev W2 : Dev nD → Valuation τ sig (Elt F) := fun c => Function.update (W1 m c) main_v1 (o1 m a c)
abbrev W3 : Dev nD → Valuation τ sig (Elt F) := fun c => StableHlo.after hostOps1 (W2 m a c)
/-- What region 1 leaves in its result buffer. -/
def o3 (c : Dev nD) : Buf (Elt F) ((c : Thread nD τ).loc main_v3) := (dat1 (rd (W3 m a)) c).arrAt 2 cfg1.N
abbrev W4 : Dev nD → Valuation τ sig (Elt F) := fun c => Function.update (W3 m a c) main_v3 (o3 m a c)
abbrev W5 : Dev nD → Valuation τ sig (Elt F) := fun c => StableHlo.after hostOps2 (W4 m a c)
/-- What region 2 leaves in its result buffer. -/
def o5 (c : Dev nD) : Buf (Elt F) ((c : Thread nD τ).loc main_v5) := (dat2 (a2 a) (rd (W5 m a)) c).arrAt 2 (cfg2 (a2 a)).N
abbrev W6 : Dev nD → Valuation τ sig (Elt F) := fun c => Function.update (W5 m a c) main_v5 (o5 m a c)
abbrev W7 : Dev nD → Valuation τ sig (Elt F) := fun c => StableHlo.after hostOps3 (W6 m a c)
/-- What region 3 leaves in its result buffer. -/
def o7 (c : Dev nD) : Buf (Elt F) ((c : Thread nD τ).loc main_v7) := (dat3 (rd (W7 m a)) c).arrAt 2 cfg3.N
abbrev W8 : Dev nD → Valuation τ sig (Elt F) := fun c => Function.update (W7 m a c) main_v7 (o7 m a c)

/-- What the regions leave, as the family the program's conditional frame is stated over. -/
def outs : Outs (F := F) := fun _ r c =>
  if h1 : r = main_v1 then h1 ▸ o1 m a c
  else if h3 : r = main_v3 then h3 ▸ o3 m a c
  else if h5 : r = main_v5 then h5 ▸ o5 m a c
  else if h7 : r = main_v7 then h7 ▸ o7 m a c
  else m ((c : Thread nD τ).loc r)

theorem outs_v1 (J : ℕ) (c : Dev nD) : outs m a J main_v1 c = o1 m a c := by unfold outs; rw [dif_pos rfl]
theorem outs_v3 (J : ℕ) (c : Dev nD) : outs m a J main_v3 c = o3 m a c := by
  unfold outs; rw [dif_neg (by decide), dif_pos rfl]
theorem outs_v5 (J : ℕ) (c : Dev nD) : outs m a J main_v5 c = o5 m a c := by
  unfold outs; rw [dif_neg (by decide), dif_neg (by decide), dif_pos rfl]
theorem outs_v7 (J : ℕ) (c : Dev nD) : outs m a J main_v7 c = o7 m a c := by
  unfold outs; rw [dif_neg (by decide), dif_neg (by decide), dif_neg (by decide), dif_pos rfl]

/-- The conditional frame's valuations at this family are the ones named above. -/
theorem V2_eq (c : Dev nD) : V2 m (outs m a) c = W2 m a c := by
  show Function.update (V1 m c) main_v1 (outs m a 2 main_v1 c) = Function.update (V1 m c) main_v1 (o1 m a c)
  rw [outs_v1]
theorem V3_eq (c : Dev nD) : V3 m (outs m a) c = W3 m a c := by
  show StableHlo.after hostOps1 (V2 m (outs m a) c) = StableHlo.after hostOps1 (W2 m a c)
  rw [V2_eq]
theorem V4_eq (c : Dev nD) : V4 m (outs m a) c = W4 m a c := by
  show Function.update (V3 m (outs m a) c) main_v3 (outs m a 4 main_v3 c) = Function.update (W3 m a c) main_v3 (o3 m a c)
  rw [outs_v3, V3_eq]
theorem V5_eq (c : Dev nD) : V5 m (outs m a) c = W5 m a c := by
  show StableHlo.after hostOps2 (V4 m (outs m a) c) = StableHlo.after hostOps2 (W4 m a c)
  rw [V4_eq]
theorem V6_eq (c : Dev nD) : V6 m (outs m a) c = W6 m a c := by
  show Function.update (V5 m (outs m a) c) main_v5 (outs m a 6 main_v5 c) = Function.update (W5 m a c) main_v5 (o5 m a c)
  rw [outs_v5, V5_eq]
theorem V7_eq (c : Dev nD) : V7 m (outs m a) c = W7 m a c := by
  show StableHlo.after hostOps3 (V6 m (outs m a) c) = StableHlo.after hostOps3 (W6 m a c)
  rw [V6_eq]
theorem V8_eq (c : Dev nD) : V8 m (outs m a) c = W8 m a c := by
  show Function.update (V7 m (outs m a) c) main_v7 (outs m a 8 main_v7 c) = Function.update (W7 m a c) main_v7 (o7 m a c)
  rw [outs_v7, V7_eq]

/-! ## The proof data family -/

/-- Every pipeline's proof data, each at its region's entry valuation: a literal match on the pipeline. -/
def pdats : (p : Fin 4) → (c : Dev nD) → Dat τ (Elt F) Unit ℕ (UR sig nD τ) ℕ (Pipeline.pin (pcfgs (F := F)) a p) c
  | ⟨0, _⟩ => fun c => dat0 (a0 a) (rd (W1 m)) c
  | ⟨1, _⟩ => fun c => dat1 (rd (W3 m a)) c
  | ⟨2, _⟩ => fun c => dat2 (a2 a) (rd (W5 m a)) c
  | ⟨3, _⟩ => fun c => dat3 (rd (W7 m a)) c

/-- No core owes another anything: no level is assigned. -/
abbrev L : GSem nD τ sig → Finset Unit := fun _ => ∅
abbrev lv : GSem nD τ sig → Unit → ℕ := fun _ _ => 0

/-! ## What each region's arrays hold when it is left -/

theorem hF0 (c : Dev nD) (w : Fin (cfg0 (a0 a)).W) :
    (dat0 (a0 a) (rd (W1 m)) c).arrAt w (cfg0 (a0 a)).N = W2 m a c (arrRef spec0 w) := by
  match w with
  | ⟨0, _⟩ => exact ((dat0 (a0 a) (rd (W1 m)) c).arrAt_in 0 rfl _).trans ((A_eq0 (a0 a) (rd (W1 m)) c 0).trans
      (Function.update_of_ne (StableHlo.devRef_ne_of_ne v0_ne_v1) _ _).symm)
  | ⟨1, _⟩ => exact ((dat0 (a0 a) (rd (W1 m)) c).arrAt_in 1 rfl _).trans ((A_eq0 (a0 a) (rd (W1 m)) c 1).trans
      (Function.update_of_ne (StableHlo.devRef_ne_of_ne v0_ne_v1) _ _).symm)
  | ⟨2, _⟩ => exact (show o1 m a c = Function.update (W1 m c) (Proc.devRef .tc main_v1) (o1 m a c) (Proc.devRef .tc main_v1) from
      (Function.update_self (Proc.devRef .tc main_v1 : DevRef τ sig) (o1 m a c) (W1 m c)).symm)
theorem hF1 (c : Dev nD) (w : Fin cfg1.W) :
    (dat1 (rd (W3 m a)) c).arrAt w cfg1.N = W4 m a c (arrRef spec1 w) := by
  match w with
  | ⟨0, _⟩ => exact ((dat1 (rd (W3 m a)) c).arrAt_in 0 rfl _).trans ((A_eq1 (rd (W3 m a)) c 0).trans
      (Function.update_of_ne (StableHlo.devRef_ne_of_ne v2_ne_v3) _ _).symm)
  | ⟨1, _⟩ => exact ((dat1 (rd (W3 m a)) c).arrAt_in 1 rfl _).trans ((A_eq1 (rd (W3 m a)) c 1).trans
      (Function.update_of_ne (StableHlo.devRef_ne_of_ne v2_ne_v3) _ _).symm)
  | ⟨2, _⟩ => exact (show o3 m a c = Function.update (W3 m a c) (Proc.devRef .tc main_v3) (o3 m a c) (Proc.devRef .tc main_v3) from
      (Function.update_self (Proc.devRef .tc main_v3 : DevRef τ sig) (o3 m a c) (W3 m a c)).symm)
theorem hF2 (c : Dev nD) (w : Fin (cfg2 (a2 a)).W) :
    (dat2 (a2 a) (rd (W5 m a)) c).arrAt w (cfg2 (a2 a)).N = W6 m a c (arrRef spec2 w) := by
  match w with
  | ⟨0, _⟩ => exact ((dat2 (a2 a) (rd (W5 m a)) c).arrAt_in 0 rfl _).trans ((A_eq2 (a2 a) (rd (W5 m a)) c 0).trans
      (Function.update_of_ne (StableHlo.devRef_ne_of_ne v4_ne_v5) _ _).symm)
  | ⟨1, _⟩ => exact ((dat2 (a2 a) (rd (W5 m a)) c).arrAt_in 1 rfl _).trans ((A_eq2 (a2 a) (rd (W5 m a)) c 1).trans
      (Function.update_of_ne (StableHlo.devRef_ne_of_ne v4_ne_v5) _ _).symm)
  | ⟨2, _⟩ => exact (show o5 m a c = Function.update (W5 m a c) (Proc.devRef .tc main_v5) (o5 m a c) (Proc.devRef .tc main_v5) from
      (Function.update_self (Proc.devRef .tc main_v5 : DevRef τ sig) (o5 m a c) (W5 m a c)).symm)
theorem hF3 (c : Dev nD) (w : Fin cfg3.W) :
    (dat3 (rd (W7 m a)) c).arrAt w cfg3.N = W8 m a c (arrRef spec3 w) := by
  match w with
  | ⟨0, _⟩ => exact ((dat3 (rd (W7 m a)) c).arrAt_in 0 rfl _).trans ((A_eq3 (rd (W7 m a)) c 0).trans
      (Function.update_of_ne (StableHlo.devRef_ne_of_ne v6_ne_v7) _ _).symm)
  | ⟨1, _⟩ => exact ((dat3 (rd (W7 m a)) c).arrAt_in 1 rfl _).trans ((A_eq3 (rd (W7 m a)) c 1).trans
      (Function.update_of_ne (StableHlo.devRef_ne_of_ne v6_ne_v7) _ _).symm)
  | ⟨2, _⟩ => exact (show o7 m a c = Function.update (W7 m a c) (Proc.devRef .tc main_v7) (o7 m a c) (Proc.devRef .tc main_v7) from
      (Function.update_self (Proc.devRef .tc main_v7 : DevRef τ sig) (o7 m a c) (W7 m a c)).symm)

/-- A buffer that is no array of the region is left as it was found. -/
theorem hrest0 (c : Dev nD) (b : Ref sig .tc) (hb : b ∉ Finset.univ.image (arrRef spec0)) : W2 m a c b = W1 m c b :=
  Function.update_of_ne (StableHlo.devRef_ne_of_ne fun e => hb (Finset.mem_image.mpr ⟨2, Finset.mem_univ _, e.symm⟩)) _ _
theorem hrest1 (c : Dev nD) (b : Ref sig .tc) (hb : b ∉ Finset.univ.image (arrRef spec1)) : W4 m a c b = W3 m a c b :=
  Function.update_of_ne (StableHlo.devRef_ne_of_ne fun e => hb (Finset.mem_image.mpr ⟨2, Finset.mem_univ _, e.symm⟩)) _ _
theorem hrest2 (c : Dev nD) (b : Ref sig .tc) (hb : b ∉ Finset.univ.image (arrRef spec2)) : W6 m a c b = W5 m a c b :=
  Function.update_of_ne (StableHlo.devRef_ne_of_ne fun e => hb (Finset.mem_image.mpr ⟨2, Finset.mem_univ _, e.symm⟩)) _ _
theorem hrest3 (c : Dev nD) (b : Ref sig .tc) (hb : b ∉ Finset.univ.image (arrRef spec3)) : W8 m a c b = W7 m a c b :=
  Function.update_of_ne (StableHlo.devRef_ne_of_ne fun e => hb (Finset.mem_image.mpr ⟨2, Finset.mem_univ _, e.symm⟩)) _ _

/-! ## The regions' records -/

variable (ha0 : ∀ (c : Dev nD) (k : Fin (pcfgs (F := F) 0).pre.K), (fun b : Ref sig .tc => W1 m c b) ((pcfgs (F := F) 0).pre.ref k) = (a 0).1 k)
variable (ha2 : ∀ (c : Dev nD) (k : Fin (pcfgs (F := F) 2).pre.K), (fun b : Ref sig .tc => W5 m a c b) ((pcfgs (F := F) 2).pre.ref k) = (a 2).1 k)

set_option backward.isDefEq.respectTransparency.types false in
/-- Region 0 (rows of the input table gathered and subtracted), entered at `W1` and left at `W2`. -/
def reg0 : RegionSeg (pcfgs (F := F)) a (pdats m a) () defs₀ Variants.none L lv 0 :=
  Cert.LibRegionP.regionSegHeldPA (pcfgs (F := F)) a (pdats m a) defs₀ Variants.none L lv 0 winFacts₀0 preFacts0 block_pos0 stage_whole0
    (fun c => (body_obligation0 (a0 a) (rd (W1 m)) c).loose) (fun _ => rfl) (fun _ => rfl) (fun _ _ => rfl) (fun _ => rfl)
    (W1 m) (W2 m a) ha0
    (fun c => Cert.LibRegion.arrBufs_split_shared (cfg0 (a0 a)) c (dat0 (a0 a) (rd (W1 m)) c) (0 : Fin 3) (1 : Fin 3) ne01 rfl inj0 arr_whole0
      (share0 (a0 a) (rd (W1 m)) c) (fun b => W1 m c b) _ (fun w => A_eq0 (a0 a) (rd (W1 m)) c w))
    (fun c => Cert.LibRegion.arrBufs_join_shared (cfg0 (a0 a)) c (dat0 (a0 a) (rd (W1 m)) c) (0 : Fin 3) (1 : Fin 3) ne01 rfl inj0 arr_whole0
      (share0 (a0 a) (rd (W1 m)) c) (fun b => W2 m a c b) _ (hF0 m a c))
    (fun c b hb => hrest0 m a c b hb)

set_option backward.isDefEq.respectTransparency.types false in
/-- Region 1 (the L1 distances of the first table of differences), entered at `W3` and left at `W4`. -/
def reg1 : RegionSeg (pcfgs (F := F)) a (pdats m a) () defs₀ Variants.none L lv 1 :=
  Cert.LibRegion.regionSegHeldA (pcfgs (F := F)) a (pdats m a) defs₀ Variants.none L lv 1 winFacts₀1 block_pos1 stage_whole1 rfl
    (fun c => (body_obligation1 (rd (W3 m a)) c).loose) (fun _ => rfl) (fun _ => rfl) (fun _ _ => rfl) (fun _ => rfl)
    (W3 m a) (W4 m a)
    (fun c => Cert.LibRegion.arrBufs_split_shared cfg1 c (dat1 (rd (W3 m a)) c) (0 : Fin 3) (1 : Fin 3) ne01 rfl inj1 arr_whole1
      (share1 (rd (W3 m a)) c) (fun b => W3 m a c b) _ (fun w => A_eq1 (rd (W3 m a)) c w))
    (fun c => Cert.LibRegion.arrBufs_join_shared cfg1 c (dat1 (rd (W3 m a)) c) (0 : Fin 3) (1 : Fin 3) ne01 rfl inj1 arr_whole1
      (share1 (rd (W3 m a)) c) (fun b => W4 m a c b) _ (hF1 m a c))
    (fun c b hb => hrest1 m a c b hb)

set_option backward.isDefEq.respectTransparency.types false in
/-- Region 2 (rows of the first table of differences gathered and subtracted), entered at `W5` and left at `W6`. -/
def reg2 : RegionSeg (pcfgs (F := F)) a (pdats m a) () defs₀ Variants.none L lv 2 :=
  Cert.LibRegionP.regionSegHeldPA (pcfgs (F := F)) a (pdats m a) defs₀ Variants.none L lv 2 winFacts₀2 preFacts2 block_pos2 stage_whole2
    (fun c => (body_obligation2 (a2 a) (rd (W5 m a)) c).loose) (fun _ => rfl) (fun _ => rfl) (fun _ _ => rfl) (fun _ => rfl)
    (W5 m a) (W6 m a) ha2
    (fun c => Cert.LibRegion.arrBufs_split_shared (cfg2 (a2 a)) c (dat2 (a2 a) (rd (W5 m a)) c) (0 : Fin 3) (1 : Fin 3) ne01 rfl inj2 arr_whole2
      (share2 (a2 a) (rd (W5 m a)) c) (fun b => W5 m a c b) _ (fun w => A_eq2 (a2 a) (rd (W5 m a)) c w))
    (fun c => Cert.LibRegion.arrBufs_join_shared (cfg2 (a2 a)) c (dat2 (a2 a) (rd (W5 m a)) c) (0 : Fin 3) (1 : Fin 3) ne01 rfl inj2 arr_whole2
      (share2 (a2 a) (rd (W5 m a)) c) (fun b => W6 m a c b) _ (hF2 m a c))
    (fun c b hb => hrest2 m a c b hb)

set_option backward.isDefEq.respectTransparency.types false in
/-- Region 3 (the L1 distances of the second table of differences), entered at `W7` and left at `W8`. -/
def reg3 : RegionSeg (pcfgs (F := F)) a (pdats m a) () defs₀ Variants.none L lv 3 :=
  Cert.LibRegion.regionSegHeldA (pcfgs (F := F)) a (pdats m a) defs₀ Variants.none L lv 3 winFacts₀3 block_pos3 stage_whole3 rfl
    (fun c => (body_obligation3 (rd (W7 m a)) c).loose) (fun _ => rfl) (fun _ => rfl) (fun _ _ => rfl) (fun _ => rfl)
    (W7 m a) (W8 m a)
    (fun c => Cert.LibRegion.arrBufs_split_shared cfg3 c (dat3 (rd (W7 m a)) c) (0 : Fin 3) (1 : Fin 3) ne01 rfl inj3 arr_whole3
      (share3 (rd (W7 m a)) c) (fun b => W7 m a c b) _ (fun w => A_eq3 (rd (W7 m a)) c w))
    (fun c => Cert.LibRegion.arrBufs_join_shared cfg3 c (dat3 (rd (W7 m a)) c) (0 : Fin 3) (1 : Fin 3) ne01 rfl inj3 arr_whole3
      (share3 (rd (W7 m a)) c) (fun b => W8 m a c b) _ (hF3 m a c))
    (fun c b hb => hrest3 m a c b hb)

end Cert.KernelIdeal.Hand

end
-- ==== Proof.KI_Frame.lean ====
import proofs.«412525_j6176162972381_4_alg».proof.Proof.KI_Regions
import proofs.«412525_j6176162972381_4_alg».proof.Proof.KI_Launch

/-!
# The program's run from the launch memory

The two row-difference regions read their row numbers from tables that are arguments of the program, so the tables'
contents are the launch memory's; given that those contents pass the regions' side condition (every named row is a
row of the gathered table), the program runs to the end, leaves every argument as launched, and leaves in its two
result buffers what the last and the second region's pipelines wrote back.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf arrRef RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two tables of region 0 and of region 2 as the launch memory holds them (the mesh has one core). -/
abbrev tbl0 : pre0.Contents (Elt F) := fun k => m (((0 : Dev nD) : Thread nD τ).loc (pre0.ref k))
abbrev tbl2 : pre2.Contents (Elt F) := fun k => m (((0 : Dev nD) : Thread nD τ).loc (pre2.ref k))

variable (hok0 : ok0 (F := F) (tbl0 m)) (hok2 : ok2 (F := F) (tbl2 m))

/-- The admitted contents of every pipeline's tables: the launch memory's for the two row-difference regions, none
    for the two distance regions. -/
def adm : (p : Fin 4) → (pcfgs (F := F) p).Adm
  | ⟨0, _⟩ => ⟨tbl0 m, hok0⟩
  | ⟨1, _⟩ => cfg1.toPCfg_adm
  | ⟨2, _⟩ => ⟨tbl2 m, hok2⟩
  | ⟨3, _⟩ => cfg3.toPCfg_adm

/-- When region 0 is entered its tables hold the admitted contents: the first host stretch writes neither. -/
theorem ha0 (c : Dev nD) (k : Fin (pcfgs (F := F) 0).pre.K) :
    (fun b : Ref sig .tc => W1 m c b) ((pcfgs (F := F) 0).pre.ref k) = (adm m hok0 hok2 0).1 k := by
  obtain rfl : c = 0 := Subsingleton.elim _ _
  match k with
  | ⟨0, _⟩ => exact (V1_of m 0 main_arg1 (by decide)).trans rfl
  | ⟨1, _⟩ => exact (V1_of m 0 main_arg2 (by decide)).trans rfl

/-- When region 2 is entered its tables hold the admitted contents: no item before it writes either. -/
theorem ha2 (c : Dev nD) (k : Fin (pcfgs (F := F) 2).pre.K) :
    (fun b : Ref sig .tc => W5 m (adm m hok0 hok2) c b) ((pcfgs (F := F) 2).pre.ref k) = (adm m hok0 hok2 2).1 k := by
  obtain rfl : c = 0 := Subsingleton.elim _ _
  have e := V5_eq m (adm m hok0 hok2) 0
  match k with
  | ⟨0, _⟩ =>
    exact (congrFun e.symm _).trans <| (V5_of m (outs m (adm m hok0 hok2)) 0 main_arg3 (by decide)).trans <| (V4_of m _ 0 main_arg3 (by decide)).trans <|
      (V3_of m _ 0 main_arg3 (by decide)).trans <| (V2_of m _ 0 main_arg3 (by decide)).trans <| (V1_of m 0 main_arg3 (by decide)).trans rfl
  | ⟨1, _⟩ =>
    exact (congrFun e.symm _).trans <| (V5_of m (outs m (adm m hok0 hok2)) 0 main_arg4 (by decide)).trans <| (V4_of m _ 0 main_arg4 (by decide)).trans <|
      (V3_of m _ 0 main_arg4 (by decide)).trans <| (V2_of m _ 0 main_arg4 (by decide)).trans <| (V1_of m 0 main_arg4 (by decide)).trans rfl

/-- The last valuation at the two result buffers: what regions 3 and 1 wrote back. -/
theorem V8_v7 (a : (p : Fin 4) → (pcfgs (F := F) p).Adm) (c : Dev nD) : V8 m (outs m a) c main_v7 = o7 m a c := by
  rw [V8_eq]
  exact Function.update_self (Proc.devRef .tc main_v7 : DevRef τ sig) (o7 m a c) (W7 m a c)
theorem V8_v3 (a : (p : Fin 4) → (pcfgs (F := F) p).Adm) (c : Dev nD) : V8 m (outs m a) c main_v3 = o3 m a c :=
  (V8_of m (outs m a) c main_v3 (by decide)).trans <| (V7_of m _ c main_v3 (by decide)).trans <| (V6_of m _ c main_v3 (by decide)).trans <|
    (V5_of m _ c main_v3 (by decide)).trans <| by
      rw [V4_eq]
      exact Function.update_self (Proc.devRef .tc main_v3 : DevRef τ sig) (o3 m a c) (W3 m a c)

set_option backward.isDefEq.respectTransparency.types false in
/-- THE RUN: every weakly fair execution terminates, every argument ends as launched, and the two result buffers end
    at what the regions wrote back. -/
theorem run_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v7) = o7 m (adm m hok0 hok2) c
      ∧ r.2.mem ((c.tc : Thread nD τ).loc main_v3) = o3 m (adm m hok0 hok2) c) := by
  refine (θ_run defs _ _).mono (fun r h c => ⟨(h c).1, (h c).2.1, (h c).2.2.1, (h c).2.2.2.1, (h c).2.2.2.2.1,
      (h c).2.2.2.2.2.1.trans (V8_v7 m _ c), (h c).2.2.2.2.2.2.trans (V8_v3 m _ c)⟩)
    (run_cond m (Ix := Unit) (U := UR sig nD τ) (Lvl := ℕ) emb₁ () Variants.none L lv (fun _ _ => rfl) ρ (outs m (adm m hok0 hok2)) (adm m hok0 hok2)
      (pdats m (adm m hok0 hok2)) (O₀ := 0) (G := fun _ => iprop(emp))
      (u₀ := initOf (Pipeline.cells (Pipeline.pin (pcfgs (F := F)) (adm m hok0 hok2)) (cellOf_inj (adm m hok0 hok2)))
        (Pipeline.launchToks (Pipeline.pin (pcfgs (F := F)) (adm m hok0 hok2)) (cellOf_inj (adm m hok0 hok2))))
      (hu₀ := ?hu)
      (E := fun _ c => Cert.LibRegion.R c) (hE0 := ?hE0) (hE4 := fun c => by iintro ⟨-, H⟩; iexact H)
      (R0 := reg0 m (adm m hok0 hok2) (ha0 m hok0 hok2)) (hpre0 := fun c => .rfl) (hpost0 := fun c => by rw [V2_eq]; exact .rfl)
      (R1 := reg1 m (adm m hok0 hok2)) (hpre1 := fun c => by rw [V3_eq]; exact .rfl) (hpost1 := fun c => by rw [V4_eq]; exact .rfl)
      (R2 := reg2 m (adm m hok0 hok2) (ha2 m hok0 hok2)) (hpre2 := fun c => by rw [V5_eq]; exact .rfl) (hpost2 := fun c => by rw [V6_eq]; exact .rfl)
      (R3 := reg3 m (adm m hok0 hok2)) (hpre3 := fun c => by rw [V7_eq]; exact .rfl) (hpost3 := fun c => by rw [V8_eq]; exact .rfl))
  case hu =>
    iintro Hu; imodintro
    isplitl [Hu]
    · iapply (show (ownU (initOf (Pipeline.cells (Pipeline.pin (pcfgs (F := F)) (adm m hok0 hok2)) (cellOf_inj (adm m hok0 hok2)))
            (Pipeline.launchToks (Pipeline.pin (pcfgs (F := F)) (adm m hok0 hok2)) (cellOf_inj (adm m hok0 hok2)))) : sProp 𝕄)
          ⊢ BI.own (emb₁ (initOf (Pipeline.cells (Pipeline.pin (pcfgs (F := F)) (adm m hok0 hok2)) (cellOf_inj (adm m hok0 hok2)))
            (Pipeline.launchToks (Pipeline.pin (pcfgs (F := F)) (adm m hok0 hok2)) (cellOf_inj (adm m hok0 hok2))))) from .rfl)
      iexact Hu
    iapply (show (BI.emp : sProp 𝕄) ⊢ bigSep Finset.univ (fun _ : Dev nD => (BI.emp : sProp 𝕄)) from by rw [BI.bigSep_emp_const])
    iempintro
  case hE0 =>
    refine Pipeline.initEach L lv fun c => ?_
    iintro ⟨⟨-, HO, -, Hp, -⟩, -⟩
    imodintro
    isplitl [Hp]
    · iexists _; iexact Hp
    iexists ∅; iexact HO

include hok0 hok2 in
/-- THE FRAME: every weakly fair execution terminates and every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1, (h c).2.1, (h c).2.2.1, (h c).2.2.2.1, (h c).2.2.2.2.1⟩) (run_main m ρ hok0 hok2)

end Cert.KernelIdeal.Hand

end
-- ==== Proof.KI_PreDecode.lean ====
/-
  Two decodings, at every float instance.

  PART 1 (Cert.PreDecode). The precondition is the conjunction of five all-reductions; it being 1 says that each
  reduction is 1, hence that every element of each reduced mask is 1. For an index table the mask at r is
  (0 ≤ w signed) and (w < N signed) of the word w = table[r]; a 32-bit word in [0, N) signed, N below 2^31, has
  unsigned value below N.

  PART 2 (Cert.KernelIdeal.Hand). A word read at the unit rectangle [i] of a rank-1 table is the table's entry at i;
  so each gather window's block index at grid point i is (table[i]).toNat, and a block index below the number of
  blocks puts the [1,2,128] block inside its array. An f32 transfer is word-exact because f32 is 32 bits wide.
-/
import proofs.«412525_j6176162972381_4_alg».proof.Pre_finite_inputs
import proofs.«412525_j6176162972381_4_alg».proof.Proof.Gen.Pre_finite_inputs
import proofs.«412525_j6176162972381_4_alg».proof.Proof.Gen.KernelIdeal.Launch
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx
open Cert.Pre_finite_inputs

variable {F : FTy → Type} [FloatOps F]

/-- The scalar shape has one index. -/
instance : Subsingleton S_.Idx := ⟨fun a b => funext fun d => d.elim0⟩

/-- A 32-bit word that is ≥ 0 and < N as a signed number, N < 2^31, is below N as an unsigned one. -/
theorem toNat_lt_of_signed (w : BitVec 32) (N : Nat) (hN : N < 2 ^ 31)
    (h0 : IntOp.cmpi .sge w (0#32) = 1#1) (h1 : IntOp.cmpi .slt w (BitVec.ofNat 32 N) = 1#1) : w.toNat < N := by
  unfold IntOp.cmpi at h0 h1
  rw [StableHlo.Predicate.ofBool_eq_one_iff] at h0 h1
  simp only [BitVec.slt, BitVec.sle, decide_eq_true_eq] at h0 h1
  rw [StableHlo.Predicate.toInt_ofNat_small N hN] at h1
  have h32 := w.isLt
  have hz : (0#32 : BitVec 32).toInt = 0 := by decide
  rw [hz] at h0
  unfold BitVec.toInt at h0 h1
  split at h1 <;> omega

/-- One table's all-reduction read back: the reduction of the mask (0 ≤ a[r]) ∧ (a[r] < N) being 1 puts every
    entry's unsigned value below N. -/
theorem range_of_all [Facts] (a : IVec S1024 32) (N : Nat) (hN : N < 2 ^ 31) (init : IVec S_ 1)
    (h : Host.reduce IntOp.andi
        (andi (cmpi .sge a (broadcastInDim S1024 ![] Facts.bcast_S_S1024 (constantI S_ 32 0#32)))
              (cmpi .slt a (broadcastInDim S1024 ![] Facts.bcast_S_S1024 (constantI S_ 32 (BitVec.ofNat 32 N)))))
        init Facts.reducesTo_S1024_S_d0 Facts.h_S_ ix0 = 1#1)
    (r : Fin 1024) : (a (ix1 r)).toNat < N := by
  have e := Host.reduce_andi_all _ _ _ _ _ h (ix1 r)
  simp only [andi, cmpi, broadcastInDim, constantI] at e
  obtain ⟨e0, e1⟩ := IntOp.andi_eq_one.1 e
  exact toNat_lt_of_signed _ N hN e0 e1

/-- The precondition's index ranges: tables 1, 2 name rows of the 131072-row array, tables 3, 4 rows of a 1024-row one. -/
theorem idx_ranges [Cert.Pre_finite_inputs.Facts] (Z : FVec F Cert.Pre_finite_inputs.S131072x256 .f32) (a1 a2 a3 a4 : IVec Cert.Pre_finite_inputs.S1024 32)
    (h : Cert.Pre_finite_inputs.fn (F := F) Z a1 a2 a3 a4 = fun _ => 1#1) :
    (∀ r : Fin 1024, (a1 (ValueIdx.ix1 r)).toNat < 131072) ∧ (∀ r : Fin 1024, (a2 (ValueIdx.ix1 r)).toNat < 131072)
      ∧ (∀ r : Fin 1024, (a3 (ValueIdx.ix1 r)).toNat < 1024) ∧ (∀ r : Fin 1024, (a4 (ValueIdx.ix1 r)).toNat < 1024) := by
  have e := congrFun h ix0
  unfold Cert.Pre_finite_inputs.fn Cert.Pre_finite_inputs.fn_part1 at e
  dsimp only at e
  obtain ⟨e123, e4⟩ := IntOp.andi_eq_one.1 e
  obtain ⟨e12, e3⟩ := IntOp.andi_eq_one.1 e123
  obtain ⟨e01, e2⟩ := IntOp.andi_eq_one.1 e12
  obtain ⟨_, e1⟩ := IntOp.andi_eq_one.1 e01
  exact ⟨range_of_all a1 131072 (by norm_num) _ e1, range_of_all a2 131072 (by norm_num) _ e2,
    range_of_all a3 1024 (by norm_num) _ e3, range_of_all a4 1024 (by norm_num) _ e4⟩

end Cert.PreDecode

namespace Cert.KernelIdeal.Hand

open Idealize.ShloMosaic Idealize.ShloMosaic.ValueIdx Idealize.SL.Sem
open Cert.KernelIdeal Cert.KernelIdeal.Facts₀

variable {F : FTy → Type} [FloatOps F] [Facts₀]

/-- A number below 1024, as a 32-bit word cast to an index, has that number as its value. -/
theorem coord_toNat (n : Nat) (hn : n < 1024) : (Scalar.indexCast (BitVec.ofNat 32 n)).toNat = n := by
  show (BitVec.ofNat 32 n).toNat = n
  rw [BitVec.toNat_ofNat]
  omega

/-- The unit rectangle at offset v of a [1024] table places its one index at v. -/
theorem unit_emb (v : Nat) (r : Fin 1024) (hv : v = r.val) (inb : ∀ a, (![v] : Fin 1 → Nat) a + S1.size a ≤ S1024.size a)
    (h1 : 0 < (Rect.unit (s := S1024) ![v] S1.size inb).shape.numel) :
    (Rect.unit (s := S1024) ![v] S1.size inb).emb (Shape.Idx.first h1) = ix1 r := by
  funext a
  match a with
  | ⟨0, _⟩ =>
    apply Fin.ext
    show v + 1 * 0 = r.val
    omega

/-- The word each gather window's index map reads at grid point i is the table's entry at i (first gather). -/
theorem tbl0_word (pf : pre0.Contents (Elt F)) (i : grid0.Coords) :
    pf.at 0 (Rect.unit (s := S1024) ![(Scalar.indexCast (BitVec.ofNat 32 (i 0).val)).toNat] S1.size (k0_off1_inb i)) numel1_S1
        = (pf 0 : S1024.Idx → BitVec 32) (ix1 (i 0))
    ∧ pf.at 1 (Rect.unit (s := S1024) ![(Scalar.indexCast (BitVec.ofNat 32 (i 0).val)).toNat] S1.size (k0_off1_inb i)) numel1_S1
        = (pf 1 : S1024.Idx → BitVec 32) (ix1 (i 0)) := by
  constructor
  · show (pf 0 : S1024.Idx → BitVec 32) _ = _
    exact congrArg _ (unit_emb _ (i 0) (coord_toNat _ (i 0).isLt) _ _)
  · show (pf 1 : S1024.Idx → BitVec 32) _ = _
    exact congrArg _ (unit_emb _ (i 0) (coord_toNat _ (i 0).isLt) _ _)

/-- The same for the second gather. -/
theorem tbl2_word (pf : pre2.Contents (Elt F)) (i : grid2.Coords) :
    pf.at 0 (Rect.unit (s := S1024) ![(Scalar.indexCast (BitVec.ofNat 32 (i 0).val)).toNat] S1.size (k2_off1_inb i)) numel1_S1
        = (pf 0 : S1024.Idx → BitVec 32) (ix1 (i 0))
    ∧ pf.at 1 (Rect.unit (s := S1024) ![(Scalar.indexCast (BitVec.ofNat 32 (i 0).val)).toNat] S1.size (k2_off1_inb i)) numel1_S1
        = (pf 1 : S1024.Idx → BitVec 32) (ix1 (i 0)) := by
  constructor
  · show (pf 0 : S1024.Idx → BitVec 32) _ = _
    exact congrArg _ (unit_emb _ (i 0) (coord_toNat _ (i 0).isLt) _ _)
  · show (pf 1 : S1024.Idx → BitVec 32) _ = _
    exact congrArg _ (unit_emb _ (i 0) (coord_toNat _ (i 0).isLt) _ _)

/-- The block index of each gather window at grid point i: (table[i], 0, 0) (first gather). -/
theorem win0_index (pf : pre0.Contents (Elt F)) (i : grid0.Coords) :
    cc0_transform_0 k0_off1_inb numel1_S1 pf i = ![((pf 0 : S1024.Idx → BitVec 32) (ix1 (i 0))).toNat, 0, 0]
    ∧ cc0_transform_1 k0_off1_inb numel1_S1 pf i = ![((pf 1 : S1024.Idx → BitVec 32) (ix1 (i 0))).toNat, 0, 0] := by
  constructor
  · unfold cc0_transform_0
    dsimp only
    rw [(tbl0_word pf i).1]
    rfl
  · unfold cc0_transform_1
    dsimp only
    rw [(tbl0_word pf i).2]
    rfl

/-- The same for the second gather. -/
theorem win2_index (pf : pre2.Contents (Elt F)) (i : grid2.Coords) :
    cc2_transform_0 k2_off1_inb numel1_S1 pf i = ![((pf 0 : S1024.Idx → BitVec 32) (ix1 (i 0))).toNat, 0, 0]
    ∧ cc2_transform_1 k2_off1_inb numel1_S1 pf i = ![((pf 1 : S1024.Idx → BitVec 32) (ix1 (i 0))).toNat, 0, 0] := by
  constructor
  · unfold cc2_transform_0
    dsimp only
    rw [(tbl2_word pf i).1]
    rfl
  · unfold cc2_transform_1
    dsimp only
    rw [(tbl2_word pf i).2]
    rfl

/-- Block (n, 0, 0) of [1,2,128] blocks lies inside an [N,2,128] array when n < N. -/
theorem blk_inb (n N : Nat) (hn : n < N) :
    ∀ a, ((![n, 0, 0] : Fin 3 → Nat) a + 1) * S1x2x128.size a ≤ (⟨3, ![N, 2, 128]⟩ : Shape).size a := by
  intro a
  fin_cases a <;> simp <;> omega

/-- Tables with entries below 131072 satisfy the first gather's side condition. -/
theorem ok0_of (pf : pre0.Contents (Elt F))
    (h1 : ∀ r : Fin 1024, ((pf 0 : S1024.Idx → BitVec 32) (ix1 r)).toNat < 131072)
    (h2 : ∀ r : Fin 1024, ((pf 1 : S1024.Idx → BitVec 32) (ix1 r)).toNat < 131072) : ok0 pf := by
  unfold ok0
  refine ⟨fun i => ⟨?_, Or.inl rfl⟩, fun i => ⟨?_, Or.inl rfl⟩⟩
  · rw [(win0_index pf i).1]; exact blk_inb _ _ (h1 (i 0))
  · rw [(win0_index pf i).2]; exact blk_inb _ _ (h2 (i 0))

/-- Tables with entries below 1024 satisfy the second gather's side condition. -/
theorem ok2_of (pf : pre2.Contents (Elt F))
    (h3 : ∀ r : Fin 1024, ((pf 0 : S1024.Idx → BitVec 32) (ix1 r)).toNat < 1024)
    (h4 : ∀ r : Fin 1024, ((pf 1 : S1024.Idx → BitVec 32) (ix1 r)).toNat < 1024) : ok2 pf := by
  unfold ok2
  refine ⟨fun i => ⟨?_, Or.inl rfl⟩, fun i => ⟨?_, Or.inl rfl⟩⟩
  · rw [(win2_index pf i).1]; exact blk_inb _ _ (h3 (i 0))
  · rw [(win2_index pf i).2]; exact blk_inb _ _ (h4 (i 0))

end Cert.KernelIdeal.Hand

end
-- ==== Proof.KI_ValG.lean ====
/- The two row-gather regions' result arrays after their runs, entry by entry, over the extended reals and at ANY
   admissible contents of the two prefetched tables I and J (1024 row numbers each). Each region runs over 1024
   points; at point t it stages row I t and row J t of one array of [2,128] rows and leaves their entrywise difference
   in row t of the result. Per region: the three windows' block indices at a point; the whole result array as ONE
   function of the gathered array and the tables; what each point writes back is its block of that function; every
   point writes back, and the blocks cover the result; so the array after the run is that function:
   result[r, u, v] = src[I r, u, v] - src[J r, u, v]. -/
import proofs.«412525_j6176162972381_4_alg».proof.Proof.KI_Dat0
import proofs.«412525_j6176162972381_4_alg».proof.Proof.KI_Dat2
import proofs.«412525_j6176162972381_4_alg».proof.Proof.KI_PreDecode
import Idealize.ShloMosaic.Lib.Pipeline.Value
import Idealize.ShloMosaic.Lib.ValueIdx

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

/-! # The result of a row gather, read: result[r, u, v] = src[I r, u, v] - src[J r, u, v] -/

/-- On the one-axis grid of 1024 points the coordinate of point t is t. -/
theorem point_coord0 (t : Fin grid0.N) : (grid0.coords t 0).val = t.val := by
  have h : t.val < 1024 := lt_of_lt_of_eq t.isLt N_0
  show t.val / grid0.stride 0 % 1024 = t.val
  rw [show grid0.stride 0 = 1 from by decide, Nat.div_one, Nat.mod_eq_of_lt h]

theorem point_coord2 (t : Fin grid2.N) : (grid2.coords t 0).val = t.val := by
  have h : t.val < 1024 := lt_of_lt_of_eq t.isLt N_2
  show t.val / grid2.stride 0 % 1024 = t.val
  rw [show grid2.stride 0 = 1 from by decide, Nat.div_one, Nat.mod_eq_of_lt h]

/-- A number below 1024 is the value of its 32-bit word. -/
theorem word_val (n : Nat) (hn : n < 1024) : (BitVec.ofNat 32 n).toNat = n := by
  rw [BitVec.toNat_ofNat]; omega

/-! ## Region 0: rows of the [131072,2,128] array -/

section R0
variable (a : (pcfg0 (F := Ideal)).Adm)
variable (V : (c : Dev nD) → (b : Ref sig .tc) → Buf (Elt Ideal) ((c : Thread nD τ).loc b))

/-- The result window's block index at point t is (t, 0, 0). -/
theorem out_index0 (t : Fin (cfg0 a).N) : ((cfg0 a).win 2).index t = ![t.val, 0, 0] := by
  show cc0_transform_2 (grid0.coords t) = _
  unfold cc0_transform_2
  dsimp only
  rw [word_val _ (grid0.coords t 0).isLt, point_coord0]
  rfl

/-- The first input window's block index at point t is (the first table's entry at t, 0, 0); the second's is (the
    second table's entry at t, 0, 0). -/
theorem in_index0 (t : Fin (cfg0 a).N) (r : Fin 1024) (hr : r.val = t.val) :
    ((cfg0 a).win 0).index t = ![((a.1 0 : S1024.Idx → BitVec 32) (ix1 r)).toNat, 0, 0]
    ∧ ((cfg0 a).win 1).index t = ![((a.1 1 : S1024.Idx → BitVec 32) (ix1 r)).toNat, 0, 0] := by
  have e : grid0.coords t 0 = r := Fin.ext ((point_coord0 t).trans hr.symm)
  constructor
  · show cc0_transform_0 k0_off1_inb numel1_S1 a.1 (grid0.coords t) = _
    rw [(win0_index a.1 (grid0.coords t)).1, e]
  · show cc0_transform_1 k0_off1_inb numel1_S1 a.1 (grid0.coords t) = _
    rw [(win0_index a.1 (grid0.coords t)).2, e]

/-- The gathered array as the region finds it. -/
abbrev src0 (c : Dev nD) : S131072x2x128.Idx → EReal := V c main_v0

/-- Entry (r, u, v) of the result: entry (I r, u, v) of the gathered array less its entry (J r, u, v), I and J the
    two tables. -/
def rowDiff0 (c : Dev nD)
    (hI : ∀ r : Fin 1024, ((a.1 0 : S1024.Idx → BitVec 32) (ix1 r)).toNat < 131072)
    (hJ : ∀ r : Fin 1024, ((a.1 1 : S1024.Idx → BitVec 32) (ix1 r)).toNat < 131072)
    (r : Fin 1024) (u : Fin 2) (v : Fin 128) : EReal :=
  src0 V c (ix3 ⟨((a.1 0 : S1024.Idx → BitVec 32) (ix1 r)).toNat, hI r⟩ u v)
    - src0 V c (ix3 ⟨((a.1 1 : S1024.Idx → BitVec 32) (ix1 r)).toNat, hJ r⟩ u v)

/-- The whole result array as one function of the gathered array and the tables. -/
def gathered0 (c : Dev nD)
    (hI : ∀ r : Fin 1024, ((a.1 0 : S1024.Idx → BitVec 32) (ix1 r)).toNat < 131072)
    (hJ : ∀ r : Fin 1024, ((a.1 1 : S1024.Idx → BitVec 32) (ix1 r)).toNat < 131072) : S1024x2x128.Idx → EReal :=
  fun i => rowDiff0 a V c hI hJ (i 0) (i 1) (i 2)

/-- What point t writes back is block t of the whole-array function: the body leaves the difference of its two
    staged rows, the first staged from row I t of the gathered array, the second from its row J t, and block t of
    the result is row t (a block's coordinate is its index times its size plus the coordinate inside it). -/
theorem flushed_eq0 (c : Dev nD)
    (hI : ∀ r : Fin 1024, ((a.1 0 : S1024.Idx → BitVec 32) (ix1 r)).toNat < 131072)
    (hJ : ∀ r : Fin 1024, ((a.1 1 : S1024.Idx → BitVec 32) (ix1 r)).toNat < 131072) (t : Fin (cfg0 a).N) :
    (dat0 a V c).flushed 2 t = (((cfg0 a).win 2).blk t).view.read (Elt Ideal) (gathered0 a V c hI hJ) := by
  show ((cfg0 a).win 2).cut ((cfg0 a).grid.coords t) ((dat0 a V c).after 2 t) = _
  rw [after0_2]
  refine funext fun (j : S1x2x128.Idx) => ?_
  show outG0 (iblk0 a V c 0 t) (iblk0 a V c 1 t) j = gathered0 a V c hI hJ ((((cfg0 a).win 2).blk t).view.emb j)
  refine (outG0_apply (iblk0 a V c 0 t) (iblk0 a V c 1 t) j).trans ?_
  show src0 V c ((((cfg0 a).win 0).blk t).view.emb j) - src0 V c ((((cfg0 a).win 1).blk t).view.emb j) = _
  have ht : t.val < 1024 := lt_of_lt_of_eq t.isLt N_0
  have hj0 : (j 0).val < 1 := (j 0).isLt
  have hj1 : (j 1).val < 2 := (j 1).isLt
  have hj2 : (j 2).val < 128 := (j 2).isLt
  obtain ⟨e0, e1⟩ := in_index0 a t ⟨t.val, ht⟩ rfl
  have e2 := out_index0 a t
  have h0 : (((cfg0 a).win 0).blk t).view.emb j
      = ix3 (⟨((a.1 0 : S1024.Idx → BitVec 32) (ix1 (⟨t.val, ht⟩ : Fin 1024))).toNat, hI ⟨t.val, ht⟩⟩ : Fin 131072) (⟨(j 1).val, hj1⟩ : Fin 2) (⟨(j 2).val, hj2⟩ : Fin 128) := by
    funext d; apply Fin.ext
    match d with
    | ⟨0, _⟩ =>
      show ((cfg0 a).win 0).index t (0 : Fin 3) * 1 + 1 * (j 0).val = ((a.1 0 : S1024.Idx → BitVec 32) (ix1 (⟨t.val, ht⟩ : Fin 1024))).toNat
      rw [show ((cfg0 a).win 0).index t (0 : Fin 3) = ((a.1 0 : S1024.Idx → BitVec 32) (ix1 (⟨t.val, ht⟩ : Fin 1024))).toNat from congrFun e0 (0 : Fin 3)]; omega
    | ⟨1, _⟩ =>
      show ((cfg0 a).win 0).index t (1 : Fin 3) * 2 + 1 * (j 1).val = (j 1).val
      rw [show ((cfg0 a).win 0).index t (1 : Fin 3) = 0 from congrFun e0 (1 : Fin 3)]; omega
    | ⟨2, _⟩ =>
      show ((cfg0 a).win 0).index t (2 : Fin 3) * 128 + 1 * (j 2).val = (j 2).val
      rw [show ((cfg0 a).win 0).index t (2 : Fin 3) = 0 from congrFun e0 (2 : Fin 3)]; omega
  have h1 : (((cfg0 a).win 1).blk t).view.emb j
      = ix3 (⟨((a.1 1 : S1024.Idx → BitVec 32) (ix1 (⟨t.val, ht⟩ : Fin 1024))).toNat, hJ ⟨t.val, ht⟩⟩ : Fin 131072) (⟨(j 1).val, hj1⟩ : Fin 2) (⟨(j 2).val, hj2⟩ : Fin 128) := by
    funext d; apply Fin.ext
    match d with
    | ⟨0, _⟩ =>
      show ((cfg0 a).win 1).index t (0 : Fin 3) * 1 + 1 * (j 0).val = ((a.1 1 : S1024.Idx → BitVec 32) (ix1 (⟨t.val, ht⟩ : Fin 1024))).toNat
      rw [show ((cfg0 a).win 1).index t (0 : Fin 3) = ((a.1 1 : S1024.Idx → BitVec 32) (ix1 (⟨t.val, ht⟩ : Fin 1024))).toNat from congrFun e1 (0 : Fin 3)]; omega
    | ⟨1, _⟩ =>
      show ((cfg0 a).win 1).index t (1 : Fin 3) * 2 + 1 * (j 1).val = (j 1).val
      rw [show ((cfg0 a).win 1).index t (1 : Fin 3) = 0 from congrFun e1 (1 : Fin 3)]; omega
    | ⟨2, _⟩ =>
      show ((cfg0 a).win 1).index t (2 : Fin 3) * 128 + 1 * (j 2).val = (j 2).val
      rw [show ((cfg0 a).win 1).index t (2 : Fin 3) = 0 from congrFun e1 (2 : Fin 3)]; omega
  have h2 : (((cfg0 a).win 2).blk t).view.emb j
      = ix3 (⟨t.val, ht⟩ : Fin 1024) (⟨(j 1).val, hj1⟩ : Fin 2) (⟨(j 2).val, hj2⟩ : Fin 128) := by
    funext d; apply Fin.ext
    match d with
    | ⟨0, _⟩ =>
      show ((cfg0 a).win 2).index t (0 : Fin 3) * 1 + 1 * (j 0).val = t.val
      rw [show ((cfg0 a).win 2).index t (0 : Fin 3) = t.val from congrFun e2 (0 : Fin 3)]; omega
    | ⟨1, _⟩ =>
      show ((cfg0 a).win 2).index t (1 : Fin 3) * 2 + 1 * (j 1).val = (j 1).val
      rw [show ((cfg0 a).win 2).index t (1 : Fin 3) = 0 from congrFun e2 (1 : Fin 3)]; omega
    | ⟨2, _⟩ =>
      show ((cfg0 a).win 2).index t (2 : Fin 3) * 128 + 1 * (j 2).val = (j 2).val
      rw [show ((cfg0 a).win 2).index t (2 : Fin 3) = 0 from congrFun e2 (2 : Fin 3)]; omega
  rw [h0, h1, h2]
  rfl

/-- Every point writes its result block back: the result's block index moves at every point. -/
theorem flush_out0 (t : Fin (cfg0 a).N) : ((cfg0 a).win 2).flush t = true := by
  unfold Pipeline.Window.flush
  simp only [Bool.and_eq_true, Bool.or_eq_true, decide_eq_true_eq]
  refine ⟨rfl, ?_⟩
  have hN : t.val < (cfg0 a).grid.N := t.isLt
  by_cases h : t.val + 1 = (cfg0 a).grid.N
  · exact Or.inl h
  · have hlt : t.val + 1 < (cfg0 a).grid.N := by omega
    refine Or.inr ⟨hlt, ?_⟩
    rw [out_index0, out_index0]
    intro e
    have e0 : t.val + 1 = t.val := congrFun e (0 : Fin 3)
    omega

/-- An index of the result array is in point t's block iff each coordinate is in the block's range on its axis. -/
theorem mem_out_blk0 (t : Fin (cfg0 a).N) (i : S1024x2x128.Idx) :
    i ∈ (((cfg0 a).win 2).blk t).view.set ↔ ∀ d : Fin 3, ((cfg0 a).win 2).index t d * S1x2x128.size d ≤ (i d).val
      ∧ (i d).val < ((cfg0 a).win 2).index t d * S1x2x128.size d + S1x2x128.size d := by
  have e : (((cfg0 a).win 2).blk t).view.set = (((cfg0 a).win 2).rect t).set := View.set_slice_whole main_v1 _
  exact (e ▸ Iff.rfl : i ∈ (((cfg0 a).win 2).blk t).view.set ↔ i ∈ (((cfg0 a).win 2).rect t).set).trans Rect.mem_set_unit

/-- Every index of the result array is in the block of the point its row number names. -/
theorem cover0 (i : S1024x2x128.Idx) :
    ∃ t : Fin (cfg0 a).N, ((cfg0 a).win 2).flush t = true ∧ i ∈ (((cfg0 a).win 2).blk t).view.set := by
  have hi0 : (i 0).val < 1024 := (i 0).isLt
  have hi1 : (i 1).val < 2 := (i 1).isLt
  have hi2 : (i 2).val < 128 := (i 2).isLt
  refine ⟨⟨(i 0).val, lt_of_lt_of_eq hi0 N_0.symm⟩, flush_out0 a _, ?_⟩
  rw [mem_out_blk0]
  have e2 := out_index0 a ⟨(i 0).val, lt_of_lt_of_eq hi0 N_0.symm⟩
  intro d
  match d with
  | ⟨0, _⟩ =>
    show ((cfg0 a).win 2).index _ (0 : Fin 3) * 1 ≤ (i 0).val ∧ (i 0).val < ((cfg0 a).win 2).index _ (0 : Fin 3) * 1 + 1
    rw [show ((cfg0 a).win 2).index _ (0 : Fin 3) = (i 0).val from congrFun e2 (0 : Fin 3)]; omega
  | ⟨1, _⟩ =>
    show ((cfg0 a).win 2).index _ (1 : Fin 3) * 2 ≤ (i 1).val ∧ (i 1).val < ((cfg0 a).win 2).index _ (1 : Fin 3) * 2 + 2
    rw [show ((cfg0 a).win 2).index _ (1 : Fin 3) = 0 from congrFun e2 (1 : Fin 3)]; omega
  | ⟨2, _⟩ =>
    show ((cfg0 a).win 2).index _ (2 : Fin 3) * 128 ≤ (i 2).val ∧ (i 2).val < ((cfg0 a).win 2).index _ (2 : Fin 3) * 128 + 128
    rw [show ((cfg0 a).win 2).index _ (2 : Fin 3) = 0 from congrFun e2 (2 : Fin 3)]; omega

/-- The result array after the run is the whole-array function: every point writes back its block of it, and the
    blocks cover the array. -/
theorem final0 (c : Dev nD)
    (hI : ∀ r : Fin 1024, ((a.1 0 : S1024.Idx → BitVec 32) (ix1 r)).toNat < 131072)
    (hJ : ∀ r : Fin 1024, ((a.1 1 : S1024.Idx → BitVec 32) (ix1 r)).toNat < 131072) :
    (dat0 a V c).arrAt 2 (cfg0 a).N = gathered0 a V c hI hJ :=
  (dat0 a V c).arrAt_eq_of_cover 2 (gathered0 a V c hI hJ) (fun t _ => flushed_eq0 a V c hI hJ t) (cover0 a)

/-- Entry (r, u, v) of the first gather's result array after the run is entry (I r, u, v) of the gathered array as
    the region finds it less its entry (J r, u, v). -/
theorem gather0_final (c : Dev nD)
    (hI : ∀ r : Fin 1024, ((a.1 0 : S1024.Idx → BitVec 32) (ix1 r)).toNat < 131072)
    (hJ : ∀ r : Fin 1024, ((a.1 1 : S1024.Idx → BitVec 32) (ix1 r)).toNat < 131072)
    (r : Fin 1024) (u : Fin 2) (v : Fin 128) :
    ((dat0 a V c).arrAt 2 (cfg0 a).N : S1024x2x128.Idx → EReal) (ix3 r u v)
      = src0 V c (ix3 ⟨((a.1 0 : S1024.Idx → BitVec 32) (ix1 r)).toNat, hI r⟩ u v)
        - src0 V c (ix3 ⟨((a.1 1 : S1024.Idx → BitVec 32) (ix1 r)).toNat, hJ r⟩ u v) :=
  congrFun (final0 a V c hI hJ) (ix3 r u v)

end R0

/-! ## Region 2: rows of the [1024,2,128] array -/

section R2
variable (a : (pcfg2 (F := Ideal)).Adm)
variable (V : (c : Dev nD) → (b : Ref sig .tc) → Buf (Elt Ideal) ((c : Thread nD τ).loc b))

/-- The result window's block index at point t is (t, 0, 0). -/
theorem out_index2 (t : Fin (cfg2 a).N) : ((cfg2 a).win 2).index t = ![t.val, 0, 0] := by
  show cc2_transform_2 (grid2.coords t) = _
  unfold cc2_transform_2
  dsimp only
  rw [word_val _ (grid2.coords t 0).isLt, point_coord2]
  rfl

/-- The first input window's block index at point t is (the first table's entry at t, 0, 0); the second's is (the
    second table's entry at t, 0, 0). -/
theorem in_index2 (t : Fin (cfg2 a).N) (r : Fin 1024) (hr : r.val = t.val) :
    ((cfg2 a).win 0).index t = ![((a.1 0 : S1024.Idx → BitVec 32) (ix1 r)).toNat, 0, 0]
    ∧ ((cfg2 a).win 1).index t = ![((a.1 1 : S1024.Idx → BitVec 32) (ix1 r)).toNat, 0, 0] := by
  have e : grid2.coords t 0 = r := Fin.ext ((point_coord2 t).trans hr.symm)
  constructor
  · show cc2_transform_0 k2_off1_inb numel1_S1 a.1 (grid2.coords t) = _
    rw [(win2_index a.1 (grid2.coords t)).1, e]
  · show cc2_transform_1 k2_off1_inb numel1_S1 a.1 (grid2.coords t) = _
    rw [(win2_index a.1 (grid2.coords t)).2, e]

/-- The gathered array as the region finds it. -/
abbrev src2 (c : Dev nD) : S1024x2x128.Idx → EReal := V c main_v4

/-- Entry (r, u, v) of the result: entry (I r, u, v) of the gathered array less its entry (J r, u, v), I and J the
    two tables. -/
def rowDiff2 (c : Dev nD)
    (hI : ∀ r : Fin 1024, ((a.1 0 : S1024.Idx → BitVec 32) (ix1 r)).toNat < 1024)
    (hJ : ∀ r : Fin 1024, ((a.1 1 : S1024.Idx → BitVec 32) (ix1 r)).toNat < 1024)
    (r : Fin 1024) (u : Fin 2) (v : Fin 128) : EReal :=
  src2 V c (ix3 ⟨((a.1 0 : S1024.Idx → BitVec 32) (ix1 r)).toNat, hI r⟩ u v)
    - src2 V c (ix3 ⟨((a.1 1 : S1024.Idx → BitVec 32) (ix1 r)).toNat, hJ r⟩ u v)

/-- The whole result array as one function of the gathered array and the tables. -/
def gathered2 (c : Dev nD)
    (hI : ∀ r : Fin 1024, ((a.1 0 : S1024.Idx → BitVec 32) (ix1 r)).toNat < 1024)
    (hJ : ∀ r : Fin 1024, ((a.1 1 : S1024.Idx → BitVec 32) (ix1 r)).toNat < 1024) : S1024x2x128.Idx → EReal :=
  fun i => rowDiff2 a V c hI hJ (i 0) (i 1) (i 2)

/-- What point t writes back is block t of the whole-array function: the body leaves the difference of its two
    staged rows, the first staged from row I t of the gathered array, the second from its row J t, and block t of
    the result is row t (a block's coordinate is its index times its size plus the coordinate inside it). -/
theorem flushed_eq2 (c : Dev nD)
    (hI : ∀ r : Fin 1024, ((a.1 0 : S1024.Idx → BitVec 32) (ix1 r)).toNat < 1024)
    (hJ : ∀ r : Fin 1024, ((a.1 1 : S1024.Idx → BitVec 32) (ix1 r)).toNat < 1024) (t : Fin (cfg2 a).N) :
    (dat2 a V c).flushed 2 t = (((cfg2 a).win 2).blk t).view.read (Elt Ideal) (gathered2 a V c hI hJ) := by
  show ((cfg2 a).win 2).cut ((cfg2 a).grid.coords t) ((dat2 a V c).after 2 t) = _
  rw [after2_2]
  refine funext fun (j : S1x2x128.Idx) => ?_
  show outG2 (iblk2 a V c 0 t) (iblk2 a V c 1 t) j = gathered2 a V c hI hJ ((((cfg2 a).win 2).blk t).view.emb j)
  refine (outG2_apply (iblk2 a V c 0 t) (iblk2 a V c 1 t) j).trans ?_
  show src2 V c ((((cfg2 a).win 0).blk t).view.emb j) - src2 V c ((((cfg2 a).win 1).blk t).view.emb j) = _
  have ht : t.val < 1024 := lt_of_lt_of_eq t.isLt N_2
  have hj0 : (j 0).val < 1 := (j 0).isLt
  have hj1 : (j 1).val < 2 := (j 1).isLt
  have hj2 : (j 2).val < 128 := (j 2).isLt
  obtain ⟨e0, e1⟩ := in_index2 a t ⟨t.val, ht⟩ rfl
  have e2 := out_index2 a t
  have h0 : (((cfg2 a).win 0).blk t).view.emb j
      = ix3 (⟨((a.1 0 : S1024.Idx → BitVec 32) (ix1 (⟨t.val, ht⟩ : Fin 1024))).toNat, hI ⟨t.val, ht⟩⟩ : Fin 1024) (⟨(j 1).val, hj1⟩ : Fin 2) (⟨(j 2).val, hj2⟩ : Fin 128) := by
    funext d; apply Fin.ext
    match d with
    | ⟨0, _⟩ =>
      show ((cfg2 a).win 0).index t (0 : Fin 3) * 1 + 1 * (j 0).val = ((a.1 0 : S1024.Idx → BitVec 32) (ix1 (⟨t.val, ht⟩ : Fin 1024))).toNat
      rw [show ((cfg2 a).win 0).index t (0 : Fin 3) = ((a.1 0 : S1024.Idx → BitVec 32) (ix1 (⟨t.val, ht⟩ : Fin 1024))).toNat from congrFun e0 (0 : Fin 3)]; omega
    | ⟨1, _⟩ =>
      show ((cfg2 a).win 0).index t (1 : Fin 3) * 2 + 1 * (j 1).val = (j 1).val
      rw [show ((cfg2 a).win 0).index t (1 : Fin 3) = 0 from congrFun e0 (1 : Fin 3)]; omega
    | ⟨2, _⟩ =>
      show ((cfg2 a).win 0).index t (2 : Fin 3) * 128 + 1 * (j 2).val = (j 2).val
      rw [show ((cfg2 a).win 0).index t (2 : Fin 3) = 0 from congrFun e0 (2 : Fin 3)]; omega
  have h1 : (((cfg2 a).win 1).blk t).view.emb j
      = ix3 (⟨((a.1 1 : S1024.Idx → BitVec 32) (ix1 (⟨t.val, ht⟩ : Fin 1024))).toNat, hJ ⟨t.val, ht⟩⟩ : Fin 1024) (⟨(j 1).val, hj1⟩ : Fin 2) (⟨(j 2).val, hj2⟩ : Fin 128) := by
    funext d; apply Fin.ext
    match d with
    | ⟨0, _⟩ =>
      show ((cfg2 a).win 1).index t (0 : Fin 3) * 1 + 1 * (j 0).val = ((a.1 1 : S1024.Idx → BitVec 32) (ix1 (⟨t.val, ht⟩ : Fin 1024))).toNat
      rw [show ((cfg2 a).win 1).index t (0 : Fin 3) = ((a.1 1 : S1024.Idx → BitVec 32) (ix1 (⟨t.val, ht⟩ : Fin 1024))).toNat from congrFun e1 (0 : Fin 3)]; omega
    | ⟨1, _⟩ =>
      show ((cfg2 a).win 1).index t (1 : Fin 3) * 2 + 1 * (j 1).val = (j 1).val
      rw [show ((cfg2 a).win 1).index t (1 : Fin 3) = 0 from congrFun e1 (1 : Fin 3)]; omega
    | ⟨2, _⟩ =>
      show ((cfg2 a).win 1).index t (2 : Fin 3) * 128 + 1 * (j 2).val = (j 2).val
      rw [show ((cfg2 a).win 1).index t (2 : Fin 3) = 0 from congrFun e1 (2 : Fin 3)]; omega
  have h2 : (((cfg2 a).win 2).blk t).view.emb j
      = ix3 (⟨t.val, ht⟩ : Fin 1024) (⟨(j 1).val, hj1⟩ : Fin 2) (⟨(j 2).val, hj2⟩ : Fin 128) := by
    funext d; apply Fin.ext
    match d with
    | ⟨0, _⟩ =>
      show ((cfg2 a).win 2).index t (0 : Fin 3) * 1 + 1 * (j 0).val = t.val
      rw [show ((cfg2 a).win 2).index t (0 : Fin 3) = t.val from congrFun e2 (0 : Fin 3)]; omega
    | ⟨1, _⟩ =>
      show ((cfg2 a).win 2).index t (1 : Fin 3) * 2 + 1 * (j 1).val = (j 1).val
      rw [show ((cfg2 a).win 2).index t (1 : Fin 3) = 0 from congrFun e2 (1 : Fin 3)]; omega
    | ⟨2, _⟩ =>
      show ((cfg2 a).win 2).index t (2 : Fin 3) * 128 + 1 * (j 2).val = (j 2).val
      rw [show ((cfg2 a).win 2).index t (2 : Fin 3) = 0 from congrFun e2 (2 : Fin 3)]; omega
  rw [h0, h1, h2]
  rfl

/-- Every point writes its result block back: the result's block index moves at every point. -/
theorem flush_out2 (t : Fin (cfg2 a).N) : ((cfg2 a).win 2).flush t = true := by
  unfold Pipeline.Window.flush
  simp only [Bool.and_eq_true, Bool.or_eq_true, decide_eq_true_eq]
  refine ⟨rfl, ?_⟩
  have hN : t.val < (cfg2 a).grid.N := t.isLt
  by_cases h : t.val + 1 = (cfg2 a).grid.N
  · exact Or.inl h
  · have hlt : t.val + 1 < (cfg2 a).grid.N := by omega
    refine Or.inr ⟨hlt, ?_⟩
    rw [out_index2, out_index2]
    intro e
    have e0 : t.val + 1 = t.val := congrFun e (0 : Fin 3)
    omega

/-- An index of the result array is in point t's block iff each coordinate is in the block's range on its axis. -/
theorem mem_out_blk2 (t : Fin (cfg2 a).N) (i : S1024x2x128.Idx) :
    i ∈ (((cfg2 a).win 2).blk t).view.set ↔ ∀ d : Fin 3, ((cfg2 a).win 2).index t d * S1x2x128.size d ≤ (i d).val
      ∧ (i d).val < ((cfg2 a).win 2).index t d * S1x2x128.size d + S1x2x128.size d := by
  have e : (((cfg2 a).win 2).blk t).view.set = (((cfg2 a).win 2).rect t).set := View.set_slice_whole main_v5 _
  exact (e ▸ Iff.rfl : i ∈ (((cfg2 a).win 2).blk t).view.set ↔ i ∈ (((cfg2 a).win 2).rect t).set).trans Rect.mem_set_unit

/-- Every index of the result array is in the block of the point its row number names. -/
theorem cover2 (i : S1024x2x128.Idx) :
    ∃ t : Fin (cfg2 a).N, ((cfg2 a).win 2).flush t = true ∧ i ∈ (((cfg2 a).win 2).blk t).view.set := by
  have hi0 : (i 0).val < 1024 := (i 0).isLt
  have hi1 : (i 1).val < 2 := (i 1).isLt
  have hi2 : (i 2).val < 128 := (i 2).isLt
  refine ⟨⟨(i 0).val, lt_of_lt_of_eq hi0 N_2.symm⟩, flush_out2 a _, ?_⟩
  rw [mem_out_blk2]
  have e2 := out_index2 a ⟨(i 0).val, lt_of_lt_of_eq hi0 N_2.symm⟩
  intro d
  match d with
  | ⟨0, _⟩ =>
    show ((cfg2 a).win 2).index _ (0 : Fin 3) * 1 ≤ (i 0).val ∧ (i 0).val < ((cfg2 a).win 2).index _ (0 : Fin 3) * 1 + 1
    rw [show ((cfg2 a).win 2).index _ (0 : Fin 3) = (i 0).val from congrFun e2 (0 : Fin 3)]; omega
  | ⟨1, _⟩ =>
    show ((cfg2 a).win 2).index _ (1 : Fin 3) * 2 ≤ (i 1).val ∧ (i 1).val < ((cfg2 a).win 2).index _ (1 : Fin 3) * 2 + 2
    rw [show ((cfg2 a).win 2).index _ (1 : Fin 3) = 0 from congrFun e2 (1 : Fin 3)]; omega
  | ⟨2, _⟩ =>
    show ((cfg2 a).win 2).index _ (2 : Fin 3) * 128 ≤ (i 2).val ∧ (i 2).val < ((cfg2 a).win 2).index _ (2 : Fin 3) * 128 + 128
    rw [show ((cfg2 a).win 2).index _ (2 : Fin 3) = 0 from congrFun e2 (2 : Fin 3)]; omega

/-- The result array after the run is the whole-array function: every point writes back its block of it, and the
    blocks cover the array. -/
theorem final2 (c : Dev nD)
    (hI : ∀ r : Fin 1024, ((a.1 0 : S1024.Idx → BitVec 32) (ix1 r)).toNat < 1024)
    (hJ : ∀ r : Fin 1024, ((a.1 1 : S1024.Idx → BitVec 32) (ix1 r)).toNat < 1024) :
    (dat2 a V c).arrAt 2 (cfg2 a).N = gathered2 a V c hI hJ :=
  (dat2 a V c).arrAt_eq_of_cover 2 (gathered2 a V c hI hJ) (fun t _ => flushed_eq2 a V c hI hJ t) (cover2 a)

/-- Entry (r, u, v) of the second gather's result array after the run is entry (I r, u, v) of the gathered array as
    the region finds it less its entry (J r, u, v). -/
theorem gather2_final (c : Dev nD)
    (hI : ∀ r : Fin 1024, ((a.1 0 : S1024.Idx → BitVec 32) (ix1 r)).toNat < 1024)
    (hJ : ∀ r : Fin 1024, ((a.1 1 : S1024.Idx → BitVec 32) (ix1 r)).toNat < 1024)
    (r : Fin 1024) (u : Fin 2) (v : Fin 128) :
    ((dat2 a V c).arrAt 2 (cfg2 a).N : S1024x2x128.Idx → EReal) (ix3 r u v)
      = src2 V c (ix3 ⟨((a.1 0 : S1024.Idx → BitVec 32) (ix1 r)).toNat, hI r⟩ u v)
        - src2 V c (ix3 ⟨((a.1 1 : S1024.Idx → BitVec 32) (ix1 r)).toNat, hJ r⟩ u v) :=
  congrFun (final2 a V c hI hJ) (ix3 r u v)

end R2

end Cert.KernelIdeal.HandV

end
-- ==== Proof.Spec.lean ====
import Idealize.ShloMosaic.PureOps.Ideal
import Idealize.ShloMosaic.Lib.ValueIdx
import Mathlib.Algebra.BigOperators.Fin

/-!
# What the program computes, over the extended reals

A table `T` of `n` rows of 256 numbers and two lists `I`, `J` of 1024 row numbers give the table of differences
`gdiff T I J`: its row `r` is row `I r` of `T` less row `J r` of `T`. A table `X` of 1024 rows of 256 numbers gives
the matrix of L1 distances `cdist X`: entry `(p, q)` is the sum over the 256 columns `d` of `|X p d - X q d|`.
The program returns `cdist (gdiff Z I₀ J₀)` and `cdist (gdiff (gdiff Z I₀ J₀) I₁ J₁)`.
-/

noncomputable section

namespace Cert.Spec

open Idealize.ShloMosaic Idealize.ShloMosaic.ValueIdx

/-- The absolute value on the extended reals, as the larger of a number and its negative. -/
def eabs (x : EReal) : EReal := max x (-x)

/-- Row `k` of a table of `n` rows, read at column `d`; zero when `k` names no row. -/
def rowAt {n : Nat} (T : (⟨2, ![n, 256]⟩ : Shape).Idx → EReal) (k : Nat) (d : Fin 256) : EReal :=
  if h : k < n then T (ix2 ⟨k, h⟩ d) else 0

/-- Entry `(r, d)` of the table of differences: row `I r` of `T` less row `J r` of `T`, at column `d`. -/
def gdiffAt {n : Nat} (T : (⟨2, ![n, 256]⟩ : Shape).Idx → EReal) (I J : (⟨1, ![1024]⟩ : Shape).Idx → BitVec 32)
    (r : Fin 1024) (d : Fin 256) : EReal :=
  rowAt T (I (ix1 r)).toNat d - rowAt T (J (ix1 r)).toNat d

/-- The table of differences. -/
def gdiff {n : Nat} (T : (⟨2, ![n, 256]⟩ : Shape).Idx → EReal) (I J : (⟨1, ![1024]⟩ : Shape).Idx → BitVec 32) :
    (⟨2, ![1024, 256]⟩ : Shape).Idx → EReal :=
  fun y => gdiffAt T I J (y 0) (y 1)

/-- Entry `(p, q)` of the matrix of L1 distances between the rows of `X`. -/
def cdistAt (X : (⟨2, ![1024, 256]⟩ : Shape).Idx → EReal) (p q : Fin 1024) : EReal :=
  ∑ d : Fin 256, eabs (X (ix2 p d) - X (ix2 q d))

/-- The matrix of L1 distances between the rows of `X`. -/
def cdist (X : (⟨2, ![1024, 256]⟩ : Shape).Idx → EReal) : (⟨2, ![1024, 1024]⟩ : Shape).Idx → EReal :=
  fun y => cdistAt X (y 0) (y 1)

theorem gdiff_apply {n : Nat} (T : (⟨2, ![n, 256]⟩ : Shape).Idx → EReal) (I J : (⟨1, ![1024]⟩ : Shape).Idx → BitVec 32)
    (r : Fin 1024) (d : Fin 256) : gdiff T I J (ix2 r d) = gdiffAt T I J r d := rfl

theorem cdist_apply (X : (⟨2, ![1024, 256]⟩ : Shape).Idx → EReal) (p q : Fin 1024) :
    cdist X (ix2 p q) = cdistAt X p q := rfl

/-- A row that exists is read off the table. -/
theorem rowAt_of_lt {n : Nat} (T : (⟨2, ![n, 256]⟩ : Shape).Idx → EReal) {k : Nat} (h : k < n) (d : Fin 256) :
    rowAt T k d = T (ix2 ⟨k, h⟩ d) := by
  unfold rowAt; rw [dif_pos h]

end Cert.Spec

end
-- ==== Proof.KI_ValPay.lean ====
/-
  The value the pairwise L1-distance kernel's body leaves in its output block, read at an entry: the sum over the
  256 columns of the absolute differences of the two rows.
-/
import proofs.«412525_j6176162972381_4_alg».proof.Proof.KI_BodyC
import proofs.«412525_j6176162972381_4_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Data.Fintype.BigOperators
import Mathlib.Algebra.BigOperators.Group.Finset.Basic

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic
open Idealize.ShloMosaic.ValueIdx

/-! ## Layout operations of the chunk, read at an entry -/

section Layout
variable {α : Type}

/-- An `[a, b]` array cast to `[a, 1, b]` reads, at `(i, u, j)`, the operand at `(i, j)`: the two entries have the
    same row-major position, the unit coordinate being `0`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ValueIdx.ix3 i u j) = x (ValueIdx.ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ValueIdx.ix3 i j k) = v (ValueIdx.ix3 i (0 : Fin 1) k) := by
  refine broadcastTo_apply v h (ValueIdx.ix3 i j k) (ValueIdx.ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ValueIdx.ix3 i j k) = v (ValueIdx.ix3 (0 : Fin 1) j k) := by
  refine broadcastTo_apply v h (ValueIdx.ix3 i j k) (ValueIdx.ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Layout

/-! ## One chunk of 32 columns -/

/-- One term of a chunk: the two blocks cut at column `o`, the first viewed `[64,1,32]` and the second `[1,128,32]`, both
    spread to `[64,128,32]`, subtracted and the absolute value taken, read at `(i, j, k)`: `|a(i, o + k) − b(j, o + k)|`
    (the absolute value of an extended real is the larger of it and its negative). -/
theorem chunk_term (o : ℕ) (a : FVec Ideal S64x256 .f32) (b : FVec Ideal S128x256 .f32)
    (hsa : S64x256.Slices ![0, o] S64x32) (hsb : S128x256.Slices ![0, o] S128x32)
    (hca : S64x32.ShapeCasts S64x1x32) (hcb : S128x32.ShapeCasts S1x128x32)
    (hba : S64x1x32.Broadcasts S64x128x32) (hbb : S1x128x32.Broadcasts S64x128x32)
    (ho : o + 32 ≤ 256) (i : Fin 64) (j : Fin 128) (k : Fin 32) :
    absf (subf (broadcastTo S64x128x32 (shapeCast S64x1x32 (extractStridedSlice S64x32 ![0, o] a hsa) hca) hba)
          (broadcastTo S64x128x32 (shapeCast S1x128x32 (extractStridedSlice S128x32 ![0, o] b hsb) hcb) hbb)) (ValueIdx.ix3 i j k)
      = Cert.Spec.eabs (a (ValueIdx.ix2 i ⟨o + k.val, by omega⟩) - b (ValueIdx.ix2 j ⟨o + k.val, by omega⟩)) := by
  show max _ (-_) = Cert.Spec.eabs _
  unfold Cert.Spec.eabs
  rw [subf_apply, broadcastTo_a1c_abc_apply, broadcastTo_1bc_abc_apply, shapeCast_ab_a1b_apply, shapeCast_ab_1ab_apply,
    slice2_axis1_eq, slice2_axis1_eq]

/-- The chunk of the 32 columns from `o`: those terms summed over the last axis. At entry `(i, j)` it is the sum over the
    32 columns `k` of `|a(i, o + k) − b(j, o + k)|`. -/
theorem chunk_apply (o : ℕ) (a : FVec Ideal S64x256 .f32) (b : FVec Ideal S128x256 .f32)
    (hsa : S64x256.Slices ![0, o] S64x32) (hsb : S128x256.Slices ![0, o] S128x32)
    (hca : S64x32.ShapeCasts S64x1x32) (hcb : S128x32.ShapeCasts S1x128x32)
    (hba : S64x1x32.Broadcasts S64x128x32) (hbb : S1x128x32.Broadcasts S64x128x32)
    (hr : S64x128x32.Reduces [2] S64x128) (hφ : FKind.Formats .f32)
    (hacc : (0x00000000#32 : BitVec 32) = 0x00000000#32) (ho : o + 32 ≤ 256) (i : Fin 64) (j : Fin 128) :
    multiReduction (F := Ideal) .add [2] S64x128
        (absf (subf (broadcastTo S64x128x32 (shapeCast S64x1x32 (extractStridedSlice S64x32 ![0, o] a hsa) hca) hba)
          (broadcastTo S64x128x32 (shapeCast S1x128x32 (extractStridedSlice S128x32 ![0, o] b hsb) hcb) hbb)))
        0x00000000#32 hr hφ hacc (ValueIdx.ix2 i j)
      = ∑ k : Fin 32, Cert.Spec.eabs (a (ValueIdx.ix2 i ⟨o + k.val, by omega⟩) - b (ValueIdx.ix2 j ⟨o + k.val, by omega⟩)) := by
  refine (Ideal.multiReduction_add_single _ 0x00000000#32 hr hφ hacc (ValueIdx.ix2 i j)).trans ?_
  refine Finset.sum_congr rfl fun k _ => ?_
  have hl : hr.lift (ValueIdx.ix2 i j) k = ValueIdx.ix3 i j k := by
    funext c; match c with | ⟨0, _⟩ => rfl | ⟨1, _⟩ => rfl | ⟨2, _⟩ => rfl
  exact (congrArg _ hl).trans (chunk_term o a b hsa hsb hca hcb hba hbb ho i j k)

/-! ## Eight chunks make the whole sum -/

/-- A function of the 256 columns continued by zero to every natural number. -/
def colExt (f : Fin 256 → EReal) (n : ℕ) : EReal := if h : n < 256 then f ⟨n, h⟩ else 0

/-- The sum over a chunk's 32 columns, as a sum over the naturals below 32. -/
theorem chunk_eq_range (f : Fin 256 → EReal) (o : ℕ) (ho : o + 32 ≤ 256) :
    ∑ k : Fin 32, f ⟨o + k.val, by omega⟩ = ∑ k ∈ Finset.range 32, colExt f (o + k) := by
  rw [← Fin.sum_univ_eq_sum_range (fun k => colExt f (o + k)) 32]
  refine Finset.sum_congr rfl fun k _ => ?_
  unfold colExt
  rw [dif_pos (by omega)]

/-- The sum over all 256 columns, as a sum over the naturals below 256. -/
theorem cols_eq_range (f : Fin 256 → EReal) : ∑ d : Fin 256, f d = ∑ n ∈ Finset.range 256, colExt f n := by
  rw [← Fin.sum_univ_eq_sum_range (colExt f) 256]
  refine Finset.sum_congr rfl fun d _ => ?_
  unfold colExt
  rw [dif_pos d.isLt]

/-- Zero plus the eight chunk sums, added one after the other from column 0, is the sum over all 256 columns: the
    naturals below 256 are those below 224 and the 32 from 224, and so on down (extended reals under addition are a
    commutative monoid, so no finiteness is needed). -/
theorem sum_eight_chunks (f : Fin 256 → EReal) :
    0 + (∑ k : Fin 32, f ⟨0 + k.val, by omega⟩) + (∑ k : Fin 32, f ⟨32 + k.val, by omega⟩)
        + (∑ k : Fin 32, f ⟨64 + k.val, by omega⟩) + (∑ k : Fin 32, f ⟨96 + k.val, by omega⟩)
        + (∑ k : Fin 32, f ⟨128 + k.val, by omega⟩) + (∑ k : Fin 32, f ⟨160 + k.val, by omega⟩)
        + (∑ k : Fin 32, f ⟨192 + k.val, by omega⟩) + (∑ k : Fin 32, f ⟨224 + k.val, by omega⟩)
      = ∑ d : Fin 256, f d := by
  have h := fun n => Finset.sum_range_add (colExt f) n 32
  rw [chunk_eq_range f 0 (by omega), chunk_eq_range f 32 (by omega), chunk_eq_range f 64 (by omega),
    chunk_eq_range f 96 (by omega), chunk_eq_range f 128 (by omega), chunk_eq_range f 160 (by omega),
    chunk_eq_range f 192 (by omega), chunk_eq_range f 224 (by omega), cols_eq_range,
    show Finset.range 256 = Finset.range (224 + 32) from rfl, h 224,
    show Finset.range 224 = Finset.range (192 + 32) from rfl, h 192,
    show Finset.range 192 = Finset.range (160 + 32) from rfl, h 160,
    show Finset.range 160 = Finset.range (128 + 32) from rfl, h 128,
    show Finset.range 128 = Finset.range (96 + 32) from rfl, h 96,
    show Finset.range 96 = Finset.range (64 + 32) from rfl, h 64,
    show Finset.range 64 = Finset.range (32 + 32) from rfl, h 32,
    zero_add]
  simp only [Nat.zero_add]

/-! ## The body's value at an entry -/

/-- The offsets of a whole-block access are all zero. -/
theorem off_zero : (![0, 0] : Fin 2 → ℕ) = fun _ => 0 := by
  funext a; match a with | ⟨0, _⟩ => rfl | ⟨1, _⟩ => rfl

/-- The zero word is the extended real zero. -/
theorem zero_word : (FloatOps.ofBits (F := Ideal) .f32 0x00000000#32 : EReal) = 0 := Ideal.ofBits_zero_f32

/-- The first launch's stored value at entry `(i, j)`: zero plus the eight chunks added one after the other (the casts of
    the two blocks to their own shapes are the identity), which together are the sum over the 256 columns of
    `|v0(i, d) − v2(j, d)|`. -/
theorem valC1_apply (v0 : Vec Ideal S64x256 .f32) (v2 : Vec Ideal S128x256 .f32) (i : Fin 64) (j : Fin 128) :
    valC1 v0 v2 (ValueIdx.ix2 i j) = ∑ d : Fin 256, Cert.Spec.eabs (v0 (ValueIdx.ix2 i d) - v2 (ValueIdx.ix2 j d)) := by
  unfold valC1 k1_pay1 k1_pay4 k1_pay5 k1_pay6 k1_pay2 k1_pay3
  simp only [shapeCast_self, addf_apply, broadcast_apply]
  rw [chunk_apply 0 (ho := by omega), chunk_apply 32 (ho := by omega), chunk_apply 64 (ho := by omega),
    chunk_apply 96 (ho := by omega), chunk_apply 128 (ho := by omega), chunk_apply 160 (ho := by omega),
    chunk_apply 192 (ho := by omega), chunk_apply 224 (ho := by omega)]
  refine Eq.trans ?_ (sum_eight_chunks fun d => Cert.Spec.eabs (v0 (ValueIdx.ix2 i d) - v2 (ValueIdx.ix2 j d)))
  exact congrArg (fun z : EReal => z + _ + _ + _ + _ + _ + _ + _ + _) zero_word

/-- The second launch's stored value at entry `(i, j)`: the same text, so the same sum. -/
theorem valC3_apply (v0 : Vec Ideal S64x256 .f32) (v2 : Vec Ideal S128x256 .f32) (i : Fin 64) (j : Fin 128) :
    valC3 v0 v2 (ValueIdx.ix2 i j) = ∑ d : Fin 256, Cert.Spec.eabs (v0 (ValueIdx.ix2 i d) - v2 (ValueIdx.ix2 j d)) := by
  unfold valC3 k3_pay1 k3_pay4 k3_pay5 k3_pay6 k3_pay2 k3_pay3
  simp only [shapeCast_self, addf_apply, broadcast_apply]
  rw [chunk_apply 0 (ho := by omega), chunk_apply 32 (ho := by omega), chunk_apply 64 (ho := by omega),
    chunk_apply 96 (ho := by omega), chunk_apply 128 (ho := by omega), chunk_apply 160 (ho := by omega),
    chunk_apply 192 (ho := by omega), chunk_apply 224 (ho := by omega)]
  refine Eq.trans ?_ (sum_eight_chunks fun d => Cert.Spec.eabs (v0 (ValueIdx.ix2 i d) - v2 (ValueIdx.ix2 j d)))
  exact congrArg (fun z : EReal => z + _ + _ + _ + _ + _ + _ + _ + _) zero_word

/-! ## The output block after the body, at an entry -/

/-- The output block after the first launch's body, at entry `(i, j)`: the one whole store leaves its payload, the two
    whole loads read the blocks, so it is the sum over the 256 columns `d` of `|x0(i, d) − x1(j, d)|`. -/
theorem outC1_apply (x0 : Vec Ideal S64x256 .f32) (x1 : Vec Ideal S128x256 .f32) (i : Fin 64) (j : Fin 128) :
    outC1 x0 x1 (ValueIdx.ix2 i j) = ∑ d : Fin 256, Cert.Spec.eabs (x0 (ValueIdx.ix2 i d) - x1 (ValueIdx.ix2 j d)) := by
  unfold outC1
  rw [View.canon_unit_zero off_zero, View.ld_unit_zero off_zero, View.ld_unit_zero off_zero]
  exact valC1_apply x0 x1 i j

/-- The same for the second launch. -/
theorem outC3_apply (x0 : Vec Ideal S64x256 .f32) (x1 : Vec Ideal S128x256 .f32) (i : Fin 64) (j : Fin 128) :
    outC3 x0 x1 (ValueIdx.ix2 i j) = ∑ d : Fin 256, Cert.Spec.eabs (x0 (ValueIdx.ix2 i d) - x1 (ValueIdx.ix2 j d)) := by
  unfold outC3
  rw [View.canon_unit_zero off_zero, View.ld_unit_zero off_zero, View.ld_unit_zero off_zero]
  exact valC3_apply x0 x1 i j

end Cert.KernelIdeal.HandV

end
-- ==== Proof.KI_ValC.lean ====
import proofs.«412525_j6176162972381_4_alg».proof.Proof.KI_Dat1
import proofs.«412525_j6176162972381_4_alg».proof.Proof.KI_Dat3
import proofs.«412525_j6176162972381_4_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

/-! # From the blocks the two distance launches write to their output arrays, over the extended reals

Each of the two launches runs over a grid of 16 by 8 points. At point `t` it reads the block of 64 rows numbered
`t / 8` and the block of 128 rows numbered `t % 8` of ONE table of 1024 rows of 256 numbers, and writes the
`[64,128]` block `(t / 8, t % 8)` of a `[1024,1024]` array. Given that the body's value at entry `(i, j)` is the sum
over the 256 columns of the absolute differences of row `i` of the first block and row `j` of the second, the array
ends holding, at every `(p, q)`, the L1 distance between rows `p` and `q` of the table. -/

variable (V : (c : Dev nD) → (b : Ref sig .tc) → Buf (Elt Ideal) ((c : Thread nD τ).loc b))

/-! ## Region 1: the matrix of distances of the rows of `main_v2` -/

/-- The matrix the region's output array ends holding: entry `(p, q)` is the L1 distance between rows `p` and `q` of
    the table the region finds in its input array. -/
def distMat1 (c : Dev nD) : S1024x1024.Idx → EReal :=
  fun y => Cert.Spec.cdistAt (V c main_v2 : S1024x256.Idx → EReal) (y 0) (y 1)

theorem distMat1_apply (c : Dev nD) (p q : Fin 1024) :
    distMat1 V c (ValueIdx.ix2 p q) = Cert.Spec.cdistAt (V c main_v2 : S1024x256.Idx → EReal) p q := rfl

/-- The printed index maps over the grid's 128 points: at point `t` the first input's block is the one of rows
    `t / 8`, the second input's the one of rows `t % 8`, both at column block 0, and the output's block is
    `(t / 8, t % 8)`. -/
theorem blockIndex1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = t.val % 8 :=
  (by decide +kernel : ∀ t : Fin grid1.N, _)

/-- Row `i` of the first input's block at point `t` is row `64 (t / 8) + i` of the table. -/
theorem rowsA1 (c : Dev nD) (t : Fin cfg1.N) (i : Fin 64) (d : Fin 256) (k : Fin 1024)
    (hk : k.val = 64 * (t.val / 8) + i.val) :
    (iblk1 V c 0 t : S64x256.Idx → EReal) (ValueIdx.ix2 i d) = (V c main_v2 : S1024x256.Idx → EReal) (ValueIdx.ix2 k d) := by
  obtain ⟨e0, e1, -, -, -, -⟩ := blockIndex1 t
  unfold iblk1
  rw [View.read_apply]
  show V c main_v2 _ = V c main_v2 _
  congr 1
  funext a
  apply Fin.ext
  match a with
  | ⟨0, _⟩ => show win1_0.index t (0 : Fin 2) * 64 + 1 * i.val = k.val; rw [e0, hk]; omega
  | ⟨1, _⟩ => show win1_0.index t (1 : Fin 2) * 256 + 1 * d.val = d.val; rw [e1]; omega

/-- Row `j` of the second input's block at point `t` is row `128 (t % 8) + j` of the table. -/
theorem rowsB1 (c : Dev nD) (t : Fin cfg1.N) (j : Fin 128) (d : Fin 256) (k : Fin 1024)
    (hk : k.val = 128 * (t.val % 8) + j.val) :
    (iblk1 V c 1 t : S128x256.Idx → EReal) (ValueIdx.ix2 j d) = (V c main_v2 : S1024x256.Idx → EReal) (ValueIdx.ix2 k d) := by
  obtain ⟨-, -, e0, e1, -, -⟩ := blockIndex1 t
  unfold iblk1
  rw [View.read_apply]
  show V c main_v2 _ = V c main_v2 _
  congr 1
  funext a
  apply Fin.ext
  match a with
  | ⟨0, _⟩ => show win1_1.index t (0 : Fin 2) * 128 + 1 * j.val = k.val; rw [e0, hk]; omega
  | ⟨1, _⟩ => show win1_1.index t (1 : Fin 2) * 256 + 1 * d.val = d.val; rw [e1]; omega

/-- What point `t` writes back is block `(t / 8, t % 8)` of the matrix of distances: its entry `(i, j)` is the sum
    over the columns of the absolute differences of row `i` of the first block and row `j` of the second, and those
    are rows `64 (t / 8) + i` and `128 (t % 8) + j` of the table, the rows the output block's entry `(i, j)` names. -/
theorem flushed1_eq
    (hpay : ∀ (x0 : Vec Ideal S64x256 .f32) (x1 : Vec Ideal S128x256 .f32) (i : Fin 64) (j : Fin 128),
      outC1 x0 x1 (ValueIdx.ix2 i j) = ∑ d : Fin 256, Cert.Spec.eabs (x0 (ValueIdx.ix2 i d) - x1 (ValueIdx.ix2 j d)))
    (c : Dev nD) (t : Fin cfg1.N) :
    (dat1 V c).flushed 2 t = ((cfg1.win 2).blk t).view.read (Elt Ideal) (distMat1 V c) := by
  show (cfg1.win 2).cut (grid1.coords t) ((dat1 V c).after 2 t) = _
  rw [after1_2]
  obtain ⟨-, -, -, -, e0, e1⟩ := blockIndex1 t
  refine funext fun (y : S64x128.Idx) => ?_
  obtain ⟨i, j, rfl⟩ : ∃ (i : Fin 64) (j : Fin 128), y = ValueIdx.ix2 i j := ⟨y 0, y 1, eq_ix2 y⟩
  rw [View.read_apply]
  show outC1 (iblk1 V c 0 t) (iblk1 V c 1 t) (ValueIdx.ix2 i j) = distMat1 V c (((cfg1.win 2).blk t).view.emb (ValueIdx.ix2 i j))
  have hi := i.isLt
  have hj := j.isLt
  have ht : t.val < 128 := lt_of_lt_of_eq t.isLt (show cfg1.N = 128 from N_1)
  have hr : ((cfg1.win 2).blk t).view.emb (ValueIdx.ix2 i j)
      = ValueIdx.ix2 (⟨64 * (t.val / 8) + i.val, by omega⟩ : Fin 1024) (⟨128 * (t.val % 8) + j.val, by omega⟩ : Fin 1024) := by
    funext a
    apply Fin.ext
    match a with
    | ⟨0, _⟩ => show win1_2.index t (0 : Fin 2) * 64 + 1 * i.val = 64 * (t.val / 8) + i.val; rw [e0]; omega
    | ⟨1, _⟩ => show win1_2.index t (1 : Fin 2) * 128 + 1 * j.val = 128 * (t.val % 8) + j.val; rw [e1]; omega
  rw [hr, distMat1_apply, hpay]
  unfold Cert.Spec.cdistAt
  refine Finset.sum_congr rfl fun d _ => ?_
  rw [rowsA1 V c t i d ⟨64 * (t.val / 8) + i.val, by omega⟩ rfl, rowsB1 V c t j d ⟨128 * (t.val % 8) + j.val, by omega⟩ rfl]

/-- An entry of the output array is in point `t`'s block iff each coordinate is in the block's range on its axis. -/
theorem mem_block1 (t : Fin cfg1.N) (y : S1024x1024.Idx) :
    y ∈ ((cfg1.win 2).blk t).view.set ↔ ∀ a : Fin 2, win1_2.index t a * S64x128.size a ≤ (y a).val ∧ (y a).val < win1_2.index t a * S64x128.size a + S64x128.size a := by
  show y ∈ ((View.whole main_v3).slice (win1_2.rect t)).set ↔ _
  rw [View.set_slice_whole, Rect.mem_set_unit]
  exact Iff.rfl

/-- Every entry `(p, q)` of the output array is in the block of the point `8 (p / 64) + q / 128`: that point's block
    is `(p / 64, q / 128)`, rows `64 (p / 64) … + 63` and columns `128 (q / 128) … + 127`. -/
theorem cover1 (y : S1024x1024.Idx) :
    ∃ t : Fin cfg1.N, (cfg1.win 2).flush t = true ∧ y ∈ ((cfg1.win 2).blk t).view.set := by
  have h0 : (y 0).val < 1024 := (y 0).isLt
  have h1 : (y 1).val < 1024 := (y 1).isLt
  refine ⟨⟨8 * ((y 0).val / 64) + (y 1).val / 128, by rw [show cfg1.N = 128 from N_1]; omega⟩, flush1_2 _, ?_⟩
  rw [mem_block1]
  obtain ⟨-, -, -, -, e0, e1⟩ := blockIndex1 ⟨8 * ((y 0).val / 64) + (y 1).val / 128, by rw [show cfg1.N = 128 from N_1]; omega⟩
  intro a
  match a with
  | ⟨0, _⟩ =>
    show win1_2.index _ (0 : Fin 2) * 64 ≤ (y 0).val ∧ (y 0).val < win1_2.index _ (0 : Fin 2) * 64 + 64
    rw [e0]
    show (8 * ((y 0).val / 64) + (y 1).val / 128) / 8 * 64 ≤ (y 0).val ∧ (y 0).val < (8 * ((y 0).val / 64) + (y 1).val / 128) / 8 * 64 + 64
    omega
  | ⟨1, _⟩ =>
    show win1_2.index _ (1 : Fin 2) * 128 ≤ (y 1).val ∧ (y 1).val < win1_2.index _ (1 : Fin 2) * 128 + 128
    rw [e1]
    show (8 * ((y 0).val / 64) + (y 1).val / 128) % 8 * 128 ≤ (y 1).val ∧ (y 1).val < (8 * ((y 0).val / 64) + (y 1).val / 128) % 8 * 128 + 128
    omega

/-- The output array after the region's run is the matrix of distances: every point writes its block of that one
    matrix, and the blocks cover the array. -/
theorem cdist1_final
    (hpay1 : ∀ (x0 : Vec Ideal S64x256 .f32) (x1 : Vec Ideal S128x256 .f32) (i : Fin 64) (j : Fin 128),
      outC1 x0 x1 (ValueIdx.ix2 i j) = ∑ d : Fin 256, Cert.Spec.eabs (x0 (ValueIdx.ix2 i d) - x1 (ValueIdx.ix2 j d)))
    (V : (c : Dev nD) → (b : Ref sig .tc) → Buf (Elt Ideal) ((c : Thread nD τ).loc b)) (c : Dev nD) (p q : Fin 1024) :
    ((dat1 V c).arrAt 2 cfg1.N : S1024x1024.Idx → EReal) (ValueIdx.ix2 p q)
      = Cert.Spec.cdistAt (V c main_v2 : S1024x256.Idx → EReal) p q := by
  have h := (dat1 V c).arrAt_eq_of_cover 2 (distMat1 V c) (fun t _ => flushed1_eq V hpay1 c t) (cover1)
  exact (congrFun h (ValueIdx.ix2 p q)).trans (distMat1_apply V c p q)

/-! ## Region 3: the matrix of distances of the rows of `main_v6`

The second distance launch has the first one's grid, block sizes and index maps, over the table `main_v6` and the
output array `main_v7`; the same steps give its array. -/

/-- The matrix the region's output array ends holding: entry `(p, q)` is the L1 distance between rows `p` and `q` of
    the table the region finds in its input array. -/
def distMat3 (c : Dev nD) : S1024x1024.Idx → EReal :=
  fun y => Cert.Spec.cdistAt (V c main_v6 : S1024x256.Idx → EReal) (y 0) (y 1)

theorem distMat3_apply (c : Dev nD) (p q : Fin 1024) :
    distMat3 V c (ValueIdx.ix2 p q) = Cert.Spec.cdistAt (V c main_v6 : S1024x256.Idx → EReal) p q := rfl

/-- The printed index maps over the grid's 128 points: at point `t` the first input's block is the one of rows
    `t / 8`, the second input's the one of rows `t % 8`, both at column block 0, and the output's block is
    `(t / 8, t % 8)`. -/
theorem blockIndex3 : ∀ t : Fin cfg3.N,
    win3_0.index t (0 : Fin 2) = t.val / 8 ∧ win3_0.index t (1 : Fin 2) = 0
    ∧ win3_1.index t (0 : Fin 2) = t.val % 8 ∧ win3_1.index t (1 : Fin 2) = 0
    ∧ win3_2.index t (0 : Fin 2) = t.val / 8 ∧ win3_2.index t (1 : Fin 2) = t.val % 8 :=
  (by decide +kernel : ∀ t : Fin grid3.N, _)

/-- Row `i` of the first input's block at point `t` is row `64 (t / 8) + i` of the table. -/
theorem rowsA3 (c : Dev nD) (t : Fin cfg3.N) (i : Fin 64) (d : Fin 256) (k : Fin 1024)
    (hk : k.val = 64 * (t.val / 8) + i.val) :
    (iblk3 V c 0 t : S64x256.Idx → EReal) (ValueIdx.ix2 i d) = (V c main_v6 : S1024x256.Idx → EReal) (ValueIdx.ix2 k d) := by
  obtain ⟨e0, e1, -, -, -, -⟩ := blockIndex3 t
  unfold iblk3
  rw [View.read_apply]
  show V c main_v6 _ = V c main_v6 _
  congr 1
  funext a
  apply Fin.ext
  match a with
  | ⟨0, _⟩ => show win3_0.index t (0 : Fin 2) * 64 + 1 * i.val = k.val; rw [e0, hk]; omega
  | ⟨1, _⟩ => show win3_0.index t (1 : Fin 2) * 256 + 1 * d.val = d.val; rw [e1]; omega

/-- Row `j` of the second input's block at point `t` is row `128 (t % 8) + j` of the table. -/
theorem rowsB3 (c : Dev nD) (t : Fin cfg3.N) (j : Fin 128) (d : Fin 256) (k : Fin 1024)
    (hk : k.val = 128 * (t.val % 8) + j.val) :
    (iblk3 V c 1 t : S128x256.Idx → EReal) (ValueIdx.ix2 j d) = (V c main_v6 : S1024x256.Idx → EReal) (ValueIdx.ix2 k d) := by
  obtain ⟨-, -, e0, e1, -, -⟩ := blockIndex3 t
  unfold iblk3
  rw [View.read_apply]
  show V c main_v6 _ = V c main_v6 _
  congr 1
  funext a
  apply Fin.ext
  match a with
  | ⟨0, _⟩ => show win3_1.index t (0 : Fin 2) * 128 + 1 * j.val = k.val; rw [e0, hk]; omega
  | ⟨1, _⟩ => show win3_1.index t (1 : Fin 2) * 256 + 1 * d.val = d.val; rw [e1]; omega

/-- What point `t` writes back is block `(t / 8, t % 8)` of the matrix of distances: its entry `(i, j)` is the sum
    over the columns of the absolute differences of row `i` of the first block and row `j` of the second, and those
    are rows `64 (t / 8) + i` and `128 (t % 8) + j` of the table, the rows the output block's entry `(i, j)` names. -/
theorem flushed3_eq
    (hpay : ∀ (x0 : Vec Ideal S64x256 .f32) (x1 : Vec Ideal S128x256 .f32) (i : Fin 64) (j : Fin 128),
      outC3 x0 x1 (ValueIdx.ix2 i j) = ∑ d : Fin 256, Cert.Spec.eabs (x0 (ValueIdx.ix2 i d) - x1 (ValueIdx.ix2 j d)))
    (c : Dev nD) (t : Fin cfg3.N) :
    (dat3 V c).flushed 2 t = ((cfg3.win 2).blk t).view.read (Elt Ideal) (distMat3 V c) := by
  show (cfg3.win 2).cut (grid3.coords t) ((dat3 V c).after 2 t) = _
  rw [after3_2]
  obtain ⟨-, -, -, -, e0, e1⟩ := blockIndex3 t
  refine funext fun (y : S64x128.Idx) => ?_
  obtain ⟨i, j, rfl⟩ : ∃ (i : Fin 64) (j : Fin 128), y = ValueIdx.ix2 i j := ⟨y 0, y 1, eq_ix2 y⟩
  rw [View.read_apply]
  show outC3 (iblk3 V c 0 t) (iblk3 V c 1 t) (ValueIdx.ix2 i j) = distMat3 V c (((cfg3.win 2).blk t).view.emb (ValueIdx.ix2 i j))
  have hi := i.isLt
  have hj := j.isLt
  have ht : t.val < 128 := lt_of_lt_of_eq t.isLt (show cfg3.N = 128 from N_3)
  have hr : ((cfg3.win 2).blk t).view.emb (ValueIdx.ix2 i j)
      = ValueIdx.ix2 (⟨64 * (t.val / 8) + i.val, by omega⟩ : Fin 1024) (⟨128 * (t.val % 8) + j.val, by omega⟩ : Fin 1024) := by
    funext a
    apply Fin.ext
    match a with
    | ⟨0, _⟩ => show win3_2.index t (0 : Fin 2) * 64 + 1 * i.val = 64 * (t.val / 8) + i.val; rw [e0]; omega
    | ⟨1, _⟩ => show win3_2.index t (1 : Fin 2) * 128 + 1 * j.val = 128 * (t.val % 8) + j.val; rw [e1]; omega
  rw [hr, distMat3_apply, hpay]
  unfold Cert.Spec.cdistAt
  refine Finset.sum_congr rfl fun d _ => ?_
  rw [rowsA3 V c t i d ⟨64 * (t.val / 8) + i.val, by omega⟩ rfl, rowsB3 V c t j d ⟨128 * (t.val % 8) + j.val, by omega⟩ rfl]

/-- An entry of the output array is in point `t`'s block iff each coordinate is in the block's range on its axis. -/
theorem mem_block3 (t : Fin cfg3.N) (y : S1024x1024.Idx) :
    y ∈ ((cfg3.win 2).blk t).view.set ↔ ∀ a : Fin 2, win3_2.index t a * S64x128.size a ≤ (y a).val ∧ (y a).val < win3_2.index t a * S64x128.size a + S64x128.size a := by
  show y ∈ ((View.whole main_v7).slice (win3_2.rect t)).set ↔ _
  rw [View.set_slice_whole, Rect.mem_set_unit]
  exact Iff.rfl

/-- Every entry `(p, q)` of the output array is in the block of the point `8 (p / 64) + q / 128`: that point's block
    is `(p / 64, q / 128)`, rows `64 (p / 64) … + 63` and columns `128 (q / 128) … + 127`. -/
theorem cover3 (y : S1024x1024.Idx) :
    ∃ t : Fin cfg3.N, (cfg3.win 2).flush t = true ∧ y ∈ ((cfg3.win 2).blk t).view.set := by
  have h0 : (y 0).val < 1024 := (y 0).isLt
  have h1 : (y 1).val < 1024 := (y 1).isLt
  refine ⟨⟨8 * ((y 0).val / 64) + (y 1).val / 128, by rw [show cfg3.N = 128 from N_3]; omega⟩, flush3_2 _, ?_⟩
  rw [mem_block3]
  obtain ⟨-, -, -, -, e0, e1⟩ := blockIndex3 ⟨8 * ((y 0).val / 64) + (y 1).val / 128, by rw [show cfg3.N = 128 from N_3]; omega⟩
  intro a
  match a with
  | ⟨0, _⟩ =>
    show win3_2.index _ (0 : Fin 2) * 64 ≤ (y 0).val ∧ (y 0).val < win3_2.index _ (0 : Fin 2) * 64 + 64
    rw [e0]
    show (8 * ((y 0).val / 64) + (y 1).val / 128) / 8 * 64 ≤ (y 0).val ∧ (y 0).val < (8 * ((y 0).val / 64) + (y 1).val / 128) / 8 * 64 + 64
    omega
  | ⟨1, _⟩ =>
    show win3_2.index _ (1 : Fin 2) * 128 ≤ (y 1).val ∧ (y 1).val < win3_2.index _ (1 : Fin 2) * 128 + 128
    rw [e1]
    show (8 * ((y 0).val / 64) + (y 1).val / 128) % 8 * 128 ≤ (y 1).val ∧ (y 1).val < (8 * ((y 0).val / 64) + (y 1).val / 128) % 8 * 128 + 128
    omega

/-- The output array after the region's run is the matrix of distances: every point writes its block of that one
    matrix, and the blocks cover the array. -/
theorem cdist3_final
    (hpay3 : ∀ (x0 : Vec Ideal S64x256 .f32) (x1 : Vec Ideal S128x256 .f32) (i : Fin 64) (j : Fin 128),
      outC3 x0 x1 (ValueIdx.ix2 i j) = ∑ d : Fin 256, Cert.Spec.eabs (x0 (ValueIdx.ix2 i d) - x1 (ValueIdx.ix2 j d)))
    (V : (c : Dev nD) → (b : Ref sig .tc) → Buf (Elt Ideal) ((c : Thread nD τ).loc b)) (c : Dev nD) (p q : Fin 1024) :
    ((dat3 V c).arrAt 2 cfg3.N : S1024x1024.Idx → EReal) (ValueIdx.ix2 p q)
      = Cert.Spec.cdistAt (V c main_v6 : S1024x256.Idx → EReal) p q := by
  have h := (dat3 V c).arrAt_eq_of_cover 2 (distMat3 V c) (fun t _ => flushed3_eq V hpay3 c t) (cover3)
  exact (congrFun h (ValueIdx.ix2 p q)).trans (distMat3_apply V c p q)

end Cert.KernelIdeal.HandV

end
-- ==== Proof.KI_ValHost.lean ====
import proofs.«412525_j6176162972381_4_alg».proof.Proof.KI_Regions
import Idealize.ShloMosaic.Lib.Pipeline.Value
import Idealize.ShloMosaic.Lib.ValueIdx
import Idealize.ShloMosaic.Lib.StableHlo.Run

/-!
# What the host reshapes leave, read at an index

Each host stretch of the program is one reshape, and a reshape keeps every entry's row-major position: entry
`(r, u, v)` of an array of shape `[·, 2, 128]` is entry `(r, 128·u + v)` of the array of shape `[·, 256]` with the same
entries, and entry `(r, d)` of the latter is entry `(r, d / 128, d % 128)` of the former. The array a reshape reads is the
one its operand held just before the stretch: the launch array, or what the region before it left in its result buffer,
or an array no region in between has touched.
-/

set_option maxRecDepth 16384

noncomputable section

namespace Cert.KernelIdeal.HandV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf arrRef RegionSeg)
open Idealize.ShloMosaic.ValueIdx Cert.KernelIdeal.Hand

variable (m : (ℓ : Loc nD τ sig) → Buf (Elt Ideal) ℓ) (a : (p : Fin 4) → (pcfgs (F := Ideal) p).Adm) (c : Dev nD)

/-- The first host stretch is one reshape: the rank-3 array it leaves is the launch array of rank 2, cast. -/
theorem W1_v0_cast : (W1 m c main_v0 : S131072x2x128.Idx → EReal)
    = shapeCast S131072x2x128 (m ((c : Thread nD τ).loc main_arg0) : S131072x256.Idx → EReal) shapeCasts_S131072x256_S131072x2x128 := by
  show StableHlo.after hostOps0 (V0 m c) (Proc.devRef .tc main_v0) = _
  after_results
  rfl

/-- Entry `(r, u, v)` of the reshaped launch array is entry `(r, 128·u + v)` of the launch array: both sit at row-major
    position `256·r + 128·u + v`. -/
theorem W1_v0 (r : Fin 131072) (u : Fin 2) (v : Fin 128) :
    (W1 m c main_v0 : S131072x2x128.Idx → EReal) (ValueIdx.ix3 r u v)
      = (m ((c : Thread nD τ).loc main_arg0) : S131072x256.Idx → EReal) (ValueIdx.ix2 r ⟨128 * u.val + v.val, by omega⟩) := by
  rw [W1_v0_cast]
  exact shapeCast_apply _ _ (ValueIdx.ix3 r u v) (ValueIdx.ix2 r ⟨128 * u.val + v.val, by omega⟩) (by
    rw [Shape.rowMajor_val_two, Shape.rowMajor_val_three]
    show r.val * 256 + (128 * u.val + v.val) = (r.val * 2 + u.val) * 128 + v.val
    omega)

/-- The second host stretch is one reshape of what region 0 left in its result buffer (the valuation before the stretch,
    read at the buffer just overwritten, is the overwriting array). -/
theorem W3_v2_cast : (W3 m a c main_v2 : S1024x256.Idx → EReal)
    = shapeCast S1024x256 (o1 m a c : S1024x2x128.Idx → EReal) shapeCasts_S1024x2x128_S1024x256 := by
  show StableHlo.after hostOps1 (W2 m a c) (Proc.devRef .tc main_v2) = _
  after_results
  rw [show W2 m a c (Proc.devRef .tc main_v1) = o1 m a c from
    Function.update_self (Proc.devRef .tc main_v1 : DevRef τ sig) (o1 m a c) (W1 m c)]
  rfl

/-- Entry `(r, d)` of the reshaped result of region 0 is its entry `(r, d / 128, d % 128)`: both sit at row-major position
    `256·r + d`, as `d = 128·(d / 128) + d % 128`. -/
theorem W3_v2 (r : Fin 1024) (d : Fin 256) :
    (W3 m a c main_v2 : S1024x256.Idx → EReal) (ValueIdx.ix2 r d)
      = (o1 m a c : S1024x2x128.Idx → EReal) (ValueIdx.ix3 r ⟨d.val / 128, by omega⟩ ⟨d.val % 128, by omega⟩) := by
  rw [W3_v2_cast]
  exact shapeCast_apply _ _ (ValueIdx.ix2 r d) (ValueIdx.ix3 r ⟨d.val / 128, by omega⟩ ⟨d.val % 128, by omega⟩) (by
    rw [Shape.rowMajor_val_two, Shape.rowMajor_val_three]
    show (r.val * 2 + d.val / 128) * 128 + d.val % 128 = r.val * 256 + d.val
    omega)

/-- The third host stretch is one reshape of the rank-2 array the second stretch left, which region 1 did not touch (it
    overwrites another buffer). -/
theorem W5_v4_cast : (W5 m a c main_v4 : S1024x2x128.Idx → EReal)
    = shapeCast S1024x2x128 (W3 m a c main_v2 : S1024x256.Idx → EReal) shapeCasts_S1024x256_S1024x2x128 := by
  have e : (StableHlo.after hostOps2 (W4 m a c) (Proc.devRef .tc main_v4) : S1024x2x128.Idx → EReal)
      = shapeCast S1024x2x128 (W4 m a c (Proc.devRef .tc main_v2) : S1024x256.Idx → EReal) shapeCasts_S1024x256_S1024x2x128 := by
    after_results
    rfl
  have e' : W4 m a c (Proc.devRef .tc main_v2) = W3 m a c (Proc.devRef .tc main_v2) :=
    Function.update_of_ne (StableHlo.devRef_ne_of_ne v2_ne_v3) _ _
  rw [e'] at e
  exact e

/-- Entry `(r, u, v)` of the rank-3 array is entry `(r, 128·u + v)` of the rank-2 array it was reshaped from. -/
theorem W5_v4 (r : Fin 1024) (u : Fin 2) (v : Fin 128) :
    (W5 m a c main_v4 : S1024x2x128.Idx → EReal) (ValueIdx.ix3 r u v)
      = (W3 m a c main_v2 : S1024x256.Idx → EReal) (ValueIdx.ix2 r ⟨128 * u.val + v.val, by omega⟩) := by
  rw [W5_v4_cast]
  exact shapeCast_apply _ _ (ValueIdx.ix3 r u v) (ValueIdx.ix2 r ⟨128 * u.val + v.val, by omega⟩) (by
    rw [Shape.rowMajor_val_two, Shape.rowMajor_val_three]
    show r.val * 256 + (128 * u.val + v.val) = (r.val * 2 + u.val) * 128 + v.val
    omega)

/-- The fourth host stretch is one reshape of what region 2 left in its result buffer. -/
theorem W7_v6_cast : (W7 m a c main_v6 : S1024x256.Idx → EReal)
    = shapeCast S1024x256 (o5 m a c : S1024x2x128.Idx → EReal) shapeCasts_S1024x2x128_S1024x256 := by
  show StableHlo.after hostOps3 (W6 m a c) (Proc.devRef .tc main_v6) = _
  after_results
  rw [show W6 m a c (Proc.devRef .tc main_v5) = o5 m a c from
    Function.update_self (Proc.devRef .tc main_v5 : DevRef τ sig) (o5 m a c) (W5 m a c)]
  rfl

/-- Entry `(r, d)` of the reshaped result of region 2 is its entry `(r, d / 128, d % 128)`. -/
theorem W7_v6 (r : Fin 1024) (d : Fin 256) :
    (W7 m a c main_v6 : S1024x256.Idx → EReal) (ValueIdx.ix2 r d)
      = (o5 m a c : S1024x2x128.Idx → EReal) (ValueIdx.ix3 r ⟨d.val / 128, by omega⟩ ⟨d.val % 128, by omega⟩) := by
  rw [W7_v6_cast]
  exact shapeCast_apply _ _ (ValueIdx.ix2 r d) (ValueIdx.ix3 r ⟨d.val / 128, by omega⟩ ⟨d.val % 128, by omega⟩) (by
    rw [Shape.rowMajor_val_two, Shape.rowMajor_val_three]
    show (r.val * 2 + d.val / 128) * 128 + d.val % 128 = r.val * 256 + d.val
    omega)

end Cert.KernelIdeal.HandV

end
-- ==== Proof.KI_Value.lean ====
import proofs.«412525_j6176162972381_4_alg».proof.Proof.KI_Frame
import proofs.«412525_j6176162972381_4_alg».proof.Proof.KI_ValG
import proofs.«412525_j6176162972381_4_alg».proof.Proof.KI_ValPay
import proofs.«412525_j6176162972381_4_alg».proof.Proof.KI_ValC
import proofs.«412525_j6176162972381_4_alg».proof.Proof.KI_ValHost
import proofs.«412525_j6176162972381_4_alg».proof.Proof.Spec

/-!
# What the idealized program leaves in its two result buffers

Region by region, over the extended reals: the first region's rows are rows of the input table subtracted, so after
the reshape the second region reads the table of differences `D`; its blocks of distances tile the matrix of L1
distances of `D`. The third region gathers rows of `D` (reshaped back), so the fourth reads the table of differences
of `D`, and leaves its matrix of L1 distances. A reshape between [.,256] and [.,2,128] keeps the row and sends column
`d` to `(d / 128, d % 128)`.
-/

set_option maxRecDepth 16384

noncomputable section

namespace Cert.KernelIdeal.HandV

open Cert.KernelIdeal Cert.KernelIdeal.Gen Cert.KernelIdeal.Hand
open Idealize.ShloMosaic Idealize.ShloMosaic.TcCoe
open Idealize.SL Idealize.SL.Sem

variable (m : (ℓ : Loc nD τ sig) → Buf (Elt Ideal) ℓ)

/-- The input table and the four lists of row numbers, as the launch memory of a core holds them. -/
abbrev tZ (c : Dev nD) : S131072x256.Idx → EReal := m ((c.tc : Thread nD τ).loc main_arg0)
abbrev tI0 (c : Dev nD) : S1024.Idx → BitVec 32 := m ((c.tc : Thread nD τ).loc main_arg1)
abbrev tJ0 (c : Dev nD) : S1024.Idx → BitVec 32 := m ((c.tc : Thread nD τ).loc main_arg2)
abbrev tI1 (c : Dev nD) : S1024.Idx → BitVec 32 := m ((c.tc : Thread nD τ).loc main_arg3)
abbrev tJ1 (c : Dev nD) : S1024.Idx → BitVec 32 := m ((c.tc : Thread nD τ).loc main_arg4)

/-- The first table of differences, its matrix of distances, and the matrix of distances of the second table. -/
abbrev diff1 (c : Dev nD) : S1024x256.Idx → EReal := Cert.Spec.gdiff (tZ m c) (tI0 m c) (tJ0 m c)
abbrev first (c : Dev nD) : Buf (Elt Ideal) ((c.tc : Thread nD τ).loc main_v3) := Cert.Spec.cdist (diff1 m c)
abbrev second (c : Dev nD) : Buf (Elt Ideal) ((c.tc : Thread nD τ).loc main_v7) :=
  Cert.Spec.cdist (Cert.Spec.gdiff (diff1 m c) (tI1 m c) (tJ1 m c))

variable (hok0 : ok0 (F := Ideal) (tbl0 m)) (hok2 : ok2 (F := Ideal) (tbl2 m))
variable (r1 : ∀ r : Fin 1024, (tI0 m 0 (ValueIdx.ix1 r)).toNat < 131072) (r2 : ∀ r : Fin 1024, (tJ0 m 0 (ValueIdx.ix1 r)).toNat < 131072)
variable (r3 : ∀ r : Fin 1024, (tI1 m 0 (ValueIdx.ix1 r)).toNat < 1024) (r4 : ∀ r : Fin 1024, (tJ1 m 0 (ValueIdx.ix1 r)).toNat < 1024)

/-- Column `d` of a [.,256] row is column `(d / 128, d % 128)` of its [.,2,128] reshape and back. -/
theorem col_back (d : Fin 256) (h : 128 * (d.val / 128) + d.val % 128 < 256) : (⟨128 * (d.val / 128) + d.val % 128, h⟩ : Fin 256) = d :=
  Fin.ext (by show 128 * (d.val / 128) + d.val % 128 = d.val; omega)

include r1 r2 in
/-- The second region reads the first table of differences. -/
theorem W3_is_diff1 : (W3 m (adm m hok0 hok2) 0 main_v2 : S1024x256.Idx → EReal) = diff1 m 0 := by
  funext y
  obtain ⟨r, d, rfl⟩ : ∃ (r : Fin 1024) (d : Fin 256), y = ValueIdx.ix2 r d := ⟨y 0, y 1, ValueIdx.eq_ix2 y⟩
  rw [W3_v2 m (adm m hok0 hok2) 0 r d]
  unfold o1
  rw [gather0_final (a0 (adm m hok0 hok2)) (rd (W1 m)) 0 r1 r2 r _ _]
  dsimp only [src0, rd]
  rw [W1_v0 m 0, W1_v0 m 0]
  show _ = Cert.Spec.gdiffAt (tZ m 0) (tI0 m 0) (tJ0 m 0) r d
  unfold Cert.Spec.gdiffAt
  rw [Cert.Spec.rowAt_of_lt _ (r1 r), Cert.Spec.rowAt_of_lt _ (r2 r)]
  simp only [col_back]
  rfl

include r1 r2 in
/-- The second region leaves the matrix of distances of the first table of differences. -/
theorem o3_eq : o3 m (adm m hok0 hok2) 0 = first m 0 := by
  funext y
  obtain ⟨p, q, rfl⟩ : ∃ (p q : Fin 1024), y = ValueIdx.ix2 p q := ⟨y 0, y 1, ValueIdx.eq_ix2 y⟩
  unfold o3
  rw [cdist1_final outC1_apply (rd (W3 m (adm m hok0 hok2))) 0 p q]
  show Cert.Spec.cdistAt (W3 m (adm m hok0 hok2) 0 main_v2 : S1024x256.Idx → EReal) p q = Cert.Spec.cdistAt (diff1 m 0) p q
  rw [W3_is_diff1 m hok0 hok2 r1 r2]

include r1 r2 r3 r4 in
/-- The fourth region reads the table of differences of the first table of differences. -/
theorem W7_is_diff2 : (W7 m (adm m hok0 hok2) 0 main_v6 : S1024x256.Idx → EReal) = Cert.Spec.gdiff (diff1 m 0) (tI1 m 0) (tJ1 m 0) := by
  funext y
  obtain ⟨r, d, rfl⟩ : ∃ (r : Fin 1024) (d : Fin 256), y = ValueIdx.ix2 r d := ⟨y 0, y 1, ValueIdx.eq_ix2 y⟩
  rw [W7_v6 m (adm m hok0 hok2) 0 r d]
  unfold o5
  rw [gather2_final (a2 (adm m hok0 hok2)) (rd (W5 m (adm m hok0 hok2))) 0 r3 r4 r _ _]
  dsimp only [src2, rd]
  rw [W5_v4 m (adm m hok0 hok2) 0, W5_v4 m (adm m hok0 hok2) 0, W3_is_diff1 m hok0 hok2 r1 r2]
  show _ = Cert.Spec.gdiffAt (diff1 m 0) (tI1 m 0) (tJ1 m 0) r d
  unfold Cert.Spec.gdiffAt
  rw [Cert.Spec.rowAt_of_lt _ (r3 r), Cert.Spec.rowAt_of_lt _ (r4 r)]
  simp only [col_back]
  rfl

include r1 r2 r3 r4 in
/-- The fourth region leaves the matrix of distances of the second table of differences. -/
theorem o7_eq : o7 m (adm m hok0 hok2) 0 = second m 0 := by
  funext y
  obtain ⟨p, q, rfl⟩ : ∃ (p q : Fin 1024), y = ValueIdx.ix2 p q := ⟨y 0, y 1, ValueIdx.eq_ix2 y⟩
  unfold o7
  rw [cdist3_final outC3_apply (rd (W7 m (adm m hok0 hok2))) 0 p q]
  show Cert.Spec.cdistAt (W7 m (adm m hok0 hok2) 0 main_v6 : S1024x256.Idx → EReal) p q = Cert.Spec.cdistAt (Cert.Spec.gdiff (diff1 m 0) (tI1 m 0) (tJ1 m 0)) p q
  rw [W7_is_diff2 m hok0 hok2 r1 r2 r3 r4]

end Cert.KernelIdeal.HandV

end
-- ==== Proof.RefValue.lean ====
/-
  The reference program's two results, read at the extended reals, are the specification's functions.

  A list of 1024 row numbers reaches a gather as a [1024, 1] column of words, each word first wrapped when negative:
  a word below the table's height, which is below 2^31, is a non-negative signed word, so the wrap keeps it, and the
  gather's clamp into the table's rows keeps it too: row r of a gathered table is the row of the operand that word
  names. The first table of differences is therefore `gdiff Z a1 a2`, and the second, gathered from the first,
  `gdiff (gdiff Z a1 a2) a3 a4`. Each result matrix is, at (p, q), the value 0 of the zero word plus the sum over the
  256 columns d of |X (p, d) - X (q, d)| with X the table of differences: the two broadcasts to [1024, 1024, 256]
  read X at (p, d) and (q, d), and the absolute value of an extended real x is max x (-x). That is `cdist X`.
-/
import proofs.«412525_j6176162972381_4_alg».proof.Proof.Gen.ReferenceIdeal.Run
import proofs.«412525_j6176162972381_4_alg».proof.Proof.Gen.ReferenceIdeal.Read
import proofs.«412525_j6176162972381_4_alg».proof.Proof.Spec
import Idealize.ShloMosaic.Lib.ValueIdx
import Idealize.ShloMosaic.Lib.Pipeline.Value
import Idealize.ShloMosaic.PureOps.Ideal.Laws
import Idealize.ShloMosaic.Lib.StableHlo.Predicate

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-! ## Words: an index word below a small bound is a non-negative signed word -/

/-- A word whose unsigned value is below 2^31 is not signed-below zero. -/
theorem not_slt_zero {w : BitVec 32} (h : w.toNat < 2 ^ 31) : ¬ IntOp.cmpi .slt w 0#32 = 1#1 := by
  intro h'
  have := (Predicate.slt_iff_toNat (a := w) (b := 0#32) h (by decide)).mp h'
  exact absurd this (Nat.not_lt_zero _)

/-- Its signed value, as a natural number, is its unsigned value. -/
theorem toInt_toNat {w : BitVec 32} (h : w.toNat < 2 ^ 31) : w.toInt.toNat = w.toNat := by
  rw [BitVec.toInt_eq_toNat_cond, if_pos (by omega)]
  exact Int.toNat_natCast _

/-- The wrap of negatives leaves such a word: the select takes its third operand. -/
theorem wrap_eq {w : BitVec 32} (n : BitVec 32) (h : w.toNat < 2 ^ 31) :
    Scalar.select (IntOp.cmpi .slt w 0#32) (IntOp.addi w n) w = w := if_neg (not_slt_zero h)

/-! ## The row gather read at an index -/

/-- The dimension numbers of a gather of whole rows of an [N, 256] table at a [1024, 1] column of row numbers. -/
abbrev rowDims (N : Nat)
    (wf : GatherDims.WF ⟨2, ![N, 256]⟩ ⟨2, ![1024, 1]⟩ ⟨2, ![1024, 256]⟩ [1] [0] [] [0] [] 1 ![1, 256]) :
    GatherDims ⟨2, ![N, 256]⟩ ⟨2, ![1024, 1]⟩ ⟨2, ![1024, 256]⟩ where
  offsetDims := [1]
  collapsedSliceDims := [0]
  operandBatchingDims := []
  startIndicesBatchingDims := []
  startIndexMap := [0]
  indexVectorDim := 1
  sliceSizes := ![1, 256]
  wf := wf

/-- Entry (r, d) of the gathered table is the table at (the start word of row r, read signed and clamped into the
    table's rows; d). -/
theorem gather_row_apply {α : Type} {N w : Nat} (hN : 0 < N)
    (wf : GatherDims.WF ⟨2, ![N, 256]⟩ ⟨2, ![1024, 1]⟩ ⟨2, ![1024, 256]⟩ [1] [0] [] [0] [] 1 ![1, 256])
    (x : (⟨2, ![N, 256]⟩ : Shape).Idx → α) (idx : IVec ⟨2, ![1024, 1]⟩ w) (r : Fin 1024) (d : Fin 256) :
    Host.gather (rowDims N wf) x idx (ix2 r d)
      = x (ix2 ⟨min (idx (ix2 r (0 : Fin 1))).toInt.toNat (N - 1), by omega⟩ d) := by
  unfold Host.gather
  congr 1
  funext a
  refine Fin.ext ?_
  match a with
  | ⟨0, _⟩ =>
    show (rowDims N wf).start (ix2 r d) idx 0 + (rowDims N wf).batchCoord (ix2 r d) 0 + (rowDims N wf).offCoord (ix2 r d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N wf).startIndexMap from List.mem_singleton.mpr rfl)]
    have hsi : (rowDims N wf).siIdx (ix2 r d) ⟨List.idxOf (0 : Fin 2) (rowDims N wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N wf).start (ix2 r d) idx 1 + (rowDims N wf).batchCoord (ix2 r d) 1 + (rowDims N wf).offCoord (ix2 r d) 1 = d.val
    rw [GatherDims.batchCoord_eq_zero _ _ _ List.not_mem_nil]
    have hs : (rowDims N wf).start (ix2 r d) idx 1 = 0 := by
      unfold GatherDims.start
      rw [dif_neg (show ¬ (1 : Fin 2) ∈ ([0] : List (Fin 2)) by decide)]
    rw [hs]
    simp only [Nat.add_zero, Nat.zero_add]
    rfl

/-! ## The start words: the wrap of negatives keeps an in-range word -/

/-- The start word the gather reads for row r is the word of `a1` at r: the column of wrapped words read at (r, 0) is the
    wrapped word at r, the comparison with the zero word fails on a non-negative signed word, the select keeps the word. -/
theorem start1 (a1 : IVec S1024 32) (r : Fin 1024) (h : (a1 (ix1 r)).toNat < 2 ^ 31) :
    val_main_v5 (F := Ideal) a1 (ix2 r (0 : Fin 1)) = a1 (ix1 r) := by
  have e : idx_main_v5 (ix2 r (0 : Fin 1)) = ix1 r :=
    funext fun k => Fin.ext (by match k with | ⟨0, _⟩ => rfl)
  rw [val_main_v5_apply, e, val_main_v4_apply, val_main_v1_apply, val_main_v3_apply, val_main_v0_apply, val_main_c_apply]
  exact wrap_eq _ h

/-- The start word the gather reads for row r is the word of `a2` at r: the column of wrapped words read at (r, 0) is the
    wrapped word at r, the comparison with the zero word fails on a non-negative signed word, the select keeps the word. -/
theorem start2 (a2 : IVec S1024 32) (r : Fin 1024) (h : (a2 (ix1 r)).toNat < 2 ^ 31) :
    val_main_v12 (F := Ideal) a2 (ix2 r (0 : Fin 1)) = a2 (ix1 r) := by
  have e : idx_main_v12 (ix2 r (0 : Fin 1)) = ix1 r :=
    funext fun k => Fin.ext (by match k with | ⟨0, _⟩ => rfl)
  rw [val_main_v12_apply, e, val_main_v11_apply, val_main_v8_apply, val_main_v10_apply, val_main_v7_apply, val_main_c_1_apply]
  exact wrap_eq _ h

/-- The start word the gather reads for row r is the word of `a3` at r: the column of wrapped words read at (r, 0) is the
    wrapped word at r, the comparison with the zero word fails on a non-negative signed word, the select keeps the word. -/
theorem start3 (a3 : IVec S1024 32) (r : Fin 1024) (h : (a3 (ix1 r)).toNat < 2 ^ 31) :
    val_main_v27 (F := Ideal) a3 (ix2 r (0 : Fin 1)) = a3 (ix1 r) := by
  have e : idx_main_v27 (ix2 r (0 : Fin 1)) = ix1 r :=
    funext fun k => Fin.ext (by match k with | ⟨0, _⟩ => rfl)
  rw [val_main_v27_apply, e, val_main_v26_apply, val_main_v23_apply, val_main_v25_apply, val_main_v22_apply, val_main_c_3_apply]
  exact wrap_eq _ h

/-- The start word the gather reads for row r is the word of `a4` at r: the column of wrapped words read at (r, 0) is the
    wrapped word at r, the comparison with the zero word fails on a non-negative signed word, the select keeps the word. -/
theorem start4 (a4 : IVec S1024 32) (r : Fin 1024) (h : (a4 (ix1 r)).toNat < 2 ^ 31) :
    val_main_v34 (F := Ideal) a4 (ix2 r (0 : Fin 1)) = a4 (ix1 r) := by
  have e : idx_main_v34 (ix2 r (0 : Fin 1)) = ix1 r :=
    funext fun k => Fin.ext (by match k with | ⟨0, _⟩ => rfl)
  rw [val_main_v34_apply, e, val_main_v33_apply, val_main_v30_apply, val_main_v32_apply, val_main_v29_apply, val_main_c_5_apply]
  exact wrap_eq _ h

/-! ## The four gathers read at an index -/

/-- The clamped signed start word is the word's unsigned value when that is a row number of the table. -/
theorem clamp_eq {w : BitVec 32} {N : Nat} (h : w.toNat < N) (hN : N ≤ 2 ^ 31) : min w.toInt.toNat (N - 1) = w.toNat := by
  rw [toInt_toNat (by omega)]; omega

variable (Z : FVec Ideal S131072x256 .f32) (a1 a2 a3 a4 : IVec S1024 32)

/-- The first gather: row r is row `a1 r` of `Z`. -/
theorem v6_apply (h1 : ∀ r : Fin 1024, (a1 (ix1 r)).toNat < 131072) (r : Fin 1024) (d : Fin 256) :
    val_main_v6 (F := Ideal) Z a1 (ix2 r d) = Z (ix2 ⟨(a1 (ix1 r)).toNat, h1 r⟩ d) := by
  unfold val_main_v6
  refine (gather_row_apply (by decide) gather_S131072x256_S1024x1_S1024x256_1_0_n_n_0_1_1256_wf Z (val_main_v5 (F := Ideal) a1) r d).trans ?_
  refine congrArg (fun p => Z (ix2 p d)) (Fin.ext ?_)
  show min (val_main_v5 (F := Ideal) a1 (ix2 r (0 : Fin 1))).toInt.toNat (131072 - 1) = (a1 (ix1 r)).toNat
  rw [start1 a1 r (by have := h1 r; omega)]
  exact clamp_eq (h1 r) (by decide)

/-- The second gather: row r is row `a2 r` of `Z`. -/
theorem v13_apply (h2 : ∀ r : Fin 1024, (a2 (ix1 r)).toNat < 131072) (r : Fin 1024) (d : Fin 256) :
    val_main_v13 (F := Ideal) Z a2 (ix2 r d) = Z (ix2 ⟨(a2 (ix1 r)).toNat, h2 r⟩ d) := by
  unfold val_main_v13
  refine (gather_row_apply (by decide) gather_S131072x256_S1024x1_S1024x256_1_0_n_n_0_1_1256_wf Z (val_main_v12 (F := Ideal) a2) r d).trans ?_
  refine congrArg (fun p => Z (ix2 p d)) (Fin.ext ?_)
  show min (val_main_v12 (F := Ideal) a2 (ix2 r (0 : Fin 1))).toInt.toNat (131072 - 1) = (a2 (ix1 r)).toNat
  rw [start2 a2 r (by have := h2 r; omega)]
  exact clamp_eq (h2 r) (by decide)

/-- The table of differences of the first stage is the specification's. -/
theorem v14_eq (h1 : ∀ r : Fin 1024, (a1 (ix1 r)).toNat < 131072) (h2 : ∀ r : Fin 1024, (a2 (ix1 r)).toNat < 131072) :
    val_main_v14 (F := Ideal) Z a1 a2 = Cert.Spec.gdiff Z a1 a2 := by
  funext y
  obtain ⟨r, d, rfl⟩ : ∃ (r : Fin 1024) (d : Fin 256), y = ix2 r d := ⟨y 0, y 1, eq_ix2 y⟩
  rw [val_main_v14_apply, v6_apply Z a1 h1, v13_apply Z a2 h2, Cert.Spec.gdiff_apply]
  unfold Cert.Spec.gdiffAt
  rw [Cert.Spec.rowAt_of_lt _ (h1 r), Cert.Spec.rowAt_of_lt _ (h2 r)]
  rfl

/-- The third gather: row r is row `a3 r` of the first table of differences. -/
theorem v28_apply (h3 : ∀ r : Fin 1024, (a3 (ix1 r)).toNat < 1024) (r : Fin 1024) (d : Fin 256) :
    val_main_v28 (F := Ideal) Z a1 a2 a3 (ix2 r d) = val_main_v14 (F := Ideal) Z a1 a2 (ix2 ⟨(a3 (ix1 r)).toNat, h3 r⟩ d) := by
  unfold val_main_v28
  generalize val_main_v14 (F := Ideal) Z a1 a2 = X
  refine (gather_row_apply (by decide) gather_S1024x256_S1024x1_S1024x256_1_0_n_n_0_1_1256_wf X (val_main_v27 (F := Ideal) a3) r d).trans ?_
  refine congrArg (fun p => X (ix2 p d)) (Fin.ext ?_)
  show min (val_main_v27 (F := Ideal) a3 (ix2 r (0 : Fin 1))).toInt.toNat (1024 - 1) = (a3 (ix1 r)).toNat
  rw [start3 a3 r (by have := h3 r; omega)]
  exact clamp_eq (h3 r) (by decide)

/-- The fourth gather: row r is row `a4 r` of the first table of differences. -/
theorem v35_apply (h4 : ∀ r : Fin 1024, (a4 (ix1 r)).toNat < 1024) (r : Fin 1024) (d : Fin 256) :
    val_main_v35 (F := Ideal) Z a1 a2 a4 (ix2 r d) = val_main_v14 (F := Ideal) Z a1 a2 (ix2 ⟨(a4 (ix1 r)).toNat, h4 r⟩ d) := by
  unfold val_main_v35
  generalize val_main_v14 (F := Ideal) Z a1 a2 = X
  refine (gather_row_apply (by decide) gather_S1024x256_S1024x1_S1024x256_1_0_n_n_0_1_1256_wf X (val_main_v34 (F := Ideal) a4) r d).trans ?_
  refine congrArg (fun p => X (ix2 p d)) (Fin.ext ?_)
  show min (val_main_v34 (F := Ideal) a4 (ix2 r (0 : Fin 1))).toInt.toNat (1024 - 1) = (a4 (ix1 r)).toNat
  rw [start4 a4 r (by have := h4 r; omega)]
  exact clamp_eq (h4 r) (by decide)

/-- The table of differences of the second stage is the specification's, taken of the first one. -/
theorem v36_eq (h1 : ∀ r : Fin 1024, (a1 (ix1 r)).toNat < 131072) (h2 : ∀ r : Fin 1024, (a2 (ix1 r)).toNat < 131072)
    (h3 : ∀ r : Fin 1024, (a3 (ix1 r)).toNat < 1024) (h4 : ∀ r : Fin 1024, (a4 (ix1 r)).toNat < 1024) :
    val_main_v36 (F := Ideal) Z a1 a2 a3 a4 = Cert.Spec.gdiff (Cert.Spec.gdiff Z a1 a2) a3 a4 := by
  funext y
  obtain ⟨r, d, rfl⟩ : ∃ (r : Fin 1024) (d : Fin 256), y = ix2 r d := ⟨y 0, y 1, eq_ix2 y⟩
  rw [val_main_v36_apply, v28_apply Z a1 a2 a3 h3, v35_apply Z a1 a2 a4 h4, v14_eq Z a1 a2 h1 h2,
    Cert.Spec.gdiff_apply (Cert.Spec.gdiff Z a1 a2) a3 a4 r d]
  unfold Cert.Spec.gdiffAt
  rw [Cert.Spec.rowAt_of_lt _ (h3 r), Cert.Spec.rowAt_of_lt _ (h4 r)]
  rfl

/-! ## The two matrices of L1 distances

Entry (p, q) of a result is the zero word's value, 0, plus the sum over the 256 columns d of |X (p, d) - X (q, d)|, X the
table of differences the stage reads: the two broadcasts read X at (p, d) and at (q, d), the host's absolute value of
an extended real x is max x (-x), the specification's. -/

/-- The first result is the matrix of L1 distances of the first table of differences. -/
theorem val_v21_eq (h1 : ∀ r : Fin 1024, (a1 (ix1 r)).toNat < 131072) (h2 : ∀ r : Fin 1024, (a2 (ix1 r)).toNat < 131072) :
    val_main_v21 (F := Ideal) Z a1 a2 = Cert.Spec.cdist (Cert.Spec.gdiff Z a1 a2) := by
  funext y
  obtain ⟨p, q, rfl⟩ : ∃ (p : Fin 1024) (q : Fin 1024), y = ix2 p q := ⟨y 0, y 1, eq_ix2 y⟩
  rw [val_main_v21_apply, val_main_cst_apply, Ideal.ofBits_def, Ideal.ofBits_zero_f32, zero_add, Cert.Spec.cdist_apply]
  unfold Cert.Spec.cdistAt
  refine Finset.sum_congr rfl fun k _ => ?_
  have eL : idx_main_v15 (idx_main_v17 (idx_main_v21 (ix2 p q) k)) = ix2 p k :=
    funext fun a => Fin.ext (by match a with | ⟨0, _⟩ => rfl | ⟨1, _⟩ => rfl)
  have eR : idx_main_v16 (idx_main_v18 (idx_main_v21 (ix2 p q) k)) = ix2 q k :=
    funext fun a => Fin.ext (by match a with | ⟨0, _⟩ => rfl | ⟨1, _⟩ => rfl)
  rw [val_main_v20_apply, val_main_v19_apply, val_main_v17_apply, val_main_v15_apply, val_main_v18_apply, val_main_v16_apply, eL, eR, v14_eq Z a1 a2 h1 h2]
  rfl

/-- The second result is the matrix of L1 distances of the second table of differences. -/
theorem val_v43_eq (h1 : ∀ r : Fin 1024, (a1 (ix1 r)).toNat < 131072) (h2 : ∀ r : Fin 1024, (a2 (ix1 r)).toNat < 131072)
    (h3 : ∀ r : Fin 1024, (a3 (ix1 r)).toNat < 1024) (h4 : ∀ r : Fin 1024, (a4 (ix1 r)).toNat < 1024) :
    val_main_v43 (F := Ideal) Z a1 a2 a3 a4 = Cert.Spec.cdist (Cert.Spec.gdiff (Cert.Spec.gdiff Z a1 a2) a3 a4) := by
  funext y
  obtain ⟨p, q, rfl⟩ : ∃ (p : Fin 1024) (q : Fin 1024), y = ix2 p q := ⟨y 0, y 1, eq_ix2 y⟩
  rw [val_main_v43_apply, val_main_cst_7_apply, Ideal.ofBits_def, Ideal.ofBits_zero_f32, zero_add, Cert.Spec.cdist_apply]
  unfold Cert.Spec.cdistAt
  refine Finset.sum_congr rfl fun k _ => ?_
  have eL : idx_main_v37 (idx_main_v39 (idx_main_v43 (ix2 p q) k)) = ix2 p k :=
    funext fun a => Fin.ext (by match a with | ⟨0, _⟩ => rfl | ⟨1, _⟩ => rfl)
  have eR : idx_main_v38 (idx_main_v40 (idx_main_v43 (ix2 p q) k)) = ix2 q k :=
    funext fun a => Fin.ext (by match a with | ⟨0, _⟩ => rfl | ⟨1, _⟩ => rfl)
  rw [val_main_v42_apply, val_main_v41_apply, val_main_v39_apply, val_main_v37_apply, val_main_v40_apply, val_main_v38_apply, eL, eR, v36_eq Z a1 a2 a3 a4 h1 h2 h3 h4]
  rfl

/-! ## The exported statements: the run's two result terms are the specification's functions -/

/-- The term the reference's run states for its second result (the first matrix of distances), over any argument
    arrays whose first two lists hold row numbers of `Z`. -/
theorem res_v21_eq (h1 : ∀ r : Fin 1024, (a1 (ix1 r)).toNat < 131072) (h2 : ∀ r : Fin 1024, (a2 (ix1 r)).toNat < 131072) :
    Host.reduceAdd (Host.absf (subf (broadcastInDim S1024x1024x256 ![0, 1, 2] bcast_S1024x1x256_S1024x1024x256_0_1_2 (broadcastInDim S1024x1x256 ![0, 2] bcast_S1024x256_S1024x1x256_0_2 (subf (Host.gather gather_S131072x256_S1024x1_S1024x256_1_0_n_n_0_1_1256 Z (broadcastInDim S1024x1 ![0] bcast_S1024_S1024x1_0 (select (cmpi .slt a1 (broadcastInDim S1024 ![] bcast_S_S1024 (constantI S_ 32 0#32))) (addi a1 (broadcastInDim S1024 ![] bcast_S_S1024 (constantI S_ 32 131072#32))) a1))) (Host.gather gather_S131072x256_S1024x1_S1024x256_1_0_n_n_0_1_1256 Z (broadcastInDim S1024x1 ![0] bcast_S1024_S1024x1_0 (select (cmpi .slt a2 (broadcastInDim S1024 ![] bcast_S_S1024 (constantI S_ 32 0#32))) (addi a2 (broadcastInDim S1024 ![] bcast_S_S1024 (constantI S_ 32 131072#32))) a2)))))) (broadcastInDim S1024x1024x256 ![0, 1, 2] bcast_S1x1024x256_S1024x1024x256_0_1_2 (broadcastInDim S1x1024x256 ![1, 2] bcast_S1024x256_S1x1024x256_1_2 (subf (Host.gather gather_S131072x256_S1024x1_S1024x256_1_0_n_n_0_1_1256 Z (broadcastInDim S1024x1 ![0] bcast_S1024_S1024x1_0 (select (cmpi .slt a1 (broadcastInDim S1024 ![] bcast_S_S1024 (constantI S_ 32 0#32))) (addi a1 (broadcastInDim S1024 ![] bcast_S_S1024 (constantI S_ 32 131072#32))) a1))) (Host.gather gather_S131072x256_S1024x1_S1024x256_1_0_n_n_0_1_1256 Z (broadcastInDim S1024x1 ![0] bcast_S1024_S1024x1_0 (select (cmpi .slt a2 (broadcastInDim S1024 ![] bcast_S_S1024 (constantI S_ 32 0#32))) (addi a2 (broadcastInDim S1024 ![] bcast_S_S1024 (constantI S_ 32 131072#32))) a2)))))))) (constant S_ .f32 0x00000000#32) reducesTo_S1024x1024x256_S1024x1024_d2 h_S_
      = Cert.Spec.cdist (Cert.Spec.gdiff Z a1 a2) :=
  (val_main_v21_eq (F := Ideal) Z a1 a2).trans (val_v21_eq Z a1 a2 h1 h2)

/-- The term the reference's run names for its first and third results (the second matrix of distances), at the
    launch memory's argument arrays. -/
theorem res_v43_eq (m : (ℓ : Loc nD τ sig) → Buf (Elt Ideal) ℓ) (c : Dev nD)
    (h1 : ∀ r : Fin 1024, ((m ((c.tc : Thread nD τ).loc main_arg1)) (ix1 r)).toNat < 131072)
    (h2 : ∀ r : Fin 1024, ((m ((c.tc : Thread nD τ).loc main_arg2)) (ix1 r)).toNat < 131072)
    (h3 : ∀ r : Fin 1024, ((m ((c.tc : Thread nD τ).loc main_arg3)) (ix1 r)).toNat < 1024)
    (h4 : ∀ r : Fin 1024, ((m ((c.tc : Thread nD τ).loc main_arg4)) (ix1 r)).toNat < 1024) :
    Cert.ReferenceIdeal.Value.res_main_v43 m c
      = Cert.Spec.cdist (Cert.Spec.gdiff (Cert.Spec.gdiff (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) :=
  (val_main_v43_eq (F := Ideal) m c).trans (val_v43_eq _ _ _ _ _ h1 h2 h3 h4)

/-- The same, with the launch memory's argument arrays named. -/
theorem res_v43_eq_of (m : (ℓ : Loc nD τ sig) → Buf (Elt Ideal) ℓ) (c : Dev nD)
    (e0 : (m ((c.tc : Thread nD τ).loc main_arg0)) = Z) (e1 : (m ((c.tc : Thread nD τ).loc main_arg1)) = a1) (e2 : (m ((c.tc : Thread nD τ).loc main_arg2)) = a2) (e3 : (m ((c.tc : Thread nD τ).loc main_arg3)) = a3) (e4 : (m ((c.tc : Thread nD τ).loc main_arg4)) = a4)
    (h1 : ∀ r : Fin 1024, (a1 (ix1 r)).toNat < 131072) (h2 : ∀ r : Fin 1024, (a2 (ix1 r)).toNat < 131072)
    (h3 : ∀ r : Fin 1024, (a3 (ix1 r)).toNat < 1024) (h4 : ∀ r : Fin 1024, (a4 (ix1 r)).toNat < 1024) :
    Cert.ReferenceIdeal.Value.res_main_v43 m c = Cert.Spec.cdist (Cert.Spec.gdiff (Cert.Spec.gdiff Z a1 a2) a3 a4) := by
  subst e0 e1 e2 e3 e4
  exact res_v43_eq m c h1 h2 h3 h4

end Cert.ReferenceIdeal.RefValue

end
-- ==== Proof.lean ====
/-
  The certificate of a four-region program against its jnp reference, over the extended reals.

  The program: from a table `Z` of 131072 rows of 256 numbers and four lists of 1024 row numbers it forms the table of
  differences `D = (Z[I₀ r] − Z[J₀ r])_r`, the matrix of L1 distances between the rows of `D`, the table of differences
  `D' = (D[I₁ r] − D[J₁ r])_r` and the matrix of L1 distances between the rows of `D'`; it returns the second matrix,
  the first, and the second again. The kernel does each table of differences one row per grid point, the two rows
  named by prefetched tables, and each matrix of distances in [64,128] blocks, a block's entry being the sum over eight
  chunks of 32 columns of `|x − y|`; the reference gathers whole tables and sums the 256 columns at once. On the extended
  reals the two agree entry by entry: a row number in range names the same row on both sides, and regrouping a finite
  sum needs no finiteness. The row numbers must be in range (the precondition's four added conjuncts): the kernel's
  block of a row outside the table has no place in the array.

  The frames of the two kernel programs are the run of their four regions (each region a segment entered from and left
  at "every unscoped buffer held at a valuation"); the reference's frame is its run with the results dropped; the
  idealization rewrote nothing.
-/
import proofs.«412525_j6176162972381_4_alg».proof.Defs
import proofs.«412525_j6176162972381_4_alg».proof.Proof.Gen.Kernel
import proofs.«412525_j6176162972381_4_alg».proof.Proof.Gen.KernelIdeal
import proofs.«412525_j6176162972381_4_alg».proof.Proof.Gen.ReferenceIdeal
import proofs.«412525_j6176162972381_4_alg».proof.Proof.Gen.Pre_finite_inputs
import proofs.«412525_j6176162972381_4_alg».proof.Proof.Gen.ReferenceIdeal.Run
import proofs.«412525_j6176162972381_4_alg».proof.Proof.Gen.ReferenceIdeal.Read
import proofs.«412525_j6176162972381_4_alg».proof.Proof.K_Frame
import proofs.«412525_j6176162972381_4_alg».proof.Proof.K_PreDecode
import proofs.«412525_j6176162972381_4_alg».proof.Proof.KI_Frame
import proofs.«412525_j6176162972381_4_alg».proof.Proof.KI_PreDecode
import proofs.«412525_j6176162972381_4_alg».proof.Proof.KI_Value
import proofs.«412525_j6176162972381_4_alg».proof.Proof.RefValue
import Idealize.ShloMosaic.Adequacy
import Idealize.ShloMosaic.Init

noncomputable section

namespace Cert.Proof

open Idealize.ShloMosaic Idealize.SL.Sem

/-- The word-level program runs and leaves its arguments: its four regions' run, the tables in range by the
    precondition. -/
theorem frame_K : Cert.frame_Kernel (hKernel := Cert.Kernel.Gen.facts) (hPre_finite_inputs := Cert.Pre_finite_inputs.Gen.facts) :=
  fun m ρ hpre => by
    obtain ⟨r1, r2, r3, r4⟩ := Cert.PreDecode.idx_ranges _ _ _ _ _ (hpre 0)
    exact Cert.Kernel.Hand.frame m ρ (Cert.Kernel.Hand.ok0_of _ r1 r2) (Cert.Kernel.Hand.ok2_of _ r3 r4)

/-- The idealized program runs and leaves its arguments, in the same way. -/
theorem frame_KI : Cert.frame_KernelIdeal (hKernelIdeal := Cert.KernelIdeal.Gen.facts) (hPre_finite_inputs := Cert.Pre_finite_inputs.Gen.facts) :=
  fun m ρ hpre => by
    obtain ⟨r1, r2, r3, r4⟩ := Cert.PreDecode.idx_ranges _ _ _ _ _ (hpre 0)
    exact Cert.KernelIdeal.Hand.frame m ρ (Cert.KernelIdeal.Hand.ok0_of _ r1 r2) (Cert.KernelIdeal.Hand.ok2_of _ r3 r4)

/-- The reference runs and leaves its arguments: its run, the three results dropped. -/
theorem frame_R : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- Over the extended reals both programs end with the matrix of distances of the second table of differences in the
    first and third result and that of the first table in the second. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  obtain ⟨r1, r2, r3, r4⟩ := Cert.PreDecode.idx_ranges _ _ _ _ _ (hpre 0)
  have hok0 : Cert.KernelIdeal.ok0 (F := Ideal) (Cert.KernelIdeal.Hand.tbl0 m) := Cert.KernelIdeal.Hand.ok0_of _ r1 r2
  have hok2 : Cert.KernelIdeal.ok2 (F := Ideal) (Cert.KernelIdeal.Hand.tbl2 m) := Cert.KernelIdeal.Hand.ok2_of _ r3 r4
  refine ⟨fun c => Cert.KernelIdeal.HandV.second m c, fun c => Cert.KernelIdeal.HandV.first m c, fun c => Cert.KernelIdeal.HandV.second m c, ?_, ?_⟩
  · refine (θ_run Cert.KernelIdeal.defs _ _).mono (fun r h c => ?_) (Cert.KernelIdeal.Hand.run_main m ρ hok0 hok2)
    obtain rfl : c = 0 := Subsingleton.elim _ _
    exact ⟨(h 0).2.2.2.2.2.1.trans (Cert.KernelIdeal.HandV.o7_eq m hok0 hok2 r1 r2 r3 r4),
      (h 0).2.2.2.2.2.2.trans (Cert.KernelIdeal.HandV.o3_eq m hok0 hok2 r1 r2),
      (h 0).2.2.2.2.2.1.trans (Cert.KernelIdeal.HandV.o7_eq m hok0 hok2 r1 r2 r3 r4),
      (h 0).1, (h 0).2.1, (h 0).2.2.1, (h 0).2.2.2.1, (h 0).2.2.2.2.1⟩
  · refine (θ_run Cert.ReferenceIdeal.defs _ _).mono (fun r h c => ?_) (Cert.ReferenceIdeal.Value.run (F := Ideal) m' ρ')
    obtain rfl : c = 0 := Subsingleton.elim _ _
    obtain ⟨e0, e1, e2, e3, e4⟩ := hagree 0
    have s43 := Cert.ReferenceIdeal.RefValue.res_v43_eq_of _ _ _ _ _ m' 0 e0 e1 e2 e3 e4 r1 r2 r3 r4
    refine ⟨(h 0).1.trans s43, (h 0).2.1.trans ?_, (h 0).2.2.1.trans s43, (h 0).2.2.2⟩
    rw [e0, e1, e2]
    exact Cert.ReferenceIdeal.RefValue.res_v21_eq _ _ _ r1 r2

theorem claim : Cert.Claim :=
  ⟨Cert.Kernel.Gen.facts, Cert.KernelIdeal.Gen.facts, Cert.ReferenceIdeal.Gen.facts, Cert.Pre_finite_inputs.Gen.facts,
    frame_K, frame_KI, frame_R, trivial, algebraic⟩

end Cert.Proof

end
